-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000 : Shape := ⟨1, ![500000]⟩
abbrev S384x128 : Shape := ⟨2, ![384, 128]⟩
abbrev S384 : Shape := ⟨1, ![384]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S256x128 : Shape := ⟨2, ![256, 128]⟩
abbrev S256 : Shape := ⟨1, ![256]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_

variable [Facts]

def fn_part6 {F : FTy → Type} [FloatOps F] (main_arg23 : FVec F S128 .f32) (main_arg24 : FVec F S128 .f32) (main_arg25 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  main_v118

def fn_part5 {F : FTy → Type} [FloatOps F] (main_arg20 : FVec F S128x256 .f32) (main_arg21 : FVec F S128 .f32) (main_arg22 : FVec F S128 .f32) (main_arg23 : FVec F S128 .f32) (main_arg24 : FVec F S128 .f32) (main_arg25 : FVec F S128 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S128x256 .f32 := Host.absf main_arg20
  let main_cst_34 : FVec F S_ .f32 := constant S_ .f32 0x7F800000#32
  let main_v90 : FVec F S128x256 .f32 := broadcastInDim S128x256 ![] bcast_S_S128x256 main_cst_34
  let main_v91 : IVec S128x256 1 := cmpf .olt main_v89 main_v90
  let main_c_35 : IVec S_ 1 := constantI S_ 1 1#1
  let main_v92 : IVec S_ 1 := (fun x v => Host.reduce IntOp.andi x v reducesTo_S128x256_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S128x128 .f32) (main_arg17 : FVec F S128x128 .f32) (main_arg18 : FVec F S256x128 .f32) (main_arg19 : FVec F S256 .f32) (main_arg20 : FVec F S128x256 .f32) (main_arg21 : FVec F S128 .f32) (main_arg22 : FVec F S128 .f32) (main_arg23 : FVec F S128 .f32) (main_arg24 : FVec F S128 .f32) (main_arg25 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S256x128 .f32 := Host.absf main_arg18
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S128 .f32) (main_arg14 : FVec F S128 .f32) (main_arg15 : FVec F S128x128 .f32) (main_arg16 : FVec F S128x128 .f32) (main_arg17 : FVec F S128x128 .f32) (main_arg18 : FVec F S256x128 .f32) (main_arg19 : FVec F S256 .f32) (main_arg20 : FVec F S128x256 .f32) (main_arg21 : FVec F S128 .f32) (main_arg22 : FVec F S128 .f32) (main_arg23 : FVec F S128 .f32) (main_arg24 : FVec F S128 .f32) (main_arg25 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S128x512 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128x128 .f32) (main_arg17 : FVec F S128x128 .f32) (main_arg18 : FVec F S256x128 .f32) (main_arg19 : FVec F S256 .f32) (main_arg20 : FVec F S128x256 .f32) (main_arg21 : FVec F S128 .f32) (main_arg22 : FVec F S128 .f32) (main_arg23 : FVec F S128 .f32) (main_arg24 : FVec F S128 .f32) (main_arg25 : FVec F S128 .f32) (main_v33 : IVec S_ 1) : IVec S_ 1 :=
  let main_v34 : FVec F S128x512 .f32 := Host.absf main_arg9
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S128 .f32) (main_arg7 : FVec F S512x128 .f32) (main_arg8 : FVec F S512 .f32) (main_arg9 : FVec F S128x512 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128x128 .f32) (main_arg17 : FVec F S128x128 .f32) (main_arg18 : FVec F S256x128 .f32) (main_arg19 : FVec F S256 .f32) (main_arg20 : FVec F S128x256 .f32) (main_arg21 : FVec F S128 .f32) (main_arg22 : FVec F S128 .f32) (main_arg23 : FVec F S128 .f32) (main_arg24 : FVec F S128 .f32) (main_arg25 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg7
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x128 .f32) (main_arg1 : IVec S500000 32) (main_arg2 : IVec S500000 32) (main_arg3 : FVec F S384x128 .f32) (main_arg4 : FVec F S384 .f32) (main_arg5 : FVec F S128x128 .f32) (main_arg6 : FVec F S128 .f32) (main_arg7 : FVec F S512x128 .f32) (main_arg8 : FVec F S512 .f32) (main_arg9 : FVec F S128x512 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128x128 .f32) (main_arg17 : FVec F S128x128 .f32) (main_arg18 : FVec F S256x128 .f32) (main_arg19 : FVec F S256 .f32) (main_arg20 : FVec F S128x256 .f32) (main_arg21 : FVec F S128 .f32) (main_arg22 : FVec F S128 .f32) (main_arg23 : FVec F S128 .f32) (main_arg24 : FVec F S128 .f32) (main_arg25 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S384x128 .f32 := Host.absf main_arg3
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S384 .f32 := Host.absf main_arg4
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x128 : Shape := ⟨2, ![50000, 128]⟩
abbrev S500000 : Shape := ⟨1, ![500000]⟩
abbrev S384x128 : Shape := ⟨2, ![384, 128]⟩
abbrev S384 : Shape := ⟨1, ![384]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S256x128 : Shape := ⟨2, ![256, 128]⟩
abbrev S256 : Shape := ⟨1, ![256]⟩
abbrev S128x256 : Shape := ⟨2, ![128, 256]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩
abbrev S2000x512 : Shape := ⟨2, ![2000, 512]⟩
abbrev S1x512 : Shape := ⟨2, ![1, 512]⟩
abbrev S50000x8x16 : Shape := ⟨3, ![50000, 8, 16]⟩
abbrev S_ : Shape := ⟨0, ![]⟩
abbrev S500000x1 : Shape := ⟨2, ![500000, 1]⟩
abbrev S500000x8x16 : Shape := ⟨3, ![500000, 8, 16]⟩
abbrev S500000x8 : Shape := ⟨2, ![500000, 8]⟩
abbrev S400x8x16 : Shape := ⟨3, ![400, 8, 16]⟩
abbrev S400x8 : Shape := ⟨2, ![400, 8]⟩
abbrev S400x8x1 : Shape := ⟨3, ![400, 8, 1]⟩
abbrev S50000x8 : Shape := ⟨2, ![50000, 8]⟩
abbrev S50000x8x1 : Shape := ⟨3, ![50000, 8, 1]⟩
abbrev S2000x256 : Shape := ⟨2, ![2000, 256]⟩
abbrev S1x256 : Shape := ⟨2, ![1, 256]⟩

abbrev nBuf : Space → Nat
  | .hbm => 147
  | .vmem => 45
  | .smem => 0
  | _ => 0

abbrev hbmTy0_0 (i : Nat) : BufTy := match i % 128 with
  | 0 => ⟨S50000x128, .f32⟩
  | 1 => ⟨S500000, .i32⟩
  | 2 => ⟨S500000, .i32⟩
  | 3 => ⟨S384x128, .f32⟩
  | 4 => ⟨S384, .f32⟩
  | 5 => ⟨S128x128, .f32⟩
  | 6 => ⟨S128, .f32⟩
  | 7 => ⟨S512x128, .f32⟩
  | 8 => ⟨S512, .f32⟩
  | 9 => ⟨S128x512, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128x128, .f32⟩
  | 17 => ⟨S128x128, .f32⟩
  | 18 => ⟨S256x128, .f32⟩
  | 19 => ⟨S256, .f32⟩
  | 20 => ⟨S128x256, .f32⟩
  | 21 => ⟨S128, .f32⟩
  | 22 => ⟨S128, .f32⟩
  | 23 => ⟨S128, .f32⟩
  | 24 => ⟨S128, .f32⟩
  | 25 => ⟨S128, .f32⟩
  | 26 => ⟨S128x128, .f32⟩
  | 27 => ⟨S128, .f32⟩
  | 28 => ⟨S128x128, .f32⟩
  | 29 => ⟨S128x128, .bf16⟩
  | 30 => ⟨S128x128, .f32⟩
  | 31 => ⟨S128x128, .bf16⟩
  | 32 => ⟨S128x512, .f32⟩
  | 33 => ⟨S128x512, .bf16⟩
  | 34 => ⟨S512x128, .f32⟩
  | 35 => ⟨S512x128, .bf16⟩
  | 36 => ⟨S128x128, .f32⟩
  | 37 => ⟨S128x128, .bf16⟩
  | 38 => ⟨S128x128, .f32⟩
  | 39 => ⟨S128x128, .bf16⟩
  | 40 => ⟨S128x128, .f32⟩
  | 41 => ⟨S128x128, .bf16⟩
  | 42 => ⟨S128x256, .f32⟩
  | 43 => ⟨S128x256, .bf16⟩
  | 44 => ⟨S256x128, .f32⟩
  | 45 => ⟨S256x128, .bf16⟩
  | 46 => ⟨S50000x128, .f32⟩
  | 47 => ⟨S50000x128, .f32⟩
  | 48 => ⟨S50000x128, .f32⟩
  | 49 => ⟨S50000x128, .f32⟩
  | 50 => ⟨S50000x8x16, .f32⟩
  | 51 => ⟨S50000x8x16, .f32⟩
  | 52 => ⟨S50000x8x16, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x8x16, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x8x16, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x8x16, .f32⟩
  | 80 => ⟨S500000x8, .f32⟩
  | 81 => ⟨S500000x8x16, .f32⟩
  | 82 => ⟨S_, .f32⟩
  | 83 => ⟨S50000x8x16, .f32⟩
  | 84 => ⟨S500000x1, .i32⟩
  | 85 => ⟨S50000x8x16, .f32⟩
  | 86 => ⟨S_, .f32⟩
  | 87 => ⟨S50000x8, .f32⟩
  | 88 => ⟨S500000x1, .i32⟩
  | 89 => ⟨S50000x8, .f32⟩
  | 90 => ⟨S50000x8x1, .f32⟩
  | 91 => ⟨S50000x8x16, .f32⟩
  | 92 => ⟨S50000x8x16, .f32⟩
  | 93 => ⟨S50000x128, .f32⟩
  | 94 => ⟨S50000x128, .f32⟩
  | 95 => ⟨S_, .f32⟩
  | 96 => ⟨S128, .f32⟩
  | 97 => ⟨S_, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S128, .f32⟩
  | 106 => ⟨S_, .f32⟩
  | 107 => ⟨S128, .f32⟩
  | 108 => ⟨S128, .f32⟩
  | 109 => ⟨S_, .f32⟩
  | 110 => ⟨S128, .f32⟩
  | 111 => ⟨S128, .f32⟩
  | 112 => ⟨S128, .f32⟩
  | 113 => ⟨S128, .f32⟩
  | 114 => ⟨S128, .f32⟩
  | 115 => ⟨S128, .f32⟩
  | 116 => ⟨S50000x128, .f32⟩
  | 117 => ⟨S_, .f32⟩
  | 118 => ⟨S128, .f32⟩
  | 119 => ⟨S_, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S50000x128, .f32⟩
  | 126 => ⟨S_, .f32⟩
  | 127 => ⟨S128, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S128x512, .bf16⟩
  | .local _ .vmem, ⟨7, _⟩ => ⟨S512, .f32⟩
  | .local _ .vmem, ⟨8, _⟩ => ⟨S512x128, .bf16⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128x128, .bf16⟩
  | .local _ .vmem, ⟨15, _⟩ => ⟨S128x128, .bf16⟩
  | .local _ .vmem, ⟨16, _⟩ => ⟨S128x128, .bf16⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S400x8x16, .f32⟩
  | .local _ .vmem, ⟨26, _⟩ => ⟨S400x8x16, .f32⟩
  | .local _ .vmem, ⟨27, _⟩ => ⟨S400x8x16, .f32⟩
  | .local _ .vmem, ⟨28, _⟩ => ⟨S400x8x16, .f32⟩
  | .local _ .vmem, ⟨29, _⟩ => ⟨S400x8x16, .f32⟩
  | .local _ .vmem, ⟨30, _⟩ => ⟨S400x8x16, .f32⟩
  | .local _ .vmem, ⟨31, _⟩ => ⟨S400x8, .f32⟩
  | .local _ .vmem, ⟨32, _⟩ => ⟨S400x8, .f32⟩
  | .local _ .vmem, ⟨33, _⟩ => ⟨S400x8x16, .f32⟩
  | .local _ .vmem, ⟨34, _⟩ => ⟨S400x8x16, .f32⟩
  | .local _ .vmem, ⟨35, _⟩ => ⟨S2000x128, .f32⟩
  | .local _ .vmem, ⟨36, _⟩ => ⟨S2000x128, .f32⟩
  | .local _ .vmem, ⟨37, _⟩ => ⟨S128, .f32⟩
  | .local _ .vmem, ⟨38, _⟩ => ⟨S128, .f32⟩
  | .local _ .vmem, ⟨39, _⟩ => ⟨S128x256, .bf16⟩
  | .local _ .vmem, ⟨40, _⟩ => ⟨S256, .f32⟩
  | .local _ .vmem, ⟨41, _⟩ => ⟨S256x128, .bf16⟩
  | .local _ .vmem, ⟨42, _⟩ => ⟨S128, .f32⟩
  | .local _ .vmem, ⟨43, _⟩ => ⟨S2000x128, .f32⟩
  | .local _ .vmem, ⟨44, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20_0 : Ref sig .tc := ⟨.hbm, 46, rfl⟩
abbrev main_v20_1 : Ref sig .tc := ⟨.hbm, 47, rfl⟩
abbrev main_v20_2 : Ref sig .tc := ⟨.hbm, 48, rfl⟩
abbrev main_v20_3 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c : Ref sig .tc := ⟨.hbm, 53, rfl⟩
abbrev main_v24 : Ref sig .tc := ⟨.hbm, 54, rfl⟩
abbrev main_v25 : Ref sig .tc := ⟨.hbm, 55, rfl⟩
abbrev main_c_0 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_1 : Ref sig .tc := ⟨.hbm, 62, rfl⟩
abbrev main_v31 : Ref sig .tc := ⟨.hbm, 63, rfl⟩
abbrev main_v32 : Ref sig .tc := ⟨.hbm, 64, rfl⟩
abbrev main_c_2 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_3 : Ref sig .tc := ⟨.hbm, 71, rfl⟩
abbrev main_v38 : Ref sig .tc := ⟨.hbm, 72, rfl⟩
abbrev main_v39 : Ref sig .tc := ⟨.hbm, 73, rfl⟩
abbrev main_c_4 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45_0 : Ref sig .tc := ⟨.hbm, 80, rfl⟩
abbrev main_v45_1 : Ref sig .tc := ⟨.hbm, 81, rfl⟩
abbrev main_cst : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_5 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_6 : Ref sig .tc := ⟨.hbm, 95, rfl⟩
abbrev main_v57 : Ref sig .tc := ⟨.hbm, 96, rfl⟩
abbrev main_cst_7 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_8 : Ref sig .tc := ⟨.hbm, 104, rfl⟩
abbrev main_v64 : Ref sig .tc := ⟨.hbm, 105, rfl⟩
abbrev main_cst_9 : Ref sig .tc := ⟨.hbm, 106, rfl⟩
abbrev main_v65 : Ref sig .tc := ⟨.hbm, 107, rfl⟩
abbrev main_v66 : Ref sig .tc := ⟨.hbm, 108, rfl⟩
abbrev main_cst_10 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_11 : Ref sig .tc := ⟨.hbm, 117, rfl⟩
abbrev main_v74 : Ref sig .tc := ⟨.hbm, 118, rfl⟩
abbrev main_cst_12 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_13 : Ref sig .tc := ⟨.hbm, 126, rfl⟩
abbrev main_v81 : Ref sig .tc := ⟨.hbm, 127, rfl⟩
abbrev main_cst_14 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_15 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg7_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem4_1 : DmaSem sig := 34
abbrev cc2_sem0_0 : DmaSem sig := 35
abbrev cc2_sem0_1 : DmaSem sig := 36
abbrev cc2_sem1_0 : DmaSem sig := 37
abbrev cc2_sem2_0 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem7_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2000x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨1, ![1250], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S400x8x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x8x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x8x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x8x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S384x128_S128x128_256_0 : S384x128.Slices ![256, 0] S128x128
  slices_S384_S128_256 : S384.Slices ![256] S128
  transposes_S128x128_S128x128_1_0 : S128x128.Transposes [1, 0] S128x128
  bitsLt_bf16_f32 : FTy.bits .bf16 < FTy.bits .f32
  transposes_S512x128_S128x512_1_0 : S512x128.Transposes [1, 0] S128x512
  transposes_S128x512_S512x128_1_0 : S128x512.Transposes [1, 0] S512x128
  transposes_S256x128_S128x256_1_0 : S256x128.Transposes [1, 0] S128x256
  transposes_S128x256_S256x128_1_0 : S128x256.Transposes [1, 0] S256x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S50000x128_S50000x8x16 : S50000x128.ShapeCasts S50000x8x16
  bcast_S_S500000 : S_.BroadcastsInDim S500000 (![] : Fin 0 → Fin S500000.rank)
  bcast_S500000_S500000x1_0 : S500000.BroadcastsInDim S500000x1 (![0] : Fin 1 → Fin S500000x1.rank)
  inb_S400x8x16_S400x8x16_0_0_0 : ∀ a, (![0, 0, 0] : Fin 3 → Nat) a + S400x8x16.size a ≤ S400x8x16.size a
  h_S400x8x16 : 0 < S400x8x16.numel
  shapeCasts_S400x8x16_S400x8x16 : S400x8x16.ShapeCasts S400x8x16
  reduces_S400x8x16_S400x8 : S400x8x16.Reduces [2] S400x8
  inb_S400x8_S400x8_0_0 : ∀ a, (![0, 0] : Fin 2 → Nat) a + S400x8.size a ≤ S400x8.size a
  h_S400x8 : 0 < S400x8.numel
  shapeCasts_S400x8_S400x8x1 : S400x8.ShapeCasts S400x8x1
  broadcasts_S400x8x1_S400x8x16 : S400x8x1.Broadcasts S400x8x16
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S2000x128_S128x128_S2000x128_1_0_0_1_n_n_wf : DotDims.WF S2000x128 S128x128 S2000x128 [1] [0] [0] [1] [] []
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  gather_S50000x8x16_S500000x1_S500000x8x16_12_0_n_n_0_1_1816_wf : GatherDims.WF S50000x8x16 S500000x1 S500000x8x16 [1, 2] [0] [] [0] [] 1 ![1, 8, 16]
  scatter_S50000x8x16_S500000x1_S500000x8x16_12_0_0_1_wf : ScatterDims.WF S50000x8x16 S500000x1 S500000x8x16 [1, 2] [0] [0] 1
  scatter_S50000x8_S500000x1_S500000x8_1_0_0_1_wf : ScatterDims.WF S50000x8 S500000x1 S500000x8 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .bf16 = 32 ∨ (Rect.block (s := S128x512) S128x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .bf16 = 32 ∨ (Rect.block (s := S512x128) S512x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .bf16 = 32 ∨ (Rect.block (s := S128x128) S128x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .bf16 = 32 ∨ (Rect.block (s := S128x128) S128x128.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x128.size a ≤ S50000x128.size a
  hwx0_16 : ∀ i : grid0.Coords, EltTy.bits .f32 = 32 ∨ (Rect.block (s := S50000x128) S2000x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x128.size a ≤ S50000x128.size a
  hwx0_17 : ∀ i : grid0.Coords, EltTy.bits .f32 = 32 ∨ (Rect.block (s := S50000x128) S2000x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2000x128.size a ≤ S50000x128.size a
  hwx0_18 : ∀ i : grid0.Coords, EltTy.bits .f32 = 32 ∨ (Rect.block (s := S50000x128) S2000x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2000x128.size a ≤ S50000x128.size a
  hwx0_19 : ∀ i : grid0.Coords, EltTy.bits .f32 = 32 ∨ (Rect.block (s := S50000x128) S2000x128.size (cc0_transform_19 i) (hinb0_19 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x8x16.size a ≤ S500000x8x16.size a
  hwx1_0 : ∀ i : grid1.Coords, EltTy.bits .f32 = 32 ∨ (Rect.block (s := S500000x8x16) S400x8x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x8x16.size a ≤ S500000x8x16.size a
  hwx1_1 : ∀ i : grid1.Coords, EltTy.bits .f32 = 32 ∨ (Rect.block (s := S500000x8x16) S400x8x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x8x16.size a ≤ S500000x8x16.size a
  hwx1_2 : ∀ i : grid1.Coords, EltTy.bits .f32 = 32 ∨ (Rect.block (s := S500000x8x16) S400x8x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x8.size a ≤ S500000x8.size a
  hwx1_3 : ∀ i : grid1.Coords, EltTy.bits .f32 = 32 ∨ (Rect.block (s := S500000x8) S400x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x8x16.size a ≤ S500000x8x16.size a
  hwx1_4 : ∀ i : grid1.Coords, EltTy.bits .f32 = 32 ∨ (Rect.block (s := S500000x8x16) S400x8x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .bf16 = 32 ∨ (Rect.block (s := S128x256) S128x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .bf16 = 32 ∨ (Rect.block (s := S256x128) S256x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x8x16_S500000x1_S500000x8x16_12_0_n_n_0_1_1816 : GatherDims S50000x8x16 S500000x1 S500000x8x16 where
  offsetDims := [1, 2]
  collapsedSliceDims := [0]
  operandBatchingDims := []
  startIndicesBatchingDims := []
  startIndexMap := [0]
  indexVectorDim := 1
  sliceSizes := ![1, 8, 16]
  wf := gather_S50000x8x16_S500000x1_S500000x8x16_12_0_n_n_0_1_1816_wf
def scatter_S50000x8x16_S500000x1_S500000x8x16_12_0_0_1 : ScatterDims S50000x8x16 S500000x1 S500000x8x16 where
  updateWindowDims := [1, 2]
  insertedWindowDims := [0]
  scatterDimsToOperandDims := [0]
  indexVectorDim := 1
  wf := scatter_S50000x8x16_S500000x1_S500000x8x16_12_0_0_1_wf
def scatter_S50000x8_S500000x1_S500000x8_1_0_0_1 : ScatterDims S50000x8 S500000x1 S500000x8 where
  updateWindowDims := [1]
  insertedWindowDims := [0]
  scatterDimsToOperandDims := [0]
  indexVectorDim := 1
  wf := scatter_S50000x8_S500000x1_S500000x8_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v20_0) S2000x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v20_1) S2000x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v20_2) S2000x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v20_3) S2000x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

abbrev win1_0 : Pipeline.Window sig grid1 :=
  Pipeline.Window.ofSpec (Memref.whole main_v30) S400x8x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S400x8x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S400x8x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45_0) S400x8.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45_1) S400x8x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v56) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg19) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg21) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v73) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S500000 : Shape := ⟨1, ![500000]⟩
abbrev S384x128 : Shape := ⟨2, ![384, 128]⟩
abbrev S384 : Shape := ⟨1, ![384]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S256x128 : Shape := ⟨2, ![256, 128]⟩
abbrev S256 : Shape := ⟨1, ![256]⟩
abbrev S128x256 : Shape := ⟨2, ![128, 256]⟩
abbrev S1x128 : Shape := ⟨2, ![1, 128]⟩
abbrev S_ : Shape := ⟨0, ![]⟩
abbrev S50000 : Shape := ⟨1, ![50000]⟩
abbrev S50000x1 : Shape := ⟨2, ![50000, 1]⟩
abbrev S50000x512 : Shape := ⟨2, ![50000, 512]⟩
abbrev S1x512 : Shape := ⟨2, ![1, 512]⟩
abbrev S50000x8x16 : Shape := ⟨3, ![50000, 8, 16]⟩
abbrev S500000x1 : Shape := ⟨2, ![500000, 1]⟩
abbrev S500000x8x16 : Shape := ⟨3, ![500000, 8, 16]⟩
abbrev S500000x8 : Shape := ⟨2, ![500000, 8]⟩
abbrev S500000x8x1 : Shape := ⟨3, ![500000, 8, 1]⟩
abbrev S50000x8 : Shape := ⟨2, ![50000, 8]⟩
abbrev S50000x8x1 : Shape := ⟨3, ![50000, 8, 1]⟩
abbrev S50000x256 : Shape := ⟨2, ![50000, 256]⟩
abbrev S1x256 : Shape := ⟨2, ![1, 256]⟩

abbrev nBuf : Space → Nat
  | .hbm => 252
  | .vmem => 0
  | .smem => 0
  | _ => 0

abbrev hbmTy0_0 (i : Nat) : BufTy := match i % 128 with
  | 0 => ⟨S50000x128, .f32⟩
  | 1 => ⟨S500000, .i32⟩
  | 2 => ⟨S500000, .i32⟩
  | 3 => ⟨S384x128, .f32⟩
  | 4 => ⟨S384, .f32⟩
  | 5 => ⟨S128x128, .f32⟩
  | 6 => ⟨S128, .f32⟩
  | 7 => ⟨S512x128, .f32⟩
  | 8 => ⟨S512, .f32⟩
  | 9 => ⟨S128x512, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128x128, .f32⟩
  | 17 => ⟨S128x128, .f32⟩
  | 18 => ⟨S256x128, .f32⟩
  | 19 => ⟨S256, .f32⟩
  | 20 => ⟨S128x256, .f32⟩
  | 21 => ⟨S128, .f32⟩
  | 22 => ⟨S128, .f32⟩
  | 23 => ⟨S128, .f32⟩
  | 24 => ⟨S128, .f32⟩
  | 25 => ⟨S128, .f32⟩
  | 26 => ⟨S128x128, .f32⟩
  | 27 => ⟨S128x128, .f32⟩
  | 28 => ⟨S50000x128, .f32⟩
  | 29 => ⟨S128, .f32⟩
  | 30 => ⟨S1x128, .f32⟩
  | 31 => ⟨S50000x128, .f32⟩
  | 32 => ⟨S50000x128, .f32⟩
  | 33 => ⟨S128x128, .f32⟩
  | 34 => ⟨S50000x128, .f32⟩
  | 35 => ⟨S1x128, .f32⟩
  | 36 => ⟨S50000x128, .f32⟩
  | 37 => ⟨S50000x128, .f32⟩
  | 38 => ⟨S50000x128, .f32⟩
  | 39 => ⟨S_, .f32⟩
  | 40 => ⟨S50000, .f32⟩
  | 41 => ⟨S50000x1, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S50000x128, .f32⟩
  | 48 => ⟨S_, .f32⟩
  | 49 => ⟨S50000, .f32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S_, .f32⟩
  | 57 => ⟨S50000x1, .f32⟩
  | 58 => ⟨S50000x1, .f32⟩
  | 59 => ⟨S50000x1, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S128x512, .f32⟩
  | 69 => ⟨S50000x512, .f32⟩
  | 70 => ⟨S1x512, .f32⟩
  | 71 => ⟨S50000x512, .f32⟩
  | 72 => ⟨S50000x512, .f32⟩
  | 73 => ⟨S_, .f32⟩
  | 74 => ⟨S50000x512, .f32⟩
  | 75 => ⟨S50000x512, .f32⟩
  | 76 => ⟨S512x128, .f32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S50000, .f32⟩
  | 84 => ⟨S50000x1, .f32⟩
  | 85 => ⟨S_, .f32⟩
  | 86 => ⟨S50000x1, .f32⟩
  | 87 => ⟨S50000x1, .f32⟩
  | 88 => ⟨S50000x128, .f32⟩
  | 89 => ⟨S50000x128, .f32⟩
  | 90 => ⟨S50000x128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S_, .f32⟩
  | 100 => ⟨S50000x1, .f32⟩
  | 101 => ⟨S50000x1, .f32⟩
  | 102 => ⟨S50000x1, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S128x128, .f32⟩
  | 112 => ⟨S50000x128, .f32⟩
  | 113 => ⟨S50000x8x16, .f32⟩
  | 114 => ⟨S128x128, .f32⟩
  | 115 => ⟨S50000x128, .f32⟩
  | 116 => ⟨S50000x8x16, .f32⟩
  | 117 => ⟨S128x128, .f32⟩
  | 118 => ⟨S50000x128, .f32⟩
  | 119 => ⟨S50000x8x16, .f32⟩
  | 120 => ⟨S_, .i32⟩
  | 121 => ⟨S500000, .i32⟩
  | 122 => ⟨S500000, .i1⟩
  | 123 => ⟨S_, .i32⟩
  | 124 => ⟨S500000, .i32⟩
  | 125 => ⟨S500000, .i32⟩
  | 126 => ⟨S500000, .i32⟩
  | 127 => ⟨S500000x1, .i32⟩
  | _ => ⟨S50000x128, .f32⟩

abbrev hbmTy0_1 (i : Nat) : BufTy := match i % 128 with
  | 0 => ⟨S500000x8x16, .f32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S500000x8x16, .f32⟩
  | 10 => ⟨S500000x8x16, .f32⟩
  | 11 => ⟨S_, .f32⟩
  | 12 => ⟨S500000x8, .f32⟩
  | 13 => ⟨S_, .f32⟩
  | 14 => ⟨S500000x8, .f32⟩
  | 15 => ⟨S500000x8, .f32⟩
  | 16 => ⟨S_, .f32⟩
  | 17 => ⟨S_, .f32⟩
  | 18 => ⟨S_, .f32⟩
  | 19 => ⟨S500000x8, .f32⟩
  | 20 => ⟨S500000x8, .f32⟩
  | 21 => ⟨S_, .f32⟩
  | 22 => ⟨S500000x8, .f32⟩
  | 23 => ⟨S500000x8, .f32⟩
  | 24 => ⟨S500000x8, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x8x16, .f32⟩
  | 34 => ⟨S500000x8x1, .f32⟩
  | 35 => ⟨S500000x8x16, .f32⟩
  | 36 => ⟨S500000x8x16, .f32⟩
  | 37 => ⟨S_, .f32⟩
  | 38 => ⟨S50000x8x16, .f32⟩
  | 39 => ⟨S500000x1, .i32⟩
  | 40 => ⟨S50000x8x16, .f32⟩
  | 41 => ⟨S_, .f32⟩
  | 42 => ⟨S50000x8, .f32⟩
  | 43 => ⟨S500000x1, .i32⟩
  | 44 => ⟨S50000x8, .f32⟩
  | 45 => ⟨S50000x8x1, .f32⟩
  | 46 => ⟨S50000x8x16, .f32⟩
  | 47 => ⟨S50000x8x16, .f32⟩
  | 48 => ⟨S50000x128, .f32⟩
  | 49 => ⟨S50000x128, .f32⟩
  | 50 => ⟨S_, .f32⟩
  | 51 => ⟨S128, .f32⟩
  | 52 => ⟨S_, .f32⟩
  | 53 => ⟨S128, .f32⟩
  | 54 => ⟨S128, .f32⟩
  | 55 => ⟨S1x128, .f32⟩
  | 56 => ⟨S50000x128, .f32⟩
  | 57 => ⟨S50000x128, .f32⟩
  | 58 => ⟨S50000x128, .f32⟩
  | 59 => ⟨S_, .f32⟩
  | 60 => ⟨S128, .f32⟩
  | 61 => ⟨S_, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S_, .f32⟩
  | 68 => ⟨S128, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S128x256, .f32⟩
  | 81 => ⟨S50000x256, .f32⟩
  | 82 => ⟨S1x256, .f32⟩
  | 83 => ⟨S50000x256, .f32⟩
  | 84 => ⟨S50000x256, .f32⟩
  | 85 => ⟨S_, .f32⟩
  | 86 => ⟨S50000x256, .f32⟩
  | 87 => ⟨S50000x256, .f32⟩
  | 88 => ⟨S256x128, .f32⟩
  | 89 => ⟨S50000x128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S128, .f32⟩
  | 96 => ⟨S_, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S_, .f32⟩
  | 112 => ⟨S128, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_1 : Ref sig .tc := ⟨.hbm, 48, rfl⟩
abbrev main_v20 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_call0_cst : Ref sig .tc := ⟨.hbm, 73, rfl⟩
abbrev main_call0_v0 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_4 : Ref sig .tc := ⟨.hbm, 82, rfl⟩
abbrev main_v49 : Ref sig .tc := ⟨.hbm, 83, rfl⟩
abbrev main_v50 : Ref sig .tc := ⟨.hbm, 84, rfl⟩
abbrev main_cst_5 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_6 : Ref sig .tc := ⟨.hbm, 91, rfl⟩
abbrev main_v56 : Ref sig .tc := ⟨.hbm, 92, rfl⟩
abbrev main_v57 : Ref sig .tc := ⟨.hbm, 93, rfl⟩
abbrev main_cst_7 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_8 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c : Ref sig .tc := ⟨.hbm, 120, rfl⟩
abbrev main_v82 : Ref sig .tc := ⟨.hbm, 121, rfl⟩
abbrev main_v83 : Ref sig .tc := ⟨.hbm, 122, rfl⟩
abbrev main_c_9 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_10 : Ref sig .tc := ⟨.hbm, 129, rfl⟩
abbrev main_v89 : Ref sig .tc := ⟨.hbm, 130, rfl⟩
abbrev main_v90 : Ref sig .tc := ⟨.hbm, 131, rfl⟩
abbrev main_c_11 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_12 : Ref sig .tc := ⟨.hbm, 139, rfl⟩
abbrev main_v97 : Ref sig .tc := ⟨.hbm, 140, rfl⟩
abbrev main_cst_13 : Ref sig .tc := ⟨.hbm, 141, rfl⟩
abbrev main_v98 : Ref sig .tc := ⟨.hbm, 142, rfl⟩
abbrev main_v99 : Ref sig .tc := ⟨.hbm, 143, rfl⟩
abbrev main_cst_14 : Ref sig .tc := ⟨.hbm, 144, rfl⟩
abbrev main_cst_15 : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_call1_v3 : Ref sig .tc := ⟨.hbm, 149, rfl⟩
abbrev main_call1_v4 : Ref sig .tc := ⟨.hbm, 150, rfl⟩
abbrev main_v100 : Ref sig .tc := ⟨.hbm, 151, rfl⟩
abbrev main_v101 : Ref sig .tc := ⟨.hbm, 152, rfl⟩
abbrev main_c_16 : Ref sig .tc := ⟨.hbm, 153, rfl⟩
abbrev main_v102 : Ref sig .tc := ⟨.hbm, 154, rfl⟩
abbrev main_v103 : Ref sig .tc := ⟨.hbm, 155, rfl⟩
abbrev main_c_17 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_18 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_19 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_20 : Ref sig .tc := ⟨.hbm, 178, rfl⟩
abbrev main_v123 : Ref sig .tc := ⟨.hbm, 179, rfl⟩
abbrev main_cst_21 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_22 : Ref sig .tc := ⟨.hbm, 187, rfl⟩
abbrev main_v130 : Ref sig .tc := ⟨.hbm, 188, rfl⟩
abbrev main_cst_23 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_cst_24 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_call2_cst : Ref sig .tc := ⟨.hbm, 213, rfl⟩
abbrev main_call2_v0 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_cst_25 : Ref sig .tc := ⟨.hbm, 222, rfl⟩
abbrev main_v160 : Ref sig .tc := ⟨.hbm, 223, rfl⟩
abbrev main_cst_26 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_cst_27 : Ref sig .tc := ⟨.hbm, 231, rfl⟩
abbrev main_v167 : Ref sig .tc := ⟨.hbm, 232, rfl⟩
abbrev main_cst_28 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_cst_29 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩

abbrev nD : Nat := 1
abbrev τ : Topo := Topo.v7x

variable {F : FTy → Type} [FloatOps F]

class Facts₀ : Prop where
  slices_S384x128_S128x128_256_0 : S384x128.Slices ![256, 0] S128x128
  transposes_S128x128_S128x128_1_0 : S128x128.Transposes [1, 0] S128x128
  slices_S384_S128_256 : S384.Slices ![256] S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S512x128_S128x512_1_0 : S512x128.Transposes [1, 0] S128x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  transposes_S128x512_S512x128_1_0 : S128x512.Transposes [1, 0] S512x128
  shapeCasts_S50000x128_S50000x8x16 : S50000x128.ShapeCasts S50000x8x16
  bcast_S_S500000 : S_.BroadcastsInDim S500000 (![] : Fin 0 → Fin S500000.rank)
  bcast_S500000_S500000x1_0 : S500000.BroadcastsInDim S500000x1 (![0] : Fin 1 → Fin S500000x1.rank)
  reducesTo_S500000x8x16_S500000x8_d2 : S500000x8x16.ReducesTo [2] S500000x8
  bcast_S_S500000x8 : S_.BroadcastsInDim S500000x8 (![] : Fin 0 → Fin S500000x8.rank)
  bcast_S500000x8_S500000x8x1_0_1 : S500000x8.BroadcastsInDim S500000x8x1 (![0, 1] : Fin 2 → Fin S500000x8x1.rank)
  bcast_S500000x8x1_S500000x8x16_0_1_2 : S500000x8x1.BroadcastsInDim S500000x8x16 (![0, 1, 2] : Fin 3 → Fin S500000x8x16.rank)
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  reducesTo_S50000x128_S128_d0 : S50000x128.ReducesTo [0] S128
  bcast_S_S128 : S_.BroadcastsInDim S128 (![] : Fin 0 → Fin S128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S128x256_S256x128_1_0 : S128x256.Transposes [1, 0] S256x128
  dot_S50000x128_S128x128_S50000x128_1_0_0_1_n_n_wf : DotDims.WF S50000x128 S128x128 S50000x128 [1] [0] [0] [1] [] []
  dot_S50000x128_S128x512_S50000x512_1_0_0_1_n_n_wf : DotDims.WF S50000x128 S128x512 S50000x512 [1] [0] [0] [1] [] []
  dot_S50000x512_S512x128_S50000x128_1_0_0_1_n_n_wf : DotDims.WF S50000x512 S512x128 S50000x128 [1] [0] [0] [1] [] []
  gather_S50000x8x16_S500000x1_S500000x8x16_12_0_n_n_0_1_1816_wf : GatherDims.WF S50000x8x16 S500000x1 S500000x8x16 [1, 2] [0] [] [0] [] 1 ![1, 8, 16]
  scatter_S50000x8x16_S500000x1_S500000x8x16_12_0_0_1_wf : ScatterDims.WF S50000x8x16 S500000x1 S500000x8x16 [1, 2] [0] [0] 1
  scatter_S50000x8_S500000x1_S500000x8_1_0_0_1_wf : ScatterDims.WF S50000x8 S500000x1 S500000x8 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x8x16_S500000x1_S500000x8x16_12_0_n_n_0_1_1816 : GatherDims S50000x8x16 S500000x1 S500000x8x16 where
  offsetDims := [1, 2]
  collapsedSliceDims := [0]
  operandBatchingDims := []
  startIndicesBatchingDims := []
  startIndexMap := [0]
  indexVectorDim := 1
  sliceSizes := ![1, 8, 16]
  wf := gather_S50000x8x16_S500000x1_S500000x8x16_12_0_n_n_0_1_1816_wf
def scatter_S50000x8x16_S500000x1_S500000x8x16_12_0_0_1 : ScatterDims S50000x8x16 S500000x1 S500000x8x16 where
  updateWindowDims := [1, 2]
  insertedWindowDims := [0]
  scatterDimsToOperandDims := [0]
  indexVectorDim := 1
  wf := scatter_S50000x8x16_S500000x1_S500000x8x16_12_0_0_1_wf
def scatter_S50000x8_S500000x1_S500000x8_1_0_0_1 : ScatterDims S50000x8 S500000x1 S500000x8 where
  updateWindowDims := [1]
  insertedWindowDims := [0]
  scatterDimsToOperandDims := [0]
  indexVectorDim := 1
  wf := scatter_S50000x8_S500000x1_S500000x8_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RefRun.lean ====
/-
  The reference program's run, stated over its stages: every weakly fair execution of its 226 host
  operations terminates with the result buffer at the last stage of the argument arrays and the
  arguments unchanged. The operation list is cut where a value is read more than once, so that
  each piece is read back over atoms.
-/
import proofs.«426868_j52097953300855_3_alg».proof.Proof.RefStages
import proofs.«426868_j52097953300855_3_alg».proof.Proof.RefOps
import Idealize.ShloMosaic.Lib.StableHlo.Run
import Idealize.ShloMosaic.Lib.Pipeline.Frame

noncomputable section

namespace Cert.ReferenceIdeal.StagedRun

open Cert.ReferenceIdeal Cert.ReferenceIdeal.Gen Idealize.ShloMosaic Idealize.ShloMosaic.TcCoe Idealize.SL.Sem Idealize.ShloMosaic.StableHlo

variable {F : FTy → Type} [FloatOps F]

/-- Operations 1 to 13 of the 226, in order. -/
abbrev ops0 : List (HloOp τ sig (Elt F)) :=
  [ unary main_arg3 main_v0 ((extractStridedSlice S128x128 ![256, 0] · slices_S384x128_S128x128_256_0) : (⟨S384x128, .f32⟩ : BufTy).Contents (Elt F) → (⟨S128x128, .f32⟩ : BufTy).Contents (Elt F)),
    unary main_v0 main_v1 ((transpose S128x128 [1, 0] · transposes_S128x128_S128x128_1_0) : (⟨S128x128, .f32⟩ : BufTy).Contents (Elt F) → (⟨S128x128, .f32⟩ : BufTy).Contents (Elt F)),
    binary main_arg0 main_v1 main_v2 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v3 ((extractStridedSlice S128 ![256] · slices_S384_S128_256) : (⟨S384, .f32⟩ : BufTy).Contents (Elt F) → (⟨S128, .f32⟩ : BufTy).Contents (Elt F)),
    unary main_v3 main_v4 (broadcastInDim S1x128 ![1] bcast_S128_S1x128_1 : (⟨S128, .f32⟩ : BufTy).Contents (Elt F) → (⟨S1x128, .f32⟩ : BufTy).Contents (Elt F)),
    unary main_v4 main_v5 (broadcastInDim S50000x128 ![0, 1] bcast_S1x128_S50000x128_0_1 : (⟨S1x128, .f32⟩ : BufTy).Contents (Elt F) → (⟨S50000x128, .f32⟩ : BufTy).Contents (Elt F)),
    binary main_v2 main_v5 main_v6 (addf : (⟨S50000x128, .f32⟩ : BufTy).Contents (Elt F) → (⟨S50000x128, .f32⟩ : BufTy).Contents (Elt F) → (⟨S50000x128, .f32⟩ : BufTy).Contents (Elt F)),
    unary main_arg5 main_v7 ((transpose S128x128 [1, 0] · transposes_S128x128_S128x128_1_0) : (⟨S128x128, .f32⟩ : BufTy).Contents (Elt F) → (⟨S128x128, .f32⟩ : BufTy).Contents (Elt F)),
    binary main_v6 main_v7 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v9 (broadcastInDim S1x128 ![1] bcast_S128_S1x128_1 : (⟨S128, .f32⟩ : BufTy).Contents (Elt F) → (⟨S1x128, .f32⟩ : BufTy).Contents (Elt F)),
    unary main_v9 main_v10 (broadcastInDim S50000x128 ![0, 1] bcast_S1x128_S50000x128_0_1 : (⟨S1x128, .f32⟩ : BufTy).Contents (Elt F) → (⟨S50000x128, .f32⟩ : BufTy).Contents (Elt F)),
    binary main_v8 main_v10 main_v11 (addf : (⟨S50000x128, .f32⟩ : BufTy).Contents (Elt F) → (⟨S50000x128, .f32⟩ : BufTy).Contents (Elt F) → (⟨S50000x128, .f32⟩ : BufTy).Contents (Elt F)),
    binary main_arg0 main_v11 main_v12 (addf : (⟨S50000x128, .f32⟩ : BufTy).Contents (Elt F) → (⟨S50000x128, .f32⟩ : BufTy).Contents (Elt F) → (⟨S50000x128, .f32⟩ : BufTy).Contents (Elt F)) ]

/-- Operations 14 to 42 of the 226, in order. -/
abbrev ops1 : List (HloOp τ sig (Elt F)) :=
  [ nullary main_cst (constant S_ .f32 0x00000000#32),
    binary main_v12 main_cst main_v13 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v13 main_v14 (broadcastInDim S50000x1 ![0] bcast_S50000_S50000x1_0 : (⟨S50000, .f32⟩ : BufTy).Contents (Elt F) → (⟨S50000x1, .f32⟩ : BufTy).Contents (Elt F)),
    nullary main_cst_0 (constant S_ .f32 0x43000000#32),
    unary main_cst_0 main_v15 (broadcastInDim S50000x1 ![] bcast_S_S50000x1 : (⟨S_, .f32⟩ : BufTy).Contents (Elt F) → (⟨S50000x1, .f32⟩ : BufTy).Contents (Elt F)),
    binary main_v14 main_v15 main_v16 (Host.divf : (⟨S50000x1, .f32⟩ : BufTy).Contents (Elt F) → (⟨S50000x1, .f32⟩ : BufTy).Contents (Elt F) → (⟨S50000x1, .f32⟩ : BufTy).Contents (Elt F)),
    unary main_v16 main_v17 (broadcastInDim S50000x128 ![0, 1] bcast_S50000x1_S50000x128_0_1 : (⟨S50000x1, .f32⟩ : BufTy).Contents (Elt F) → (⟨S50000x128, .f32⟩ : BufTy).Contents (Elt F)),
    binary main_v12 main_v17 main_v18 (subf : (⟨S50000x128, .f32⟩ : BufTy).Contents (Elt F) → (⟨S50000x128, .f32⟩ : BufTy).Contents (Elt F) → (⟨S50000x128, .f32⟩ : BufTy).Contents (Elt F)),
    binary main_v18 main_v18 main_v19 (mulf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x00000000#32),
    binary main_v19 main_cst_1 main_v20 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v20 main_v21 (broadcastInDim S50000x1 ![0] bcast_S50000_S50000x1_0 : (⟨S50000, .f32⟩ : BufTy).Contents (Elt F) → (⟨S50000x1, .f32⟩ : BufTy).Contents (Elt F)),
    nullary main_cst_2 (constant S_ .f32 0x43000000#32),
    unary main_cst_2 main_v22 (broadcastInDim S50000x1 ![] bcast_S_S50000x1 : (⟨S_, .f32⟩ : BufTy).Contents (Elt F) → (⟨S50000x1, .f32⟩ : BufTy).Contents (Elt F)),
    binary main_v21 main_v22 main_v23 (Host.divf : (⟨S50000x1, .f32⟩ : BufTy).Contents (Elt F) → (⟨S50000x1, .f32⟩ : BufTy).Contents (Elt F) → (⟨S50000x1, .f32⟩ : BufTy).Contents (Elt F)),
    unary main_v16 main_v24 (broadcastInDim S50000x128 ![0, 1] bcast_S50000x1_S50000x128_0_1 : (⟨S50000x1, .f32⟩ : BufTy).Contents (Elt F) → (⟨S50000x128, .f32⟩ : BufTy).Contents (Elt F)),
    binary main_v12 main_v24 main_v25 (subf : (⟨S50000x128, .f32⟩ : BufTy).Contents (Elt F) → (⟨S50000x128, .f32⟩ : BufTy).Contents (Elt F) → (⟨S50000x128, .f32⟩ : BufTy).Contents (Elt F)),
    nullary main_cst_3 (constant S_ .f32 0x3727C5AC#32),
    unary main_cst_3 main_v26 (broadcastInDim S50000x1 ![] bcast_S_S50000x1 : (⟨S_, .f32⟩ : BufTy).Contents (Elt F) → (⟨S50000x1, .f32⟩ : BufTy).Contents (Elt F)),
    binary main_v23 main_v26 main_v27 (addf : (⟨S50000x1, .f32⟩ : BufTy).Contents (Elt F) → (⟨S50000x1, .f32⟩ : BufTy).Contents (Elt F) → (⟨S50000x1, .f32⟩ : BufTy).Contents (Elt F)),
    unary main_v27 main_v28 (Host.rsqrt : (⟨S50000x1, .f32⟩ : BufTy).Contents (Elt F) → (⟨S50000x1, .f32⟩ : BufTy).Contents (Elt F)),
    unary main_v28 main_v29 (broadcastInDim S50000x128 ![0, 1] bcast_S50000x1_S50000x128_0_1 : (⟨S50000x1, .f32⟩ : BufTy).Contents (Elt F) → (⟨S50000x128, .f32⟩ : BufTy).Contents (Elt F)),
    binary main_v25 main_v29 main_v30 (mulf : (⟨S50000x128, .f32⟩ : BufTy).Contents (Elt F) → (⟨S50000x128, .f32⟩ : BufTy).Contents (Elt F) → (⟨S50000x128, .f32⟩ : BufTy).Contents (Elt F)),
    unary main_arg11 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v30 main_v32 main_v33 (mulf : (⟨S50000x128, .f32⟩ : BufTy).Contents (Elt F) → (⟨S50000x128, .f32⟩ : BufTy).Contents (Elt F) → (⟨S50000x128, .f32⟩ : BufTy).Contents (Elt F)),
    unary main_arg12 main_v34 (broadcastInDim S1x128 ![1] bcast_S128_S1x128_1 : (⟨S128, .f32⟩ : BufTy).Contents (Elt F) → (⟨S1x128, .f32⟩ : BufTy).Contents (Elt F)),
    unary main_v34 main_v35 (broadcastInDim S50000x128 ![0, 1] bcast_S1x128_S50000x128_0_1 : (⟨S1x128, .f32⟩ : BufTy).Contents (Elt F) → (⟨S50000x128, .f32⟩ : BufTy).Contents (Elt F)),
    binary main_v33 main_v35 main_v36 (addf : (⟨S50000x128, .f32⟩ : BufTy).Contents (Elt F) → (⟨S50000x128, .f32⟩ : BufTy).Contents (Elt F) → (⟨S50000x128, .f32⟩ : BufTy).Contents (Elt F)) ]

/-- Operations 43 to 56 of the 226, in order. -/
abbrev ops2 : List (HloOp τ sig (Elt F)) :=
  [ unary main_arg7 main_v37 ((transpose S128x512 [1, 0] · transposes_S512x128_S128x512_1_0) : (⟨S512x128, .f32⟩ : BufTy).Contents (Elt F) → (⟨S128x512, .f32⟩ : BufTy).Contents (Elt F)),
    binary main_v36 main_v37 main_v38 ((fun l r => Host.dotGeneral dot_S50000x128_S128x512_S50000x512_1_0_0_1_n_n none l r) : (⟨S50000x128, .f32⟩ : BufTy).Contents (Elt F) → (⟨S128x512, .f32⟩ : BufTy).Contents (Elt F) → (⟨S50000x512, .f32⟩ : BufTy).Contents (Elt F)),
    unary main_arg8 main_v39 (broadcastInDim S1x512 ![1] bcast_S512_S1x512_1 : (⟨S512, .f32⟩ : BufTy).Contents (Elt F) → (⟨S1x512, .f32⟩ : BufTy).Contents (Elt F)),
    unary main_v39 main_v40 (broadcastInDim S50000x512 ![0, 1] bcast_S1x512_S50000x512_0_1 : (⟨S1x512, .f32⟩ : BufTy).Contents (Elt F) → (⟨S50000x512, .f32⟩ : BufTy).Contents (Elt F)),
    binary main_v38 main_v40 main_v41 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x512, .f32⟩) main_call0_v0) (broadcastInDim S50000x512 ![] bcast_S_S50000x512),
    TRef.binary (TRef.of (T := ⟨S50000x512, .f32⟩) main_v41) (TRef.of (T := ⟨S50000x512, .f32⟩) main_call0_v0) (TRef.of (T := ⟨S50000x512, .f32⟩) main_v42) maximumf,
    unary main_arg9 main_v43 ((transpose S512x128 [1, 0] · transposes_S128x512_S512x128_1_0) : (⟨S128x512, .f32⟩ : BufTy).Contents (Elt F) → (⟨S512x128, .f32⟩ : BufTy).Contents (Elt F)),
    binary main_v42 main_v43 main_v44 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    unary main_arg10 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    binary main_v36 main_v47 main_v48 (addf : (⟨S50000x128, .f32⟩ : BufTy).Contents (Elt F) → (⟨S50000x128, .f32⟩ : BufTy).Contents (Elt F) → (⟨S50000x128, .f32⟩ : BufTy).Contents (Elt F)) ]

/-- Operations 57 to 85 of the 226, in order. -/
abbrev ops3 : List (HloOp τ sig (Elt F)) :=
  [ nullary main_cst_4 (constant S_ .f32 0x00000000#32),
    binary main_v48 main_cst_4 main_v49 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    nullary main_cst_5 (constant S_ .f32 0x43000000#32),
    unary main_cst_5 main_v51 (broadcastInDim S50000x1 ![] bcast_S_S50000x1 : (⟨S_, .f32⟩ : BufTy).Contents (Elt F) → (⟨S50000x1, .f32⟩ : BufTy).Contents (Elt F)),
    binary main_v50 main_v51 main_v52 (Host.divf : (⟨S50000x1, .f32⟩ : BufTy).Contents (Elt F) → (⟨S50000x1, .f32⟩ : BufTy).Contents (Elt F) → (⟨S50000x1, .f32⟩ : BufTy).Contents (Elt F)),
    unary main_v52 main_v53 (broadcastInDim S50000x128 ![0, 1] bcast_S50000x1_S50000x128_0_1 : (⟨S50000x1, .f32⟩ : BufTy).Contents (Elt F) → (⟨S50000x128, .f32⟩ : BufTy).Contents (Elt F)),
    binary main_v48 main_v53 main_v54 (subf : (⟨S50000x128, .f32⟩ : BufTy).Contents (Elt F) → (⟨S50000x128, .f32⟩ : BufTy).Contents (Elt F) → (⟨S50000x128, .f32⟩ : BufTy).Contents (Elt F)),
    binary main_v54 main_v54 main_v55 (mulf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    binary main_v55 main_cst_6 main_v56 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v56 main_v57 (broadcastInDim S50000x1 ![0] bcast_S50000_S50000x1_0 : (⟨S50000, .f32⟩ : BufTy).Contents (Elt F) → (⟨S50000x1, .f32⟩ : BufTy).Contents (Elt F)),
    nullary main_cst_7 (constant S_ .f32 0x43000000#32),
    unary main_cst_7 main_v58 (broadcastInDim S50000x1 ![] bcast_S_S50000x1 : (⟨S_, .f32⟩ : BufTy).Contents (Elt F) → (⟨S50000x1, .f32⟩ : BufTy).Contents (Elt F)),
    binary main_v57 main_v58 main_v59 (Host.divf : (⟨S50000x1, .f32⟩ : BufTy).Contents (Elt F) → (⟨S50000x1, .f32⟩ : BufTy).Contents (Elt F) → (⟨S50000x1, .f32⟩ : BufTy).Contents (Elt F)),
    unary main_v52 main_v60 (broadcastInDim S50000x128 ![0, 1] bcast_S50000x1_S50000x128_0_1 : (⟨S50000x1, .f32⟩ : BufTy).Contents (Elt F) → (⟨S50000x128, .f32⟩ : BufTy).Contents (Elt F)),
    binary main_v48 main_v60 main_v61 (subf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3727C5AC#32),
    unary main_cst_8 main_v62 (broadcastInDim S50000x1 ![] bcast_S_S50000x1 : (⟨S_, .f32⟩ : BufTy).Contents (Elt F) → (⟨S50000x1, .f32⟩ : BufTy).Contents (Elt F)),
    binary main_v59 main_v62 main_v63 (addf : (⟨S50000x1, .f32⟩ : BufTy).Contents (Elt F) → (⟨S50000x1, .f32⟩ : BufTy).Contents (Elt F) → (⟨S50000x1, .f32⟩ : BufTy).Contents (Elt F)),
    unary main_v63 main_v64 (Host.rsqrt : (⟨S50000x1, .f32⟩ : BufTy).Contents (Elt F) → (⟨S50000x1, .f32⟩ : BufTy).Contents (Elt F)),
    unary main_v64 main_v65 (broadcastInDim S50000x128 ![0, 1] bcast_S50000x1_S50000x128_0_1 : (⟨S50000x1, .f32⟩ : BufTy).Contents (Elt F) → (⟨S50000x128, .f32⟩ : BufTy).Contents (Elt F)),
    binary main_v61 main_v65 main_v66 (mulf : (⟨S50000x128, .f32⟩ : BufTy).Contents (Elt F) → (⟨S50000x128, .f32⟩ : BufTy).Contents (Elt F) → (⟨S50000x128, .f32⟩ : BufTy).Contents (Elt F)),
    unary main_arg13 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (mulf : (⟨S50000x128, .f32⟩ : BufTy).Contents (Elt F) → (⟨S50000x128, .f32⟩ : BufTy).Contents (Elt F) → (⟨S50000x128, .f32⟩ : BufTy).Contents (Elt F)),
    unary main_arg14 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)) ]

/-- Operations 86 to 94 of the 226, in order. -/
abbrev ops4 : List (HloOp τ sig (Elt F)) :=
  [ unary main_arg15 main_v73 ((transpose S128x128 [1, 0] · transposes_S128x128_S128x128_1_0) : (⟨S128x128, .f32⟩ : BufTy).Contents (Elt F) → (⟨S128x128, .f32⟩ : BufTy).Contents (Elt F)),
    binary main_v72 main_v73 main_v74 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v74 main_v75 rfl shapeCasts_S50000x128_S50000x8x16,
    unary main_arg16 main_v76 ((transpose S128x128 [1, 0] · transposes_S128x128_S128x128_1_0) : (⟨S128x128, .f32⟩ : BufTy).Contents (Elt F) → (⟨S128x128, .f32⟩ : BufTy).Contents (Elt F)),
    binary main_v72 main_v76 main_v77 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v77 main_v78 rfl shapeCasts_S50000x128_S50000x8x16,
    unary main_arg17 main_v79 ((transpose S128x128 [1, 0] · transposes_S128x128_S128x128_1_0) : (⟨S128x128, .f32⟩ : BufTy).Contents (Elt F) → (⟨S128x128, .f32⟩ : BufTy).Contents (Elt F)),
    binary main_v72 main_v79 main_v80 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v80 main_v81 rfl shapeCasts_S50000x128_S50000x8x16 ]

/-- Operations 95 to 112 of the 226, in order. -/
abbrev ops5 : List (HloOp τ sig (Elt F)) :=
  [ nullary main_c (constantI S_ 32 0#32),
    unary main_c main_v82 (broadcastInDim S500000 ![] bcast_S_S500000 : (⟨S_, .i32⟩ : BufTy).Contents (Elt F) → (⟨S500000, .i32⟩ : BufTy).Contents (Elt F)),
    binary main_arg1 main_v82 main_v83 (cmpi .slt : (⟨S500000, .i32⟩ : BufTy).Contents (Elt F) → (⟨S500000, .i32⟩ : BufTy).Contents (Elt F) → (⟨S500000, .i1⟩ : BufTy).Contents (Elt F)),
    nullary main_c_9 (constantI S_ 32 50000#32),
    unary main_c_9 main_v84 (broadcastInDim S500000 ![] bcast_S_S500000 : (⟨S_, .i32⟩ : BufTy).Contents (Elt F) → (⟨S500000, .i32⟩ : BufTy).Contents (Elt F)),
    binary main_arg1 main_v84 main_v85 (addi : (⟨S500000, .i32⟩ : BufTy).Contents (Elt F) → (⟨S500000, .i32⟩ : BufTy).Contents (Elt F) → (⟨S500000, .i32⟩ : BufTy).Contents (Elt F)),
    ternary main_v83 main_v85 main_arg1 main_v86 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v86 main_v87 (broadcastInDim S500000x1 ![0] bcast_S500000_S500000x1_0 : (⟨S500000, .i32⟩ : BufTy).Contents (Elt F) → (⟨S500000x1, .i32⟩ : BufTy).Contents (Elt F)),
    binary main_v78 main_v87 main_v88 ((fun x i => Host.gather gather_S50000x8x16_S500000x1_S500000x8x16_12_0_n_n_0_1_1816 x i) : (⟨S50000x8x16, .f32⟩ : BufTy).Contents (Elt F) → (⟨S500000x1, .i32⟩ : BufTy).Contents (Elt F) → (⟨S500000x8x16, .f32⟩ : BufTy).Contents (Elt F)),
    nullary main_c_10 (constantI S_ 32 0#32),
    unary main_c_10 main_v89 (broadcastInDim S500000 ![] bcast_S_S500000 : (⟨S_, .i32⟩ : BufTy).Contents (Elt F) → (⟨S500000, .i32⟩ : BufTy).Contents (Elt F)),
    binary main_arg2 main_v89 main_v90 (cmpi .slt : (⟨S500000, .i32⟩ : BufTy).Contents (Elt F) → (⟨S500000, .i32⟩ : BufTy).Contents (Elt F) → (⟨S500000, .i1⟩ : BufTy).Contents (Elt F)),
    nullary main_c_11 (constantI S_ 32 50000#32),
    unary main_c_11 main_v91 (broadcastInDim S500000 ![] bcast_S_S500000 : (⟨S_, .i32⟩ : BufTy).Contents (Elt F) → (⟨S500000, .i32⟩ : BufTy).Contents (Elt F)),
    binary main_arg2 main_v91 main_v92 (addi : (⟨S500000, .i32⟩ : BufTy).Contents (Elt F) → (⟨S500000, .i32⟩ : BufTy).Contents (Elt F) → (⟨S500000, .i32⟩ : BufTy).Contents (Elt F)),
    ternary main_v90 main_v92 main_arg2 main_v93 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v93 main_v94 (broadcastInDim S500000x1 ![0] bcast_S500000_S500000x1_0 : (⟨S500000, .i32⟩ : BufTy).Contents (Elt F) → (⟨S500000x1, .i32⟩ : BufTy).Contents (Elt F)),
    binary main_v75 main_v94 main_v95 ((fun x i => Host.gather gather_S50000x8x16_S500000x1_S500000x8x16_12_0_n_n_0_1_1816 x i) : (⟨S50000x8x16, .f32⟩ : BufTy).Contents (Elt F) → (⟨S500000x1, .i32⟩ : BufTy).Contents (Elt F) → (⟨S500000x8x16, .f32⟩ : BufTy).Contents (Elt F)) ]

/-- Operations 113 to 127 of the 226, in order. -/
abbrev ops6 : List (HloOp τ sig (Elt F)) :=
  [ binary main_v88 main_v95 main_v96 (mulf : (⟨S500000x8x16, .f32⟩ : BufTy).Contents (Elt F) → (⟨S500000x8x16, .f32⟩ : BufTy).Contents (Elt F) → (⟨S500000x8x16, .f32⟩ : BufTy).Contents (Elt F)),
    nullary main_cst_12 (constant S_ .f32 0x00000000#32),
    binary main_v96 main_cst_12 main_v97 ((fun x v => Host.reduceAdd x v reducesTo_S500000x8x16_S500000x8_d2 h_S_) : (⟨S500000x8x16, .f32⟩ : BufTy).Contents (Elt F) → (⟨S_, .f32⟩ : BufTy).Contents (Elt F) → (⟨S500000x8, .f32⟩ : BufTy).Contents (Elt F)),
    nullary main_cst_13 (constant S_ .f32 0x40800000#32),
    unary main_cst_13 main_v98 (broadcastInDim S500000x8 ![] bcast_S_S500000x8 : (⟨S_, .f32⟩ : BufTy).Contents (Elt F) → (⟨S500000x8, .f32⟩ : BufTy).Contents (Elt F)),
    binary main_v97 main_v98 main_v99 (Host.divf : (⟨S500000x8, .f32⟩ : BufTy).Contents (Elt F) → (⟨S500000x8, .f32⟩ : BufTy).Contents (Elt F) → (⟨S500000x8, .f32⟩ : BufTy).Contents (Elt F)),
    nullary main_cst_14 (constant S_ .f32 0xC0A00000#32),
    nullary main_cst_15 (constant S_ .f32 0x40A00000#32),
    TRef.unary (TRef.of (T := ⟨S_, .f32⟩) main_cst_14) (TRef.of (T := ⟨S_, .f32⟩) main_call1_v0) id,
    TRef.unary (TRef.of (T := ⟨S_, .f32⟩) main_call1_v0) (TRef.of (T := ⟨S500000x8, .f32⟩) main_call1_v1) (broadcastInDim S500000x8 ![] bcast_S_S500000x8),
    TRef.binary (TRef.of (T := ⟨S500000x8, .f32⟩) main_call1_v1) (TRef.of (T := ⟨S500000x8, .f32⟩) main_v99) (TRef.of (T := ⟨S500000x8, .f32⟩) main_call1_v2) maximumf,
    TRef.unary (TRef.of (T := ⟨S_, .f32⟩) main_cst_15) (TRef.of (T := ⟨S_, .f32⟩) main_call1_v3) id,
    TRef.unary (TRef.of (T := ⟨S_, .f32⟩) main_call1_v3) (TRef.of (T := ⟨S500000x8, .f32⟩) main_call1_v4) (broadcastInDim S500000x8 ![] bcast_S_S500000x8),
    TRef.binary (TRef.of (T := ⟨S500000x8, .f32⟩) main_call1_v4) (TRef.of (T := ⟨S500000x8, .f32⟩) main_call1_v2) (TRef.of (T := ⟨S500000x8, .f32⟩) main_v100) minimumf,
    unary main_v100 main_v101 (Host.exp : (⟨S500000x8, .f32⟩ : BufTy).Contents (Elt F) → (⟨S500000x8, .f32⟩ : BufTy).Contents (Elt F)) ]

/-- Operations 128 to 139 of the 226, in order. -/
abbrev ops7 : List (HloOp τ sig (Elt F)) :=
  [ nullary main_c_16 (constantI S_ 32 0#32),
    unary main_c_16 main_v102 (broadcastInDim S500000 ![] bcast_S_S500000 : (⟨S_, .i32⟩ : BufTy).Contents (Elt F) → (⟨S500000, .i32⟩ : BufTy).Contents (Elt F)),
    binary main_arg1 main_v102 main_v103 (cmpi .slt : (⟨S500000, .i32⟩ : BufTy).Contents (Elt F) → (⟨S500000, .i32⟩ : BufTy).Contents (Elt F) → (⟨S500000, .i1⟩ : BufTy).Contents (Elt F)),
    nullary main_c_17 (constantI S_ 32 50000#32),
    unary main_c_17 main_v104 (broadcastInDim S500000 ![] bcast_S_S500000 : (⟨S_, .i32⟩ : BufTy).Contents (Elt F) → (⟨S500000, .i32⟩ : BufTy).Contents (Elt F)),
    binary main_arg1 main_v104 main_v105 (addi : (⟨S500000, .i32⟩ : BufTy).Contents (Elt F) → (⟨S500000, .i32⟩ : BufTy).Contents (Elt F) → (⟨S500000, .i32⟩ : BufTy).Contents (Elt F)),
    ternary main_v103 main_v105 main_arg1 main_v106 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v106 main_v107 (broadcastInDim S500000x1 ![0] bcast_S500000_S500000x1_0 : (⟨S500000, .i32⟩ : BufTy).Contents (Elt F) → (⟨S500000x1, .i32⟩ : BufTy).Contents (Elt F)),
    binary main_v81 main_v107 main_v108 ((fun x i => Host.gather gather_S50000x8x16_S500000x1_S500000x8x16_12_0_n_n_0_1_1816 x i) : (⟨S50000x8x16, .f32⟩ : BufTy).Contents (Elt F) → (⟨S500000x1, .i32⟩ : BufTy).Contents (Elt F) → (⟨S500000x8x16, .f32⟩ : BufTy).Contents (Elt F)),
    unary main_v101 main_v109 (broadcastInDim S500000x8x1 ![0, 1] bcast_S500000x8_S500000x8x1_0_1 : (⟨S500000x8, .f32⟩ : BufTy).Contents (Elt F) → (⟨S500000x8x1, .f32⟩ : BufTy).Contents (Elt F)),
    unary main_v109 main_v110 (broadcastInDim S500000x8x16 ![0, 1, 2] bcast_S500000x8x1_S500000x8x16_0_1_2 : (⟨S500000x8x1, .f32⟩ : BufTy).Contents (Elt F) → (⟨S500000x8x16, .f32⟩ : BufTy).Contents (Elt F)),
    binary main_v108 main_v110 main_v111 (mulf : (⟨S500000x8x16, .f32⟩ : BufTy).Contents (Elt F) → (⟨S500000x8x16, .f32⟩ : BufTy).Contents (Elt F) → (⟨S500000x8x16, .f32⟩ : BufTy).Contents (Elt F)) ]

/-- Operations 140 to 152 of the 226, in order. -/
abbrev ops8 : List (HloOp τ sig (Elt F)) :=
  [ nullary main_cst_18 (constant S_ .f32 0x00000000#32),
    unary main_cst_18 main_v112 (broadcastInDim S50000x8x16 ![] bcast_S_S50000x8x16 : (⟨S_, .f32⟩ : BufTy).Contents (Elt F) → (⟨S50000x8x16, .f32⟩ : BufTy).Contents (Elt F)),
    unary main_arg2 main_v113 (broadcastInDim S500000x1 ![0] bcast_S500000_S500000x1_0 : (⟨S500000, .i32⟩ : BufTy).Contents (Elt F) → (⟨S500000x1, .i32⟩ : BufTy).Contents (Elt F)),
    ternary main_v112 main_v113 main_v111 main_v114 ((fun x i u => Host.scatterAdd scatter_S50000x8x16_S500000x1_S500000x8x16_12_0_0_1 x i u) : (⟨S50000x8x16, .f32⟩ : BufTy).Contents (Elt F) → (⟨S500000x1, .i32⟩ : BufTy).Contents (Elt F) → (⟨S500000x8x16, .f32⟩ : BufTy).Contents (Elt F) → (⟨S50000x8x16, .f32⟩ : BufTy).Contents (Elt F)),
    nullary main_cst_19 (constant S_ .f32 0x00000000#32),
    unary main_cst_19 main_v115 (broadcastInDim S50000x8 ![] bcast_S_S50000x8 : (⟨S_, .f32⟩ : BufTy).Contents (Elt F) → (⟨S50000x8, .f32⟩ : BufTy).Contents (Elt F)),
    unary main_arg2 main_v116 (broadcastInDim S500000x1 ![0] bcast_S500000_S500000x1_0 : (⟨S500000, .i32⟩ : BufTy).Contents (Elt F) → (⟨S500000x1, .i32⟩ : BufTy).Contents (Elt F)),
    ternary main_v115 main_v116 main_v101 main_v117 ((fun x i u => Host.scatterAdd scatter_S50000x8_S500000x1_S500000x8_1_0_0_1 x i u) : (⟨S50000x8, .f32⟩ : BufTy).Contents (Elt F) → (⟨S500000x1, .i32⟩ : BufTy).Contents (Elt F) → (⟨S500000x8, .f32⟩ : BufTy).Contents (Elt F) → (⟨S50000x8, .f32⟩ : BufTy).Contents (Elt F)),
    unary main_v117 main_v118 (broadcastInDim S50000x8x1 ![0, 1] bcast_S50000x8_S50000x8x1_0_1 : (⟨S50000x8, .f32⟩ : BufTy).Contents (Elt F) → (⟨S50000x8x1, .f32⟩ : BufTy).Contents (Elt F)),
    unary main_v118 main_v119 (broadcastInDim S50000x8x16 ![0, 1, 2] bcast_S50000x8x1_S50000x8x16_0_1_2 : (⟨S50000x8x1, .f32⟩ : BufTy).Contents (Elt F) → (⟨S50000x8x16, .f32⟩ : BufTy).Contents (Elt F)),
    binary main_v114 main_v119 main_v120 (Host.divf : (⟨S50000x8x16, .f32⟩ : BufTy).Contents (Elt F) → (⟨S50000x8x16, .f32⟩ : BufTy).Contents (Elt F) → (⟨S50000x8x16, .f32⟩ : BufTy).Contents (Elt F)),
    reshape main_v120 main_v121 rfl shapeCasts_S50000x8x16_S50000x128,
    binary main_v72 main_v121 main_v122 (addf : (⟨S50000x128, .f32⟩ : BufTy).Contents (Elt F) → (⟨S50000x128, .f32⟩ : BufTy).Contents (Elt F) → (⟨S50000x128, .f32⟩ : BufTy).Contents (Elt F)) ]

/-- Operations 153 to 182 of the 226, in order. -/
abbrev ops9 : List (HloOp τ sig (Elt F)) :=
  [ nullary main_cst_20 (constant S_ .f32 0x00000000#32),
    binary main_v122 main_cst_20 main_v123 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_21 (constant S_ .f32 0x47435000#32),
    unary main_cst_21 main_v124 (broadcastInDim S128 ![] bcast_S_S128 : (⟨S_, .f32⟩ : BufTy).Contents (Elt F) → (⟨S128, .f32⟩ : BufTy).Contents (Elt F)),
    binary main_v123 main_v124 main_v125 (Host.divf : (⟨S128, .f32⟩ : BufTy).Contents (Elt F) → (⟨S128, .f32⟩ : BufTy).Contents (Elt F) → (⟨S128, .f32⟩ : BufTy).Contents (Elt F)),
    unary main_v125 main_v126 (broadcastInDim S1x128 ![1] bcast_S128_S1x128_1 : (⟨S128, .f32⟩ : BufTy).Contents (Elt F) → (⟨S1x128, .f32⟩ : BufTy).Contents (Elt F)),
    unary main_v126 main_v127 (broadcastInDim S50000x128 ![0, 1] bcast_S1x128_S50000x128_0_1 : (⟨S1x128, .f32⟩ : BufTy).Contents (Elt F) → (⟨S50000x128, .f32⟩ : BufTy).Contents (Elt F)),
    binary main_v122 main_v127 main_v128 (subf : (⟨S50000x128, .f32⟩ : BufTy).Contents (Elt F) → (⟨S50000x128, .f32⟩ : BufTy).Contents (Elt F) → (⟨S50000x128, .f32⟩ : BufTy).Contents (Elt F)),
    binary main_v128 main_v128 main_v129 (mulf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x00000000#32),
    binary main_v129 main_cst_22 main_v130 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_23 (constant S_ .f32 0x47435000#32),
    unary main_cst_23 main_v131 (broadcastInDim S128 ![] bcast_S_S128 : (⟨S_, .f32⟩ : BufTy).Contents (Elt F) → (⟨S128, .f32⟩ : BufTy).Contents (Elt F)),
    binary main_v130 main_v131 main_v132 (Host.divf : (⟨S128, .f32⟩ : BufTy).Contents (Elt F) → (⟨S128, .f32⟩ : BufTy).Contents (Elt F) → (⟨S128, .f32⟩ : BufTy).Contents (Elt F)),
    unary main_v125 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v122 main_v134 main_v135 (subf : (⟨S50000x128, .f32⟩ : BufTy).Contents (Elt F) → (⟨S50000x128, .f32⟩ : BufTy).Contents (Elt F) → (⟨S50000x128, .f32⟩ : BufTy).Contents (Elt F)),
    nullary main_cst_24 (constant S_ .f32 0x3727C5AC#32),
    unary main_cst_24 main_v136 (broadcastInDim S128 ![] bcast_S_S128 : (⟨S_, .f32⟩ : BufTy).Contents (Elt F) → (⟨S128, .f32⟩ : BufTy).Contents (Elt F)),
    binary main_v132 main_v136 main_v137 (addf : (⟨S128, .f32⟩ : BufTy).Contents (Elt F) → (⟨S128, .f32⟩ : BufTy).Contents (Elt F) → (⟨S128, .f32⟩ : BufTy).Contents (Elt F)),
    unary main_v137 main_v138 (Host.rsqrt : (⟨S128, .f32⟩ : BufTy).Contents (Elt F) → (⟨S128, .f32⟩ : BufTy).Contents (Elt F)),
    unary main_v138 main_v139 (broadcastInDim S1x128 ![1] bcast_S128_S1x128_1 : (⟨S128, .f32⟩ : BufTy).Contents (Elt F) → (⟨S1x128, .f32⟩ : BufTy).Contents (Elt F)),
    unary main_v139 main_v140 (broadcastInDim S50000x128 ![0, 1] bcast_S1x128_S50000x128_0_1 : (⟨S1x128, .f32⟩ : BufTy).Contents (Elt F) → (⟨S50000x128, .f32⟩ : BufTy).Contents (Elt F)),
    binary main_v135 main_v140 main_v141 (mulf : (⟨S50000x128, .f32⟩ : BufTy).Contents (Elt F) → (⟨S50000x128, .f32⟩ : BufTy).Contents (Elt F) → (⟨S50000x128, .f32⟩ : BufTy).Contents (Elt F)),
    unary main_arg22 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v141 main_v143 main_v144 (mulf : (⟨S50000x128, .f32⟩ : BufTy).Contents (Elt F) → (⟨S50000x128, .f32⟩ : BufTy).Contents (Elt F) → (⟨S50000x128, .f32⟩ : BufTy).Contents (Elt F)),
    unary main_arg23 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v144 main_v146 main_v147 (addf : (⟨S50000x128, .f32⟩ : BufTy).Contents (Elt F) → (⟨S50000x128, .f32⟩ : BufTy).Contents (Elt F) → (⟨S50000x128, .f32⟩ : BufTy).Contents (Elt F)) ]

/-- Operations 183 to 196 of the 226, in order. -/
abbrev ops10 : List (HloOp τ sig (Elt F)) :=
  [ unary main_arg18 main_v148 ((transpose S128x256 [1, 0] · transposes_S256x128_S128x256_1_0) : (⟨S256x128, .f32⟩ : BufTy).Contents (Elt F) → (⟨S128x256, .f32⟩ : BufTy).Contents (Elt F)),
    binary main_v147 main_v148 main_v149 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg19 main_v150 (broadcastInDim S1x256 ![1] bcast_S256_S1x256_1 : (⟨S256, .f32⟩ : BufTy).Contents (Elt F) → (⟨S1x256, .f32⟩ : BufTy).Contents (Elt F)),
    unary main_v150 main_v151 (broadcastInDim S50000x256 ![0, 1] bcast_S1x256_S50000x256_0_1 : (⟨S1x256, .f32⟩ : BufTy).Contents (Elt F) → (⟨S50000x256, .f32⟩ : BufTy).Contents (Elt F)),
    binary main_v149 main_v151 main_v152 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v152) (TRef.of (T := ⟨S50000x256, .f32⟩) main_call2_v0) (TRef.of (T := ⟨S50000x256, .f32⟩) main_v153) maximumf,
    unary main_arg20 main_v154 ((transpose S256x128 [1, 0] · transposes_S128x256_S256x128_1_0) : (⟨S128x256, .f32⟩ : BufTy).Contents (Elt F) → (⟨S256x128, .f32⟩ : BufTy).Contents (Elt F)),
    binary main_v153 main_v154 main_v155 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg21 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v155 main_v157 main_v158 (addf : (⟨S50000x128, .f32⟩ : BufTy).Contents (Elt F) → (⟨S50000x128, .f32⟩ : BufTy).Contents (Elt F) → (⟨S50000x128, .f32⟩ : BufTy).Contents (Elt F)),
    binary main_v147 main_v158 main_v159 (addf : (⟨S50000x128, .f32⟩ : BufTy).Contents (Elt F) → (⟨S50000x128, .f32⟩ : BufTy).Contents (Elt F) → (⟨S50000x128, .f32⟩ : BufTy).Contents (Elt F)) ]

/-- Operations 197 to 226 of the 226, in order. -/
abbrev ops11 : List (HloOp τ sig (Elt F)) :=
  [ nullary main_cst_25 (constant S_ .f32 0x00000000#32),
    binary main_v159 main_cst_25 main_v160 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v161 (broadcastInDim S128 ![] bcast_S_S128 : (⟨S_, .f32⟩ : BufTy).Contents (Elt F) → (⟨S128, .f32⟩ : BufTy).Contents (Elt F)),
    binary main_v160 main_v161 main_v162 (Host.divf : (⟨S128, .f32⟩ : BufTy).Contents (Elt F) → (⟨S128, .f32⟩ : BufTy).Contents (Elt F) → (⟨S128, .f32⟩ : BufTy).Contents (Elt F)),
    unary main_v162 main_v163 (broadcastInDim S1x128 ![1] bcast_S128_S1x128_1 : (⟨S128, .f32⟩ : BufTy).Contents (Elt F) → (⟨S1x128, .f32⟩ : BufTy).Contents (Elt F)),
    unary main_v163 main_v164 (broadcastInDim S50000x128 ![0, 1] bcast_S1x128_S50000x128_0_1 : (⟨S1x128, .f32⟩ : BufTy).Contents (Elt F) → (⟨S50000x128, .f32⟩ : BufTy).Contents (Elt F)),
    binary main_v159 main_v164 main_v165 (subf : (⟨S50000x128, .f32⟩ : BufTy).Contents (Elt F) → (⟨S50000x128, .f32⟩ : BufTy).Contents (Elt F) → (⟨S50000x128, .f32⟩ : BufTy).Contents (Elt F)),
    binary main_v165 main_v165 main_v166 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x00000000#32),
    binary main_v166 main_cst_27 main_v167 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_28 (constant S_ .f32 0x47435000#32),
    unary main_cst_28 main_v168 (broadcastInDim S128 ![] bcast_S_S128 : (⟨S_, .f32⟩ : BufTy).Contents (Elt F) → (⟨S128, .f32⟩ : BufTy).Contents (Elt F)),
    binary main_v167 main_v168 main_v169 (Host.divf : (⟨S128, .f32⟩ : BufTy).Contents (Elt F) → (⟨S128, .f32⟩ : BufTy).Contents (Elt F) → (⟨S128, .f32⟩ : BufTy).Contents (Elt F)),
    unary main_v162 main_v170 (broadcastInDim S1x128 ![1] bcast_S128_S1x128_1 : (⟨S128, .f32⟩ : BufTy).Contents (Elt F) → (⟨S1x128, .f32⟩ : BufTy).Contents (Elt F)),
    unary main_v170 main_v171 (broadcastInDim S50000x128 ![0, 1] bcast_S1x128_S50000x128_0_1 : (⟨S1x128, .f32⟩ : BufTy).Contents (Elt F) → (⟨S50000x128, .f32⟩ : BufTy).Contents (Elt F)),
    binary main_v159 main_v171 main_v172 (subf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x3727C5AC#32),
    unary main_cst_29 main_v173 (broadcastInDim S128 ![] bcast_S_S128 : (⟨S_, .f32⟩ : BufTy).Contents (Elt F) → (⟨S128, .f32⟩ : BufTy).Contents (Elt F)),
    binary main_v169 main_v173 main_v174 (addf : (⟨S128, .f32⟩ : BufTy).Contents (Elt F) → (⟨S128, .f32⟩ : BufTy).Contents (Elt F) → (⟨S128, .f32⟩ : BufTy).Contents (Elt F)),
    unary main_v174 main_v175 (Host.rsqrt : (⟨S128, .f32⟩ : BufTy).Contents (Elt F) → (⟨S128, .f32⟩ : BufTy).Contents (Elt F)),
    unary main_v175 main_v176 (broadcastInDim S1x128 ![1] bcast_S128_S1x128_1 : (⟨S128, .f32⟩ : BufTy).Contents (Elt F) → (⟨S1x128, .f32⟩ : BufTy).Contents (Elt F)),
    unary main_v176 main_v177 (broadcastInDim S50000x128 ![0, 1] bcast_S1x128_S50000x128_0_1 : (⟨S1x128, .f32⟩ : BufTy).Contents (Elt F) → (⟨S50000x128, .f32⟩ : BufTy).Contents (Elt F)),
    binary main_v172 main_v177 main_v178 (mulf : (⟨S50000x128, .f32⟩ : BufTy).Contents (Elt F) → (⟨S50000x128, .f32⟩ : BufTy).Contents (Elt F) → (⟨S50000x128, .f32⟩ : BufTy).Contents (Elt F)),
    unary main_arg24 main_v179 (broadcastInDim S1x128 ![1] bcast_S128_S1x128_1 : (⟨S128, .f32⟩ : BufTy).Contents (Elt F) → (⟨S1x128, .f32⟩ : BufTy).Contents (Elt F)),
    unary main_v179 main_v180 (broadcastInDim S50000x128 ![0, 1] bcast_S1x128_S50000x128_0_1 : (⟨S1x128, .f32⟩ : BufTy).Contents (Elt F) → (⟨S50000x128, .f32⟩ : BufTy).Contents (Elt F)),
    binary main_v178 main_v180 main_v181 (mulf : (⟨S50000x128, .f32⟩ : BufTy).Contents (Elt F) → (⟨S50000x128, .f32⟩ : BufTy).Contents (Elt F) → (⟨S50000x128, .f32⟩ : BufTy).Contents (Elt F)),
    unary main_arg25 main_v182 (broadcastInDim S1x128 ![1] bcast_S128_S1x128_1 : (⟨S128, .f32⟩ : BufTy).Contents (Elt F) → (⟨S1x128, .f32⟩ : BufTy).Contents (Elt F)),
    unary main_v182 main_v183 (broadcastInDim S50000x128 ![0, 1] bcast_S1x128_S50000x128_0_1 : (⟨S1x128, .f32⟩ : BufTy).Contents (Elt F) → (⟨S50000x128, .f32⟩ : BufTy).Contents (Elt F)),
    binary main_v181 main_v183 main_v184 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
/-- The whole list is the pieces in a row. -/
theorem ops_eq : (Ops.ops : List (HloOp τ sig (Elt F))) = ops0 ++ (ops1 ++ (ops2 ++ (ops3 ++ (ops4 ++ (ops5 ++ (ops6 ++ (ops7 ++ (ops8 ++ (ops9 ++ (ops10 ++ (ops11))))))))))) := rfl

theorem ops0_fresh : (ops0 : List (HloOp τ sig (Elt F))).Forall fun op => op.fresh = ∅ :=
  ⟨rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
theorem ops2_fresh : (ops2 : List (HloOp τ sig (Elt F))).Forall fun op => op.fresh = ∅ :=
  ⟨rfl, rfl, rfl, rfl, rfl, rfl, rfl, rfl, rfl, rfl, rfl, rfl, rfl, rfl⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
theorem ops4_fresh : (ops4 : List (HloOp τ sig (Elt F))).Forall fun op => op.fresh = ∅ :=
  ⟨rfl, rfl, rfl, rfl, rfl, rfl, rfl, rfl, rfl⟩
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl⟩
theorem ops6_fresh : (ops6 : List (HloOp τ sig (Elt F))).Forall fun op => op.fresh = ∅ :=
  ⟨rfl, rfl, rfl, rfl, rfl, rfl, rfl, rfl, rfl, rfl, rfl, rfl, rfl, rfl, rfl⟩
theorem ops7_fresh : (ops7 : List (HloOp τ sig (Elt F))).Forall fun op => op.fresh = ∅ :=
  ⟨rfl, rfl, rfl, rfl, rfl, rfl, rfl, rfl, rfl, rfl, rfl, rfl⟩
theorem ops8_fresh : (ops8 : List (HloOp τ sig (Elt F))).Forall fun op => op.fresh = ∅ :=
  ⟨rfl, rfl, rfl, rfl, rfl, rfl, rfl, rfl, rfl, rfl, rfl, rfl, rfl⟩
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops10_fresh : (ops10 : List (HloOp τ sig (Elt F))).Forall fun op => op.fresh = ∅ :=
  ⟨rfl, rfl, rfl, rfl, rfl, rfl, rfl, rfl, rfl, rfl, rfl, rfl, rfl, rfl⟩
theorem ops11_fresh : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers' contents before the first piece. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl
theorem val0_main_arg20 (V0 : Valuation τ sig (Elt F)) : val0 V0 (no_index (Proc.devRef .tc main_arg20)) = V0 (Proc.devRef .tc main_arg20) := rfl
theorem val0_main_arg21 (V0 : Valuation τ sig (Elt F)) : val0 V0 (no_index (Proc.devRef .tc main_arg21)) = V0 (Proc.devRef .tc main_arg21) := rfl
theorem val0_main_arg22 (V0 : Valuation τ sig (Elt F)) : val0 V0 (no_index (Proc.devRef .tc main_arg22)) = V0 (Proc.devRef .tc main_arg22) := rfl
theorem val0_main_arg23 (V0 : Valuation τ sig (Elt F)) : val0 V0 (no_index (Proc.devRef .tc main_arg23)) = V0 (Proc.devRef .tc main_arg23) := rfl
theorem val0_main_arg24 (V0 : Valuation τ sig (Elt F)) : val0 V0 (no_index (Proc.devRef .tc main_arg24)) = V0 (Proc.devRef .tc main_arg24) := rfl
theorem val0_main_arg25 (V0 : Valuation τ sig (Elt F)) : val0 V0 (no_index (Proc.devRef .tc main_arg25)) = V0 (Proc.devRef .tc main_arg25) := rfl

/-- The buffers' contents after the first 1 piece. -/
def val1 (V0 : Valuation τ sig (Elt F)) : Valuation τ sig (Elt F) := after ops0 (val0 V0)
/-- The buffers that piece 0 writes. -/
abbrev ops0_W : List (Ref sig .tc) := [main_v0, main_v1, main_v2, main_v3, main_v4, main_v5, main_v6, main_v7, main_v8, main_v9, main_v10, main_v11, main_v12]
set_option maxRecDepth 8192 in
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 0 does not write keeps its contents through it. -/
theorem val1_keep (V0 : Valuation τ sig (Elt F)) (r : Ref sig .tc) (h : r ∉ ops0_W) :
    val1 V0 (Proc.devRef .tc r) = val0 V0 (Proc.devRef .tc r) :=
  after_of_writes_sub ops0 _ ops0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
theorem val1_main_arg19 (V0 : Valuation τ sig (Elt F)) : val1 V0 (no_index (Proc.devRef .tc main_arg19)) = V0 (Proc.devRef .tc main_arg19) :=
  (val1_keep V0 main_arg19 (by decide)).trans (val0_main_arg19 V0)
theorem val1_main_arg20 (V0 : Valuation τ sig (Elt F)) : val1 V0 (no_index (Proc.devRef .tc main_arg20)) = V0 (Proc.devRef .tc main_arg20) :=
  (val1_keep V0 main_arg20 (by decide)).trans (val0_main_arg20 V0)
theorem val1_main_arg21 (V0 : Valuation τ sig (Elt F)) : val1 V0 (no_index (Proc.devRef .tc main_arg21)) = V0 (Proc.devRef .tc main_arg21) :=
  (val1_keep V0 main_arg21 (by decide)).trans (val0_main_arg21 V0)
theorem val1_main_arg22 (V0 : Valuation τ sig (Elt F)) : val1 V0 (no_index (Proc.devRef .tc main_arg22)) = V0 (Proc.devRef .tc main_arg22) :=
  (val1_keep V0 main_arg22 (by decide)).trans (val0_main_arg22 V0)
theorem val1_main_arg23 (V0 : Valuation τ sig (Elt F)) : val1 V0 (no_index (Proc.devRef .tc main_arg23)) = V0 (Proc.devRef .tc main_arg23) :=
  (val1_keep V0 main_arg23 (by decide)).trans (val0_main_arg23 V0)
theorem val1_main_arg24 (V0 : Valuation τ sig (Elt F)) : val1 V0 (no_index (Proc.devRef .tc main_arg24)) = V0 (Proc.devRef .tc main_arg24) :=
  (val1_keep V0 main_arg24 (by decide)).trans (val0_main_arg24 V0)
theorem val1_main_arg25 (V0 : Valuation τ sig (Elt F)) : val1 V0 (no_index (Proc.devRef .tc main_arg25)) = V0 (Proc.devRef .tc main_arg25) :=
  (val1_keep V0 main_arg25 (by decide)).trans (val0_main_arg25 V0)
set_option maxRecDepth 8192 in
set_option maxHeartbeats 3000000 in
theorem val1_main_v12 (V0 : Valuation τ sig (Elt F)) : val1 V0 (no_index (Proc.devRef .tc main_v12)) = Stages.val_main_v12 (F := F) (V0 (Proc.devRef .tc main_arg0)) (V0 (Proc.devRef .tc main_arg3)) (V0 (Proc.devRef .tc main_arg4)) (V0 (Proc.devRef .tc main_arg5)) (V0 (Proc.devRef .tc main_arg6)) := by
  unfold val1
  simp only [ops0]
  after_results_simp
  simp only [val0_main_arg6, val0_main_arg5, val0_main_arg4, val0_main_arg3, val0_main_arg0] <;> rfl

/-- The buffers' contents after the first 2 pieces. -/
def val2 (V0 : Valuation τ sig (Elt F)) : Valuation τ sig (Elt F) := after ops1 (val1 V0)
/-- The buffers that piece 1 writes. -/
abbrev ops1_W : List (Ref sig .tc) := [main_cst, main_v13, main_v14, main_cst_0, main_v15, main_v16, main_v17, main_v18, main_v19, main_cst_1, main_v20, main_v21, main_cst_2, main_v22, main_v23, main_v24, main_v25, main_cst_3, main_v26, main_v27, main_v28, main_v29, main_v30, main_v31, main_v32, main_v33, main_v34, main_v35, main_v36]
set_option maxRecDepth 8192 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 1 does not write keeps its contents through it. -/
theorem val2_keep (V0 : Valuation τ sig (Elt F)) (r : Ref sig .tc) (h : r ∉ ops1_W) :
    val2 V0 (Proc.devRef .tc r) = val1 V0 (Proc.devRef .tc r) :=
  after_of_writes_sub ops1 _ ops1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_arg20 (V0 : Valuation τ sig (Elt F)) : val2 V0 (no_index (Proc.devRef .tc main_arg20)) = V0 (Proc.devRef .tc main_arg20) :=
  (val2_keep V0 main_arg20 (by decide)).trans (val1_main_arg20 V0)
theorem val2_main_arg21 (V0 : Valuation τ sig (Elt F)) : val2 V0 (no_index (Proc.devRef .tc main_arg21)) = V0 (Proc.devRef .tc main_arg21) :=
  (val2_keep V0 main_arg21 (by decide)).trans (val1_main_arg21 V0)
theorem val2_main_arg22 (V0 : Valuation τ sig (Elt F)) : val2 V0 (no_index (Proc.devRef .tc main_arg22)) = V0 (Proc.devRef .tc main_arg22) :=
  (val2_keep V0 main_arg22 (by decide)).trans (val1_main_arg22 V0)
theorem val2_main_arg23 (V0 : Valuation τ sig (Elt F)) : val2 V0 (no_index (Proc.devRef .tc main_arg23)) = V0 (Proc.devRef .tc main_arg23) :=
  (val2_keep V0 main_arg23 (by decide)).trans (val1_main_arg23 V0)
theorem val2_main_arg24 (V0 : Valuation τ sig (Elt F)) : val2 V0 (no_index (Proc.devRef .tc main_arg24)) = V0 (Proc.devRef .tc main_arg24) :=
  (val2_keep V0 main_arg24 (by decide)).trans (val1_main_arg24 V0)
theorem val2_main_arg25 (V0 : Valuation τ sig (Elt F)) : val2 V0 (no_index (Proc.devRef .tc main_arg25)) = V0 (Proc.devRef .tc main_arg25) :=
  (val2_keep V0 main_arg25 (by decide)).trans (val1_main_arg25 V0)
set_option maxRecDepth 8192 in
set_option maxHeartbeats 3000000 in
theorem val2_main_v36 (V0 : Valuation τ sig (Elt F)) : val2 V0 (no_index (Proc.devRef .tc main_v36)) = Stages.val_main_v36 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg11)) (V0 (Proc.devRef .tc main_arg12)) := by
  unfold val2
  simp only [ops1]
  after_results_simp
  simp only [val1_main_arg12, val1_main_arg11, val1_main_v12] <;> rfl

/-- The buffers' contents after the first 3 pieces. -/
def val3 (V0 : Valuation τ sig (Elt F)) : Valuation τ sig (Elt F) := after ops2 (val2 V0)
/-- The buffers that piece 2 writes. -/
abbrev ops2_W : List (Ref sig .tc) := [main_v37, main_v38, main_v39, main_v40, main_v41, main_call0_cst, main_call0_v0, main_v42, main_v43, main_v44, main_v45, main_v46, main_v47, main_v48]
set_option maxRecDepth 8192 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 2 does not write keeps its contents through it. -/
theorem val3_keep (V0 : Valuation τ sig (Elt F)) (r : Ref sig .tc) (h : r ∉ ops2_W) :
    val3 V0 (Proc.devRef .tc r) = val2 V0 (Proc.devRef .tc r) :=
  after_of_writes_sub ops2 _ ops2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_main_arg19 V0)
theorem val3_main_arg20 (V0 : Valuation τ sig (Elt F)) : val3 V0 (no_index (Proc.devRef .tc main_arg20)) = V0 (Proc.devRef .tc main_arg20) :=
  (val3_keep V0 main_arg20 (by decide)).trans (val2_main_arg20 V0)
theorem val3_main_arg21 (V0 : Valuation τ sig (Elt F)) : val3 V0 (no_index (Proc.devRef .tc main_arg21)) = V0 (Proc.devRef .tc main_arg21) :=
  (val3_keep V0 main_arg21 (by decide)).trans (val2_main_arg21 V0)
theorem val3_main_arg22 (V0 : Valuation τ sig (Elt F)) : val3 V0 (no_index (Proc.devRef .tc main_arg22)) = V0 (Proc.devRef .tc main_arg22) :=
  (val3_keep V0 main_arg22 (by decide)).trans (val2_main_arg22 V0)
theorem val3_main_arg23 (V0 : Valuation τ sig (Elt F)) : val3 V0 (no_index (Proc.devRef .tc main_arg23)) = V0 (Proc.devRef .tc main_arg23) :=
  (val3_keep V0 main_arg23 (by decide)).trans (val2_main_arg23 V0)
theorem val3_main_arg24 (V0 : Valuation τ sig (Elt F)) : val3 V0 (no_index (Proc.devRef .tc main_arg24)) = V0 (Proc.devRef .tc main_arg24) :=
  (val3_keep V0 main_arg24 (by decide)).trans (val2_main_arg24 V0)
theorem val3_main_arg25 (V0 : Valuation τ sig (Elt F)) : val3 V0 (no_index (Proc.devRef .tc main_arg25)) = V0 (Proc.devRef .tc main_arg25) :=
  (val3_keep V0 main_arg25 (by decide)).trans (val2_main_arg25 V0)
set_option maxRecDepth 8192 in
set_option maxHeartbeats 3000000 in
theorem val3_main_v48 (V0 : Valuation τ sig (Elt F)) : val3 V0 (no_index (Proc.devRef .tc main_v48)) = Stages.val_main_v48 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val3
  simp only [ops2]
  after_results_simp
  simp only [val2_main_arg10, val2_main_arg9, val2_main_arg8, val2_main_arg7, val2_main_v36] <;> rfl

/-- The buffers' contents after the first 4 pieces. -/
def val4 (V0 : Valuation τ sig (Elt F)) : Valuation τ sig (Elt F) := after ops3 (val3 V0)
/-- The buffers that piece 3 writes. -/
abbrev ops3_W : List (Ref sig .tc) := [main_cst_4, main_v49, main_v50, main_cst_5, main_v51, main_v52, main_v53, main_v54, main_v55, main_cst_6, main_v56, main_v57, main_cst_7, main_v58, main_v59, main_v60, main_v61, main_cst_8, main_v62, main_v63, main_v64, main_v65, main_v66, main_v67, main_v68, main_v69, main_v70, main_v71, main_v72]
set_option maxRecDepth 8192 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 3 does not write keeps its contents through it. -/
theorem val4_keep (V0 : Valuation τ sig (Elt F)) (r : Ref sig .tc) (h : r ∉ ops3_W) :
    val4 V0 (Proc.devRef .tc r) = val3 V0 (Proc.devRef .tc r) :=
  after_of_writes_sub ops3 _ ops3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_arg19 (V0 : Valuation τ sig (Elt F)) : val4 V0 (no_index (Proc.devRef .tc main_arg19)) = V0 (Proc.devRef .tc main_arg19) :=
  (val4_keep V0 main_arg19 (by decide)).trans (val3_main_arg19 V0)
theorem val4_main_arg20 (V0 : Valuation τ sig (Elt F)) : val4 V0 (no_index (Proc.devRef .tc main_arg20)) = V0 (Proc.devRef .tc main_arg20) :=
  (val4_keep V0 main_arg20 (by decide)).trans (val3_main_arg20 V0)
theorem val4_main_arg21 (V0 : Valuation τ sig (Elt F)) : val4 V0 (no_index (Proc.devRef .tc main_arg21)) = V0 (Proc.devRef .tc main_arg21) :=
  (val4_keep V0 main_arg21 (by decide)).trans (val3_main_arg21 V0)
theorem val4_main_arg22 (V0 : Valuation τ sig (Elt F)) : val4 V0 (no_index (Proc.devRef .tc main_arg22)) = V0 (Proc.devRef .tc main_arg22) :=
  (val4_keep V0 main_arg22 (by decide)).trans (val3_main_arg22 V0)
theorem val4_main_arg23 (V0 : Valuation τ sig (Elt F)) : val4 V0 (no_index (Proc.devRef .tc main_arg23)) = V0 (Proc.devRef .tc main_arg23) :=
  (val4_keep V0 main_arg23 (by decide)).trans (val3_main_arg23 V0)
theorem val4_main_arg24 (V0 : Valuation τ sig (Elt F)) : val4 V0 (no_index (Proc.devRef .tc main_arg24)) = V0 (Proc.devRef .tc main_arg24) :=
  (val4_keep V0 main_arg24 (by decide)).trans (val3_main_arg24 V0)
theorem val4_main_arg25 (V0 : Valuation τ sig (Elt F)) : val4 V0 (no_index (Proc.devRef .tc main_arg25)) = V0 (Proc.devRef .tc main_arg25) :=
  (val4_keep V0 main_arg25 (by decide)).trans (val3_main_arg25 V0)
set_option maxRecDepth 8192 in
set_option maxHeartbeats 3000000 in
theorem val4_main_v72 (V0 : Valuation τ sig (Elt F)) : val4 V0 (no_index (Proc.devRef .tc main_v72)) = Stages.val_main_v72 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold val4
  simp only [ops3]
  after_results_simp
  simp only [val3_main_arg14, val3_main_arg13, val3_main_v48] <;> rfl

/-- The buffers' contents after the first 5 pieces. -/
def val5 (V0 : Valuation τ sig (Elt F)) : Valuation τ sig (Elt F) := after ops4 (val4 V0)
/-- The buffers that piece 4 writes. -/
abbrev ops4_W : List (Ref sig .tc) := [main_v73, main_v74, main_v75, main_v76, main_v77, main_v78, main_v79, main_v80, main_v81]
set_option maxRecDepth 8192 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 4 does not write keeps its contents through it. -/
theorem val5_keep (V0 : Valuation τ sig (Elt F)) (r : Ref sig .tc) (h : r ∉ ops4_W) :
    val5 V0 (Proc.devRef .tc r) = val4 V0 (Proc.devRef .tc r) :=
  after_of_writes_sub ops4 _ ops4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
theorem val5_main_arg19 (V0 : Valuation τ sig (Elt F)) : val5 V0 (no_index (Proc.devRef .tc main_arg19)) = V0 (Proc.devRef .tc main_arg19) :=
  (val5_keep V0 main_arg19 (by decide)).trans (val4_main_arg19 V0)
theorem val5_main_arg20 (V0 : Valuation τ sig (Elt F)) : val5 V0 (no_index (Proc.devRef .tc main_arg20)) = V0 (Proc.devRef .tc main_arg20) :=
  (val5_keep V0 main_arg20 (by decide)).trans (val4_main_arg20 V0)
theorem val5_main_arg21 (V0 : Valuation τ sig (Elt F)) : val5 V0 (no_index (Proc.devRef .tc main_arg21)) = V0 (Proc.devRef .tc main_arg21) :=
  (val5_keep V0 main_arg21 (by decide)).trans (val4_main_arg21 V0)
theorem val5_main_arg22 (V0 : Valuation τ sig (Elt F)) : val5 V0 (no_index (Proc.devRef .tc main_arg22)) = V0 (Proc.devRef .tc main_arg22) :=
  (val5_keep V0 main_arg22 (by decide)).trans (val4_main_arg22 V0)
theorem val5_main_arg23 (V0 : Valuation τ sig (Elt F)) : val5 V0 (no_index (Proc.devRef .tc main_arg23)) = V0 (Proc.devRef .tc main_arg23) :=
  (val5_keep V0 main_arg23 (by decide)).trans (val4_main_arg23 V0)
theorem val5_main_arg24 (V0 : Valuation τ sig (Elt F)) : val5 V0 (no_index (Proc.devRef .tc main_arg24)) = V0 (Proc.devRef .tc main_arg24) :=
  (val5_keep V0 main_arg24 (by decide)).trans (val4_main_arg24 V0)
theorem val5_main_arg25 (V0 : Valuation τ sig (Elt F)) : val5 V0 (no_index (Proc.devRef .tc main_arg25)) = V0 (Proc.devRef .tc main_arg25) :=
  (val5_keep V0 main_arg25 (by decide)).trans (val4_main_arg25 V0)
theorem val5_main_v72 (V0 : Valuation τ sig (Elt F)) : val5 V0 (no_index (Proc.devRef .tc main_v72)) = Stages.val_main_v72 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  (val5_keep V0 main_v72 (by decide)).trans (val4_main_v72 V0)
set_option maxRecDepth 8192 in
set_option maxHeartbeats 3000000 in
theorem val5_main_v75 (V0 : Valuation τ sig (Elt F)) : val5 V0 (no_index (Proc.devRef .tc main_v75)) = Stages.val_main_v75 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val5
  simp only [ops4]
  after_results_simp
  simp only [val4_main_arg15, val4_main_v72] <;> rfl
set_option maxRecDepth 8192 in
set_option maxHeartbeats 3000000 in
theorem val5_main_v78 (V0 : Valuation τ sig (Elt F)) : val5 V0 (no_index (Proc.devRef .tc main_v78)) = Stages.val_main_v78 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg16)) := by
  unfold val5
  simp only [ops4]
  after_results_simp
  simp only [val4_main_arg16, val4_main_v72] <;> rfl
set_option maxRecDepth 8192 in
set_option maxHeartbeats 3000000 in
theorem val5_main_v81 (V0 : Valuation τ sig (Elt F)) : val5 V0 (no_index (Proc.devRef .tc main_v81)) = Stages.val_main_v81 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg17)) := by
  unfold val5
  simp only [ops4]
  after_results_simp
  simp only [val4_main_arg17, val4_main_v72] <;> rfl

/-- The buffers' contents after the first 6 pieces. -/
def val6 (V0 : Valuation τ sig (Elt F)) : Valuation τ sig (Elt F) := after ops5 (val5 V0)
/-- The buffers that piece 5 writes. -/
abbrev ops5_W : List (Ref sig .tc) := [main_c, main_v82, main_v83, main_c_9, main_v84, main_v85, main_v86, main_v87, main_v88, main_c_10, main_v89, main_v90, main_c_11, main_v91, main_v92, main_v93, main_v94, main_v95]
set_option maxRecDepth 8192 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 5 does not write keeps its contents through it. -/
theorem val6_keep (V0 : Valuation τ sig (Elt F)) (r : Ref sig .tc) (h : r ∉ ops5_W) :
    val6 V0 (Proc.devRef .tc r) = val5 V0 (Proc.devRef .tc r) :=
  after_of_writes_sub ops5 _ ops5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_arg18 (V0 : Valuation τ sig (Elt F)) : val6 V0 (no_index (Proc.devRef .tc main_arg18)) = V0 (Proc.devRef .tc main_arg18) :=
  (val6_keep V0 main_arg18 (by decide)).trans (val5_main_arg18 V0)
theorem val6_main_arg19 (V0 : Valuation τ sig (Elt F)) : val6 V0 (no_index (Proc.devRef .tc main_arg19)) = V0 (Proc.devRef .tc main_arg19) :=
  (val6_keep V0 main_arg19 (by decide)).trans (val5_main_arg19 V0)
theorem val6_main_arg20 (V0 : Valuation τ sig (Elt F)) : val6 V0 (no_index (Proc.devRef .tc main_arg20)) = V0 (Proc.devRef .tc main_arg20) :=
  (val6_keep V0 main_arg20 (by decide)).trans (val5_main_arg20 V0)
theorem val6_main_arg21 (V0 : Valuation τ sig (Elt F)) : val6 V0 (no_index (Proc.devRef .tc main_arg21)) = V0 (Proc.devRef .tc main_arg21) :=
  (val6_keep V0 main_arg21 (by decide)).trans (val5_main_arg21 V0)
theorem val6_main_arg22 (V0 : Valuation τ sig (Elt F)) : val6 V0 (no_index (Proc.devRef .tc main_arg22)) = V0 (Proc.devRef .tc main_arg22) :=
  (val6_keep V0 main_arg22 (by decide)).trans (val5_main_arg22 V0)
theorem val6_main_arg23 (V0 : Valuation τ sig (Elt F)) : val6 V0 (no_index (Proc.devRef .tc main_arg23)) = V0 (Proc.devRef .tc main_arg23) :=
  (val6_keep V0 main_arg23 (by decide)).trans (val5_main_arg23 V0)
theorem val6_main_arg24 (V0 : Valuation τ sig (Elt F)) : val6 V0 (no_index (Proc.devRef .tc main_arg24)) = V0 (Proc.devRef .tc main_arg24) :=
  (val6_keep V0 main_arg24 (by decide)).trans (val5_main_arg24 V0)
theorem val6_main_arg25 (V0 : Valuation τ sig (Elt F)) : val6 V0 (no_index (Proc.devRef .tc main_arg25)) = V0 (Proc.devRef .tc main_arg25) :=
  (val6_keep V0 main_arg25 (by decide)).trans (val5_main_arg25 V0)
theorem val6_main_v72 (V0 : Valuation τ sig (Elt F)) : val6 V0 (no_index (Proc.devRef .tc main_v72)) = Stages.val_main_v72 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  (val6_keep V0 main_v72 (by decide)).trans (val5_main_v72 V0)
theorem val6_main_v81 (V0 : Valuation τ sig (Elt F)) : val6 V0 (no_index (Proc.devRef .tc main_v81)) = Stages.val_main_v81 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg17)) :=
  (val6_keep V0 main_v81 (by decide)).trans (val5_main_v81 V0)
set_option maxRecDepth 8192 in
set_option maxHeartbeats 3000000 in
theorem val6_main_v88 (V0 : Valuation τ sig (Elt F)) : val6 V0 (no_index (Proc.devRef .tc main_v88)) = Stages.val_main_v88 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg16)) := by
  unfold val6
  simp only [ops5]
  after_results_simp
  simp only [val5_main_arg1, val5_main_v78] <;> rfl
set_option maxRecDepth 8192 in
set_option maxHeartbeats 3000000 in
theorem val6_main_v95 (V0 : Valuation τ sig (Elt F)) : val6 V0 (no_index (Proc.devRef .tc main_v95)) = Stages.val_main_v95 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold val6
  simp only [ops5]
  after_results_simp
  simp only [val5_main_arg2, val5_main_v75] <;> rfl

/-- The buffers' contents after the first 7 pieces. -/
def val7 (V0 : Valuation τ sig (Elt F)) : Valuation τ sig (Elt F) := after ops6 (val6 V0)
/-- The buffers that piece 6 writes. -/
abbrev ops6_W : List (Ref sig .tc) := [main_v96, main_cst_12, main_v97, main_cst_13, main_v98, main_v99, main_cst_14, main_cst_15, main_call1_v0, main_call1_v1, main_call1_v2, main_call1_v3, main_call1_v4, main_v100, main_v101]
set_option maxRecDepth 8192 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 6 does not write keeps its contents through it. -/
theorem val7_keep (V0 : Valuation τ sig (Elt F)) (r : Ref sig .tc) (h : r ∉ ops6_W) :
    val7 V0 (Proc.devRef .tc r) = val6 V0 (Proc.devRef .tc r) :=
  after_of_writes_sub ops6 _ ops6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_arg18 (V0 : Valuation τ sig (Elt F)) : val7 V0 (no_index (Proc.devRef .tc main_arg18)) = V0 (Proc.devRef .tc main_arg18) :=
  (val7_keep V0 main_arg18 (by decide)).trans (val6_main_arg18 V0)
theorem val7_main_arg19 (V0 : Valuation τ sig (Elt F)) : val7 V0 (no_index (Proc.devRef .tc main_arg19)) = V0 (Proc.devRef .tc main_arg19) :=
  (val7_keep V0 main_arg19 (by decide)).trans (val6_main_arg19 V0)
theorem val7_main_arg20 (V0 : Valuation τ sig (Elt F)) : val7 V0 (no_index (Proc.devRef .tc main_arg20)) = V0 (Proc.devRef .tc main_arg20) :=
  (val7_keep V0 main_arg20 (by decide)).trans (val6_main_arg20 V0)
theorem val7_main_arg21 (V0 : Valuation τ sig (Elt F)) : val7 V0 (no_index (Proc.devRef .tc main_arg21)) = V0 (Proc.devRef .tc main_arg21) :=
  (val7_keep V0 main_arg21 (by decide)).trans (val6_main_arg21 V0)
theorem val7_main_arg22 (V0 : Valuation τ sig (Elt F)) : val7 V0 (no_index (Proc.devRef .tc main_arg22)) = V0 (Proc.devRef .tc main_arg22) :=
  (val7_keep V0 main_arg22 (by decide)).trans (val6_main_arg22 V0)
theorem val7_main_arg23 (V0 : Valuation τ sig (Elt F)) : val7 V0 (no_index (Proc.devRef .tc main_arg23)) = V0 (Proc.devRef .tc main_arg23) :=
  (val7_keep V0 main_arg23 (by decide)).trans (val6_main_arg23 V0)
theorem val7_main_arg24 (V0 : Valuation τ sig (Elt F)) : val7 V0 (no_index (Proc.devRef .tc main_arg24)) = V0 (Proc.devRef .tc main_arg24) :=
  (val7_keep V0 main_arg24 (by decide)).trans (val6_main_arg24 V0)
theorem val7_main_arg25 (V0 : Valuation τ sig (Elt F)) : val7 V0 (no_index (Proc.devRef .tc main_arg25)) = V0 (Proc.devRef .tc main_arg25) :=
  (val7_keep V0 main_arg25 (by decide)).trans (val6_main_arg25 V0)
theorem val7_main_v72 (V0 : Valuation τ sig (Elt F)) : val7 V0 (no_index (Proc.devRef .tc main_v72)) = Stages.val_main_v72 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  (val7_keep V0 main_v72 (by decide)).trans (val6_main_v72 V0)
theorem val7_main_v81 (V0 : Valuation τ sig (Elt F)) : val7 V0 (no_index (Proc.devRef .tc main_v81)) = Stages.val_main_v81 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg17)) :=
  (val7_keep V0 main_v81 (by decide)).trans (val6_main_v81 V0)
set_option maxRecDepth 8192 in
set_option maxHeartbeats 3000000 in
theorem val7_main_v101 (V0 : Valuation τ sig (Elt F)) : val7 V0 (no_index (Proc.devRef .tc main_v101)) = Stages.val_main_v101 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold val7
  simp only [ops6]
  after_results_simp
  simp only [val6_main_v95, val6_main_v88] <;> rfl

/-- The buffers' contents after the first 8 pieces. -/
def val8 (V0 : Valuation τ sig (Elt F)) : Valuation τ sig (Elt F) := after ops7 (val7 V0)
/-- The buffers that piece 7 writes. -/
abbrev ops7_W : List (Ref sig .tc) := [main_c_16, main_v102, main_v103, main_c_17, main_v104, main_v105, main_v106, main_v107, main_v108, main_v109, main_v110, main_v111]
set_option maxRecDepth 8192 in
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 7 does not write keeps its contents through it. -/
theorem val8_keep (V0 : Valuation τ sig (Elt F)) (r : Ref sig .tc) (h : r ∉ ops7_W) :
    val8 V0 (Proc.devRef .tc r) = val7 V0 (Proc.devRef .tc r) :=
  after_of_writes_sub ops7 _ ops7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_arg18 (V0 : Valuation τ sig (Elt F)) : val8 V0 (no_index (Proc.devRef .tc main_arg18)) = V0 (Proc.devRef .tc main_arg18) :=
  (val8_keep V0 main_arg18 (by decide)).trans (val7_main_arg18 V0)
theorem val8_main_arg19 (V0 : Valuation τ sig (Elt F)) : val8 V0 (no_index (Proc.devRef .tc main_arg19)) = V0 (Proc.devRef .tc main_arg19) :=
  (val8_keep V0 main_arg19 (by decide)).trans (val7_main_arg19 V0)
theorem val8_main_arg20 (V0 : Valuation τ sig (Elt F)) : val8 V0 (no_index (Proc.devRef .tc main_arg20)) = V0 (Proc.devRef .tc main_arg20) :=
  (val8_keep V0 main_arg20 (by decide)).trans (val7_main_arg20 V0)
theorem val8_main_arg21 (V0 : Valuation τ sig (Elt F)) : val8 V0 (no_index (Proc.devRef .tc main_arg21)) = V0 (Proc.devRef .tc main_arg21) :=
  (val8_keep V0 main_arg21 (by decide)).trans (val7_main_arg21 V0)
theorem val8_main_arg22 (V0 : Valuation τ sig (Elt F)) : val8 V0 (no_index (Proc.devRef .tc main_arg22)) = V0 (Proc.devRef .tc main_arg22) :=
  (val8_keep V0 main_arg22 (by decide)).trans (val7_main_arg22 V0)
theorem val8_main_arg23 (V0 : Valuation τ sig (Elt F)) : val8 V0 (no_index (Proc.devRef .tc main_arg23)) = V0 (Proc.devRef .tc main_arg23) :=
  (val8_keep V0 main_arg23 (by decide)).trans (val7_main_arg23 V0)
theorem val8_main_arg24 (V0 : Valuation τ sig (Elt F)) : val8 V0 (no_index (Proc.devRef .tc main_arg24)) = V0 (Proc.devRef .tc main_arg24) :=
  (val8_keep V0 main_arg24 (by decide)).trans (val7_main_arg24 V0)
theorem val8_main_arg25 (V0 : Valuation τ sig (Elt F)) : val8 V0 (no_index (Proc.devRef .tc main_arg25)) = V0 (Proc.devRef .tc main_arg25) :=
  (val8_keep V0 main_arg25 (by decide)).trans (val7_main_arg25 V0)
theorem val8_main_v72 (V0 : Valuation τ sig (Elt F)) : val8 V0 (no_index (Proc.devRef .tc main_v72)) = Stages.val_main_v72 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  (val8_keep V0 main_v72 (by decide)).trans (val7_main_v72 V0)
theorem val8_main_v101 (V0 : Valuation τ sig (Elt F)) : val8 V0 (no_index (Proc.devRef .tc main_v101)) = Stages.val_main_v101 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) :=
  (val8_keep V0 main_v101 (by decide)).trans (val7_main_v101 V0)
set_option maxRecDepth 8192 in
set_option maxHeartbeats 3000000 in
theorem val8_main_v111 (V0 : Valuation τ sig (Elt F)) : val8 V0 (no_index (Proc.devRef .tc main_v111)) = Stages.val_main_v111 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold val8
  simp only [ops7]
  after_results_simp
  simp only [val7_main_v101, val7_main_arg1, val7_main_v81] <;> rfl

/-- The buffers' contents after the first 9 pieces. -/
def val9 (V0 : Valuation τ sig (Elt F)) : Valuation τ sig (Elt F) := after ops8 (val8 V0)
/-- The buffers that piece 8 writes. -/
abbrev ops8_W : List (Ref sig .tc) := [main_cst_18, main_v112, main_v113, main_v114, main_cst_19, main_v115, main_v116, main_v117, main_v118, main_v119, main_v120, main_v121, main_v122]
set_option maxRecDepth 8192 in
theorem ops8_writes : (ops8 : List (HloOp τ sig (Elt F))).Forall fun op => op.writes ⊆ (ops8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 8 does not write keeps its contents through it. -/
theorem val9_keep (V0 : Valuation τ sig (Elt F)) (r : Ref sig .tc) (h : r ∉ ops8_W) :
    val9 V0 (Proc.devRef .tc r) = val8 V0 (Proc.devRef .tc r) :=
  after_of_writes_sub ops8 _ ops8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_arg18 (V0 : Valuation τ sig (Elt F)) : val9 V0 (no_index (Proc.devRef .tc main_arg18)) = V0 (Proc.devRef .tc main_arg18) :=
  (val9_keep V0 main_arg18 (by decide)).trans (val8_main_arg18 V0)
theorem val9_main_arg19 (V0 : Valuation τ sig (Elt F)) : val9 V0 (no_index (Proc.devRef .tc main_arg19)) = V0 (Proc.devRef .tc main_arg19) :=
  (val9_keep V0 main_arg19 (by decide)).trans (val8_main_arg19 V0)
theorem val9_main_arg20 (V0 : Valuation τ sig (Elt F)) : val9 V0 (no_index (Proc.devRef .tc main_arg20)) = V0 (Proc.devRef .tc main_arg20) :=
  (val9_keep V0 main_arg20 (by decide)).trans (val8_main_arg20 V0)
theorem val9_main_arg21 (V0 : Valuation τ sig (Elt F)) : val9 V0 (no_index (Proc.devRef .tc main_arg21)) = V0 (Proc.devRef .tc main_arg21) :=
  (val9_keep V0 main_arg21 (by decide)).trans (val8_main_arg21 V0)
theorem val9_main_arg22 (V0 : Valuation τ sig (Elt F)) : val9 V0 (no_index (Proc.devRef .tc main_arg22)) = V0 (Proc.devRef .tc main_arg22) :=
  (val9_keep V0 main_arg22 (by decide)).trans (val8_main_arg22 V0)
theorem val9_main_arg23 (V0 : Valuation τ sig (Elt F)) : val9 V0 (no_index (Proc.devRef .tc main_arg23)) = V0 (Proc.devRef .tc main_arg23) :=
  (val9_keep V0 main_arg23 (by decide)).trans (val8_main_arg23 V0)
theorem val9_main_arg24 (V0 : Valuation τ sig (Elt F)) : val9 V0 (no_index (Proc.devRef .tc main_arg24)) = V0 (Proc.devRef .tc main_arg24) :=
  (val9_keep V0 main_arg24 (by decide)).trans (val8_main_arg24 V0)
theorem val9_main_arg25 (V0 : Valuation τ sig (Elt F)) : val9 V0 (no_index (Proc.devRef .tc main_arg25)) = V0 (Proc.devRef .tc main_arg25) :=
  (val9_keep V0 main_arg25 (by decide)).trans (val8_main_arg25 V0)
set_option maxRecDepth 8192 in
set_option maxHeartbeats 3000000 in
theorem val9_main_v122 (V0 : Valuation τ sig (Elt F)) : val9 V0 (no_index (Proc.devRef .tc main_v122)) = Stages.val_main_v122 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold val9
  simp only [ops8]
  after_results_simp
  simp only [val8_main_v101, val8_main_arg2, val8_main_v111, val8_main_v72] <;> rfl

/-- The buffers' contents after the first 10 pieces. -/
def val10 (V0 : Valuation τ sig (Elt F)) : Valuation τ sig (Elt F) := after ops9 (val9 V0)
/-- The buffers that piece 9 writes. -/
abbrev ops9_W : List (Ref sig .tc) := [main_cst_20, main_v123, main_cst_21, main_v124, main_v125, main_v126, main_v127, main_v128, main_v129, main_cst_22, main_v130, main_cst_23, main_v131, main_v132, main_v133, main_v134, main_v135, main_cst_24, main_v136, main_v137, main_v138, main_v139, main_v140, main_v141, main_v142, main_v143, main_v144, main_v145, main_v146, main_v147]
set_option maxRecDepth 8192 in
theorem ops9_writes : (ops9 : List (HloOp τ sig (Elt F))).Forall fun op => op.writes ⊆ (ops9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 9 does not write keeps its contents through it. -/
theorem val10_keep (V0 : Valuation τ sig (Elt F)) (r : Ref sig .tc) (h : r ∉ ops9_W) :
    val10 V0 (Proc.devRef .tc r) = val9 V0 (Proc.devRef .tc r) :=
  after_of_writes_sub ops9 _ ops9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_arg13 (V0 : Valuation τ sig (Elt F)) : val10 V0 (no_index (Proc.devRef .tc main_arg13)) = V0 (Proc.devRef .tc main_arg13) :=
  (val10_keep V0 main_arg13 (by decide)).trans (val9_main_arg13 V0)
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_arg16 (V0 : Valuation τ sig (Elt F)) : val10 V0 (no_index (Proc.devRef .tc main_arg16)) = V0 (Proc.devRef .tc main_arg16) :=
  (val10_keep V0 main_arg16 (by decide)).trans (val9_main_arg16 V0)
theorem val10_main_arg17 (V0 : Valuation τ sig (Elt F)) : val10 V0 (no_index (Proc.devRef .tc main_arg17)) = V0 (Proc.devRef .tc main_arg17) :=
  (val10_keep V0 main_arg17 (by decide)).trans (val9_main_arg17 V0)
theorem val10_main_arg18 (V0 : Valuation τ sig (Elt F)) : val10 V0 (no_index (Proc.devRef .tc main_arg18)) = V0 (Proc.devRef .tc main_arg18) :=
  (val10_keep V0 main_arg18 (by decide)).trans (val9_main_arg18 V0)
theorem val10_main_arg19 (V0 : Valuation τ sig (Elt F)) : val10 V0 (no_index (Proc.devRef .tc main_arg19)) = V0 (Proc.devRef .tc main_arg19) :=
  (val10_keep V0 main_arg19 (by decide)).trans (val9_main_arg19 V0)
theorem val10_main_arg20 (V0 : Valuation τ sig (Elt F)) : val10 V0 (no_index (Proc.devRef .tc main_arg20)) = V0 (Proc.devRef .tc main_arg20) :=
  (val10_keep V0 main_arg20 (by decide)).trans (val9_main_arg20 V0)
theorem val10_main_arg21 (V0 : Valuation τ sig (Elt F)) : val10 V0 (no_index (Proc.devRef .tc main_arg21)) = V0 (Proc.devRef .tc main_arg21) :=
  (val10_keep V0 main_arg21 (by decide)).trans (val9_main_arg21 V0)
theorem val10_main_arg22 (V0 : Valuation τ sig (Elt F)) : val10 V0 (no_index (Proc.devRef .tc main_arg22)) = V0 (Proc.devRef .tc main_arg22) :=
  (val10_keep V0 main_arg22 (by decide)).trans (val9_main_arg22 V0)
theorem val10_main_arg23 (V0 : Valuation τ sig (Elt F)) : val10 V0 (no_index (Proc.devRef .tc main_arg23)) = V0 (Proc.devRef .tc main_arg23) :=
  (val10_keep V0 main_arg23 (by decide)).trans (val9_main_arg23 V0)
theorem val10_main_arg24 (V0 : Valuation τ sig (Elt F)) : val10 V0 (no_index (Proc.devRef .tc main_arg24)) = V0 (Proc.devRef .tc main_arg24) :=
  (val10_keep V0 main_arg24 (by decide)).trans (val9_main_arg24 V0)
theorem val10_main_arg25 (V0 : Valuation τ sig (Elt F)) : val10 V0 (no_index (Proc.devRef .tc main_arg25)) = V0 (Proc.devRef .tc main_arg25) :=
  (val10_keep V0 main_arg25 (by decide)).trans (val9_main_arg25 V0)
set_option maxRecDepth 8192 in
set_option maxHeartbeats 3000000 in
theorem val10_main_v147 (V0 : Valuation τ sig (Elt F)) : val10 V0 (no_index (Proc.devRef .tc main_v147)) = Stages.val_main_v147 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg22)) (V0 (Proc.devRef .tc main_arg23)) := by
  unfold val10
  simp only [ops9]
  after_results_simp
  simp only [val9_main_arg23, val9_main_arg22, val9_main_v122] <;> rfl

/-- The buffers' contents after the first 11 pieces. -/
def val11 (V0 : Valuation τ sig (Elt F)) : Valuation τ sig (Elt F) := after ops10 (val10 V0)
/-- The buffers that piece 10 writes. -/
abbrev ops10_W : List (Ref sig .tc) := [main_v148, main_v149, main_v150, main_v151, main_v152, main_call2_cst, main_call2_v0, main_v153, main_v154, main_v155, main_v156, main_v157, main_v158, main_v159]
set_option maxRecDepth 8192 in
theorem ops10_writes : (ops10 : List (HloOp τ sig (Elt F))).Forall fun op => op.writes ⊆ (ops10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 10 does not write keeps its contents through it. -/
theorem val11_keep (V0 : Valuation τ sig (Elt F)) (r : Ref sig .tc) (h : r ∉ ops10_W) :
    val11 V0 (Proc.devRef .tc r) = val10 V0 (Proc.devRef .tc r) :=
  after_of_writes_sub ops10 _ ops10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
theorem val11_main_arg13 (V0 : Valuation τ sig (Elt F)) : val11 V0 (no_index (Proc.devRef .tc main_arg13)) = V0 (Proc.devRef .tc main_arg13) :=
  (val11_keep V0 main_arg13 (by decide)).trans (val10_main_arg13 V0)
theorem val11_main_arg14 (V0 : Valuation τ sig (Elt F)) : val11 V0 (no_index (Proc.devRef .tc main_arg14)) = V0 (Proc.devRef .tc main_arg14) :=
  (val11_keep V0 main_arg14 (by decide)).trans (val10_main_arg14 V0)
theorem val11_main_arg15 (V0 : Valuation τ sig (Elt F)) : val11 V0 (no_index (Proc.devRef .tc main_arg15)) = V0 (Proc.devRef .tc main_arg15) :=
  (val11_keep V0 main_arg15 (by decide)).trans (val10_main_arg15 V0)
theorem val11_main_arg16 (V0 : Valuation τ sig (Elt F)) : val11 V0 (no_index (Proc.devRef .tc main_arg16)) = V0 (Proc.devRef .tc main_arg16) :=
  (val11_keep V0 main_arg16 (by decide)).trans (val10_main_arg16 V0)
theorem val11_main_arg17 (V0 : Valuation τ sig (Elt F)) : val11 V0 (no_index (Proc.devRef .tc main_arg17)) = V0 (Proc.devRef .tc main_arg17) :=
  (val11_keep V0 main_arg17 (by decide)).trans (val10_main_arg17 V0)
theorem val11_main_arg18 (V0 : Valuation τ sig (Elt F)) : val11 V0 (no_index (Proc.devRef .tc main_arg18)) = V0 (Proc.devRef .tc main_arg18) :=
  (val11_keep V0 main_arg18 (by decide)).trans (val10_main_arg18 V0)
theorem val11_main_arg19 (V0 : Valuation τ sig (Elt F)) : val11 V0 (no_index (Proc.devRef .tc main_arg19)) = V0 (Proc.devRef .tc main_arg19) :=
  (val11_keep V0 main_arg19 (by decide)).trans (val10_main_arg19 V0)
theorem val11_main_arg20 (V0 : Valuation τ sig (Elt F)) : val11 V0 (no_index (Proc.devRef .tc main_arg20)) = V0 (Proc.devRef .tc main_arg20) :=
  (val11_keep V0 main_arg20 (by decide)).trans (val10_main_arg20 V0)
theorem val11_main_arg21 (V0 : Valuation τ sig (Elt F)) : val11 V0 (no_index (Proc.devRef .tc main_arg21)) = V0 (Proc.devRef .tc main_arg21) :=
  (val11_keep V0 main_arg21 (by decide)).trans (val10_main_arg21 V0)
theorem val11_main_arg22 (V0 : Valuation τ sig (Elt F)) : val11 V0 (no_index (Proc.devRef .tc main_arg22)) = V0 (Proc.devRef .tc main_arg22) :=
  (val11_keep V0 main_arg22 (by decide)).trans (val10_main_arg22 V0)
theorem val11_main_arg23 (V0 : Valuation τ sig (Elt F)) : val11 V0 (no_index (Proc.devRef .tc main_arg23)) = V0 (Proc.devRef .tc main_arg23) :=
  (val11_keep V0 main_arg23 (by decide)).trans (val10_main_arg23 V0)
theorem val11_main_arg24 (V0 : Valuation τ sig (Elt F)) : val11 V0 (no_index (Proc.devRef .tc main_arg24)) = V0 (Proc.devRef .tc main_arg24) :=
  (val11_keep V0 main_arg24 (by decide)).trans (val10_main_arg24 V0)
theorem val11_main_arg25 (V0 : Valuation τ sig (Elt F)) : val11 V0 (no_index (Proc.devRef .tc main_arg25)) = V0 (Proc.devRef .tc main_arg25) :=
  (val11_keep V0 main_arg25 (by decide)).trans (val10_main_arg25 V0)
set_option maxRecDepth 8192 in
set_option maxHeartbeats 3000000 in
theorem val11_main_v159 (V0 : Valuation τ sig (Elt F)) : val11 V0 (no_index (Proc.devRef .tc main_v159)) = Stages.val_main_v159 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) := by
  unfold val11
  simp only [ops10]
  after_results_simp
  simp only [val10_main_arg21, val10_main_arg20, val10_main_arg19, val10_main_arg18, val10_main_v147] <;> rfl

/-- The buffers' contents after the first 12 pieces. -/
def val12 (V0 : Valuation τ sig (Elt F)) : Valuation τ sig (Elt F) := after ops11 (val11 V0)
/-- The buffers that piece 11 writes. -/
abbrev ops11_W : List (Ref sig .tc) := [main_cst_25, main_v160, main_cst_26, main_v161, main_v162, main_v163, main_v164, main_v165, main_v166, main_cst_27, main_v167, main_cst_28, main_v168, main_v169, main_v170, main_v171, main_v172, main_cst_29, main_v173, main_v174, main_v175, main_v176, main_v177, main_v178, main_v179, main_v180, main_v181, main_v182, main_v183, main_v184]
set_option maxRecDepth 8192 in
theorem ops11_writes : (ops11 : List (HloOp τ sig (Elt F))).Forall fun op => op.writes ⊆ (ops11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that piece 11 does not write keeps its contents through it. -/
theorem val12_keep (V0 : Valuation τ sig (Elt F)) (r : Ref sig .tc) (h : r ∉ ops11_W) :
    val12 V0 (Proc.devRef .tc r) = val11 V0 (Proc.devRef .tc r) :=
  after_of_writes_sub ops11 _ ops11_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
theorem val12_main_arg10 (V0 : Valuation τ sig (Elt F)) : val12 V0 (no_index (Proc.devRef .tc main_arg10)) = V0 (Proc.devRef .tc main_arg10) :=
  (val12_keep V0 main_arg10 (by decide)).trans (val11_main_arg10 V0)
theorem val12_main_arg11 (V0 : Valuation τ sig (Elt F)) : val12 V0 (no_index (Proc.devRef .tc main_arg11)) = V0 (Proc.devRef .tc main_arg11) :=
  (val12_keep V0 main_arg11 (by decide)).trans (val11_main_arg11 V0)
theorem val12_main_arg12 (V0 : Valuation τ sig (Elt F)) : val12 V0 (no_index (Proc.devRef .tc main_arg12)) = V0 (Proc.devRef .tc main_arg12) :=
  (val12_keep V0 main_arg12 (by decide)).trans (val11_main_arg12 V0)
theorem val12_main_arg13 (V0 : Valuation τ sig (Elt F)) : val12 V0 (no_index (Proc.devRef .tc main_arg13)) = V0 (Proc.devRef .tc main_arg13) :=
  (val12_keep V0 main_arg13 (by decide)).trans (val11_main_arg13 V0)
theorem val12_main_arg14 (V0 : Valuation τ sig (Elt F)) : val12 V0 (no_index (Proc.devRef .tc main_arg14)) = V0 (Proc.devRef .tc main_arg14) :=
  (val12_keep V0 main_arg14 (by decide)).trans (val11_main_arg14 V0)
theorem val12_main_arg15 (V0 : Valuation τ sig (Elt F)) : val12 V0 (no_index (Proc.devRef .tc main_arg15)) = V0 (Proc.devRef .tc main_arg15) :=
  (val12_keep V0 main_arg15 (by decide)).trans (val11_main_arg15 V0)
theorem val12_main_arg16 (V0 : Valuation τ sig (Elt F)) : val12 V0 (no_index (Proc.devRef .tc main_arg16)) = V0 (Proc.devRef .tc main_arg16) :=
  (val12_keep V0 main_arg16 (by decide)).trans (val11_main_arg16 V0)
theorem val12_main_arg17 (V0 : Valuation τ sig (Elt F)) : val12 V0 (no_index (Proc.devRef .tc main_arg17)) = V0 (Proc.devRef .tc main_arg17) :=
  (val12_keep V0 main_arg17 (by decide)).trans (val11_main_arg17 V0)
theorem val12_main_arg18 (V0 : Valuation τ sig (Elt F)) : val12 V0 (no_index (Proc.devRef .tc main_arg18)) = V0 (Proc.devRef .tc main_arg18) :=
  (val12_keep V0 main_arg18 (by decide)).trans (val11_main_arg18 V0)
theorem val12_main_arg19 (V0 : Valuation τ sig (Elt F)) : val12 V0 (no_index (Proc.devRef .tc main_arg19)) = V0 (Proc.devRef .tc main_arg19) :=
  (val12_keep V0 main_arg19 (by decide)).trans (val11_main_arg19 V0)
theorem val12_main_arg20 (V0 : Valuation τ sig (Elt F)) : val12 V0 (no_index (Proc.devRef .tc main_arg20)) = V0 (Proc.devRef .tc main_arg20) :=
  (val12_keep V0 main_arg20 (by decide)).trans (val11_main_arg20 V0)
theorem val12_main_arg21 (V0 : Valuation τ sig (Elt F)) : val12 V0 (no_index (Proc.devRef .tc main_arg21)) = V0 (Proc.devRef .tc main_arg21) :=
  (val12_keep V0 main_arg21 (by decide)).trans (val11_main_arg21 V0)
theorem val12_main_arg22 (V0 : Valuation τ sig (Elt F)) : val12 V0 (no_index (Proc.devRef .tc main_arg22)) = V0 (Proc.devRef .tc main_arg22) :=
  (val12_keep V0 main_arg22 (by decide)).trans (val11_main_arg22 V0)
theorem val12_main_arg23 (V0 : Valuation τ sig (Elt F)) : val12 V0 (no_index (Proc.devRef .tc main_arg23)) = V0 (Proc.devRef .tc main_arg23) :=
  (val12_keep V0 main_arg23 (by decide)).trans (val11_main_arg23 V0)
theorem val12_main_arg24 (V0 : Valuation τ sig (Elt F)) : val12 V0 (no_index (Proc.devRef .tc main_arg24)) = V0 (Proc.devRef .tc main_arg24) :=
  (val12_keep V0 main_arg24 (by decide)).trans (val11_main_arg24 V0)
theorem val12_main_arg25 (V0 : Valuation τ sig (Elt F)) : val12 V0 (no_index (Proc.devRef .tc main_arg25)) = V0 (Proc.devRef .tc main_arg25) :=
  (val12_keep V0 main_arg25 (by decide)).trans (val11_main_arg25 V0)
set_option maxRecDepth 8192 in
set_option maxHeartbeats 3000000 in
theorem val12_main_v184 (V0 : Valuation τ sig (Elt F)) : val12 V0 (no_index (Proc.devRef .tc main_v184)) = Stages.val_main_v184 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) := by
  unfold val12
  simp only [ops11]
  after_results_simp
  simp only [val11_main_arg25, val11_main_arg24, val11_main_v159] <;> rfl

/-- The contents after the whole list are those after the last piece. -/
theorem after_ops (V0 : Valuation τ sig (Elt F)) : after (Ops.ops : List (HloOp τ sig (Elt F))) V0 = val12 V0 := by
  rw [ops_eq]
  simp only [after_append]
  rfl

/-- Every operation of the list determines its results. -/
theorem ops_fresh : ∀ op ∈ (Ops.ops : List (HloOp τ sig (Elt F))), op.fresh = ∅ := by
  rw [ops_eq]
  intro op h
  simp only [List.mem_append] at h
  rcases h with h | h | h | h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v184) = Cert.ReferenceIdeal.Stages.val_main_v184 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) := by
  exact (θ_run defs _ _).mono (fun _ h c => ⟨(h c main_v184).trans ((congrFun (after_ops _) _).trans (val12_main_v184 _)),
      (h c main_arg0).trans ((congrFun (after_ops _) _).trans (val12_main_arg0 _)),
      (h c main_arg1).trans ((congrFun (after_ops _) _).trans (val12_main_arg1 _)),
      (h c main_arg2).trans ((congrFun (after_ops _) _).trans (val12_main_arg2 _)),
      (h c main_arg3).trans ((congrFun (after_ops _) _).trans (val12_main_arg3 _)),
      (h c main_arg4).trans ((congrFun (after_ops _) _).trans (val12_main_arg4 _)),
      (h c main_arg5).trans ((congrFun (after_ops _) _).trans (val12_main_arg5 _)),
      (h c main_arg6).trans ((congrFun (after_ops _) _).trans (val12_main_arg6 _)),
      (h c main_arg7).trans ((congrFun (after_ops _) _).trans (val12_main_arg7 _)),
      (h c main_arg8).trans ((congrFun (after_ops _) _).trans (val12_main_arg8 _)),
      (h c main_arg9).trans ((congrFun (after_ops _) _).trans (val12_main_arg9 _)),
      (h c main_arg10).trans ((congrFun (after_ops _) _).trans (val12_main_arg10 _)),
      (h c main_arg11).trans ((congrFun (after_ops _) _).trans (val12_main_arg11 _)),
      (h c main_arg12).trans ((congrFun (after_ops _) _).trans (val12_main_arg12 _)),
      (h c main_arg13).trans ((congrFun (after_ops _) _).trans (val12_main_arg13 _)),
      (h c main_arg14).trans ((congrFun (after_ops _) _).trans (val12_main_arg14 _)),
      (h c main_arg15).trans ((congrFun (after_ops _) _).trans (val12_main_arg15 _)),
      (h c main_arg16).trans ((congrFun (after_ops _) _).trans (val12_main_arg16 _)),
      (h c main_arg17).trans ((congrFun (after_ops _) _).trans (val12_main_arg17 _)),
      (h c main_arg18).trans ((congrFun (after_ops _) _).trans (val12_main_arg18 _)),
      (h c main_arg19).trans ((congrFun (after_ops _) _).trans (val12_main_arg19 _)),
      (h c main_arg20).trans ((congrFun (after_ops _) _).trans (val12_main_arg20 _)),
      (h c main_arg21).trans ((congrFun (after_ops _) _).trans (val12_main_arg21 _)),
      (h c main_arg22).trans ((congrFun (after_ops _) _).trans (val12_main_arg22 _)),
      (h c main_arg23).trans ((congrFun (after_ops _) _).trans (val12_main_arg23 _)),
      (h c main_arg24).trans ((congrFun (after_ops _) _).trans (val12_main_arg24 _)),
      (h c main_arg25).trans ((congrFun (after_ops _) _).trans (val12_main_arg25 _))⟩)
    (run_seq Ops.scopedRefs_eq Ops.scopedSems_eq defs main (fun _ => Ops.ops) Ops.main_eq (fun _ => Ops.ops_sub) m ρ (fun _ => ops_fresh))

end Cert.ReferenceIdeal.StagedRun

end
-- ==== Proof.Args.lean ====
/-
  The argument arrays of the idealized kernel program at a launch memory, and the reference
  program's stages evaluated at those arrays: the values the kernel's buffers are compared with.
  Rows are nodes (50000) or edges (500000); a row of 128 lanes splits into 8 heads of 16.
-/
import proofs.«426868_j52097953300855_3_alg».proof.Proof.RefStages
import proofs.«426868_j52097953300855_3_alg».proof.Proof.Gen.KernelIdeal

noncomputable section

namespace Cert.Bridge

open Idealize.ShloMosaic Idealize.SL.Sem

/-- A launch memory of the idealized kernel program. -/
abbrev Mem := (ℓ : Loc Cert.KernelIdeal.nD Cert.KernelIdeal.τ Cert.KernelIdeal.sig) → Buf (Elt Ideal) ℓ

variable (m : Mem) (c : Dev Cert.KernelIdeal.nD)

/-- Argument 0 of the program on core `c`, as launched. -/
abbrev a0 : (⟨Cert.KernelIdeal.S50000x128, .f32⟩ : BufTy).Contents (Elt Ideal) :=
  m ((c.tc : Thread Cert.KernelIdeal.nD Cert.KernelIdeal.τ).loc Cert.KernelIdeal.main_arg0)
/-- Argument 1 of the program on core `c`, as launched. -/
abbrev a1 : (⟨Cert.KernelIdeal.S500000, .i32⟩ : BufTy).Contents (Elt Ideal) :=
  m ((c.tc : Thread Cert.KernelIdeal.nD Cert.KernelIdeal.τ).loc Cert.KernelIdeal.main_arg1)
/-- Argument 2 of the program on core `c`, as launched. -/
abbrev a2 : (⟨Cert.KernelIdeal.S500000, .i32⟩ : BufTy).Contents (Elt Ideal) :=
  m ((c.tc : Thread Cert.KernelIdeal.nD Cert.KernelIdeal.τ).loc Cert.KernelIdeal.main_arg2)
/-- Argument 3 of the program on core `c`, as launched. -/
abbrev a3 : (⟨Cert.KernelIdeal.S384x128, .f32⟩ : BufTy).Contents (Elt Ideal) :=
  m ((c.tc : Thread Cert.KernelIdeal.nD Cert.KernelIdeal.τ).loc Cert.KernelIdeal.main_arg3)
/-- Argument 4 of the program on core `c`, as launched. -/
abbrev a4 : (⟨Cert.KernelIdeal.S384, .f32⟩ : BufTy).Contents (Elt Ideal) :=
  m ((c.tc : Thread Cert.KernelIdeal.nD Cert.KernelIdeal.τ).loc Cert.KernelIdeal.main_arg4)
/-- Argument 5 of the program on core `c`, as launched. -/
abbrev a5 : (⟨Cert.KernelIdeal.S128x128, .f32⟩ : BufTy).Contents (Elt Ideal) :=
  m ((c.tc : Thread Cert.KernelIdeal.nD Cert.KernelIdeal.τ).loc Cert.KernelIdeal.main_arg5)
/-- Argument 6 of the program on core `c`, as launched. -/
abbrev a6 : (⟨Cert.KernelIdeal.S128, .f32⟩ : BufTy).Contents (Elt Ideal) :=
  m ((c.tc : Thread Cert.KernelIdeal.nD Cert.KernelIdeal.τ).loc Cert.KernelIdeal.main_arg6)
/-- Argument 7 of the program on core `c`, as launched. -/
abbrev a7 : (⟨Cert.KernelIdeal.S512x128, .f32⟩ : BufTy).Contents (Elt Ideal) :=
  m ((c.tc : Thread Cert.KernelIdeal.nD Cert.KernelIdeal.τ).loc Cert.KernelIdeal.main_arg7)
/-- Argument 8 of the program on core `c`, as launched. -/
abbrev a8 : (⟨Cert.KernelIdeal.S512, .f32⟩ : BufTy).Contents (Elt Ideal) :=
  m ((c.tc : Thread Cert.KernelIdeal.nD Cert.KernelIdeal.τ).loc Cert.KernelIdeal.main_arg8)
/-- Argument 9 of the program on core `c`, as launched. -/
abbrev a9 : (⟨Cert.KernelIdeal.S128x512, .f32⟩ : BufTy).Contents (Elt Ideal) :=
  m ((c.tc : Thread Cert.KernelIdeal.nD Cert.KernelIdeal.τ).loc Cert.KernelIdeal.main_arg9)
/-- Argument 10 of the program on core `c`, as launched. -/
abbrev a10 : (⟨Cert.KernelIdeal.S128, .f32⟩ : BufTy).Contents (Elt Ideal) :=
  m ((c.tc : Thread Cert.KernelIdeal.nD Cert.KernelIdeal.τ).loc Cert.KernelIdeal.main_arg10)
/-- Argument 11 of the program on core `c`, as launched. -/
abbrev a11 : (⟨Cert.KernelIdeal.S128, .f32⟩ : BufTy).Contents (Elt Ideal) :=
  m ((c.tc : Thread Cert.KernelIdeal.nD Cert.KernelIdeal.τ).loc Cert.KernelIdeal.main_arg11)
/-- Argument 12 of the program on core `c`, as launched. -/
abbrev a12 : (⟨Cert.KernelIdeal.S128, .f32⟩ : BufTy).Contents (Elt Ideal) :=
  m ((c.tc : Thread Cert.KernelIdeal.nD Cert.KernelIdeal.τ).loc Cert.KernelIdeal.main_arg12)
/-- Argument 13 of the program on core `c`, as launched. -/
abbrev a13 : (⟨Cert.KernelIdeal.S128, .f32⟩ : BufTy).Contents (Elt Ideal) :=
  m ((c.tc : Thread Cert.KernelIdeal.nD Cert.KernelIdeal.τ).loc Cert.KernelIdeal.main_arg13)
/-- Argument 14 of the program on core `c`, as launched. -/
abbrev a14 : (⟨Cert.KernelIdeal.S128, .f32⟩ : BufTy).Contents (Elt Ideal) :=
  m ((c.tc : Thread Cert.KernelIdeal.nD Cert.KernelIdeal.τ).loc Cert.KernelIdeal.main_arg14)
/-- Argument 15 of the program on core `c`, as launched. -/
abbrev a15 : (⟨Cert.KernelIdeal.S128x128, .f32⟩ : BufTy).Contents (Elt Ideal) :=
  m ((c.tc : Thread Cert.KernelIdeal.nD Cert.KernelIdeal.τ).loc Cert.KernelIdeal.main_arg15)
/-- Argument 16 of the program on core `c`, as launched. -/
abbrev a16 : (⟨Cert.KernelIdeal.S128x128, .f32⟩ : BufTy).Contents (Elt Ideal) :=
  m ((c.tc : Thread Cert.KernelIdeal.nD Cert.KernelIdeal.τ).loc Cert.KernelIdeal.main_arg16)
/-- Argument 17 of the program on core `c`, as launched. -/
abbrev a17 : (⟨Cert.KernelIdeal.S128x128, .f32⟩ : BufTy).Contents (Elt Ideal) :=
  m ((c.tc : Thread Cert.KernelIdeal.nD Cert.KernelIdeal.τ).loc Cert.KernelIdeal.main_arg17)
/-- Argument 18 of the program on core `c`, as launched. -/
abbrev a18 : (⟨Cert.KernelIdeal.S256x128, .f32⟩ : BufTy).Contents (Elt Ideal) :=
  m ((c.tc : Thread Cert.KernelIdeal.nD Cert.KernelIdeal.τ).loc Cert.KernelIdeal.main_arg18)
/-- Argument 19 of the program on core `c`, as launched. -/
abbrev a19 : (⟨Cert.KernelIdeal.S256, .f32⟩ : BufTy).Contents (Elt Ideal) :=
  m ((c.tc : Thread Cert.KernelIdeal.nD Cert.KernelIdeal.τ).loc Cert.KernelIdeal.main_arg19)
/-- Argument 20 of the program on core `c`, as launched. -/
abbrev a20 : (⟨Cert.KernelIdeal.S128x256, .f32⟩ : BufTy).Contents (Elt Ideal) :=
  m ((c.tc : Thread Cert.KernelIdeal.nD Cert.KernelIdeal.τ).loc Cert.KernelIdeal.main_arg20)
/-- Argument 21 of the program on core `c`, as launched. -/
abbrev a21 : (⟨Cert.KernelIdeal.S128, .f32⟩ : BufTy).Contents (Elt Ideal) :=
  m ((c.tc : Thread Cert.KernelIdeal.nD Cert.KernelIdeal.τ).loc Cert.KernelIdeal.main_arg21)
/-- Argument 22 of the program on core `c`, as launched. -/
abbrev a22 : (⟨Cert.KernelIdeal.S128, .f32⟩ : BufTy).Contents (Elt Ideal) :=
  m ((c.tc : Thread Cert.KernelIdeal.nD Cert.KernelIdeal.τ).loc Cert.KernelIdeal.main_arg22)
/-- Argument 23 of the program on core `c`, as launched. -/
abbrev a23 : (⟨Cert.KernelIdeal.S128, .f32⟩ : BufTy).Contents (Elt Ideal) :=
  m ((c.tc : Thread Cert.KernelIdeal.nD Cert.KernelIdeal.τ).loc Cert.KernelIdeal.main_arg23)
/-- Argument 24 of the program on core `c`, as launched. -/
abbrev a24 : (⟨Cert.KernelIdeal.S128, .f32⟩ : BufTy).Contents (Elt Ideal) :=
  m ((c.tc : Thread Cert.KernelIdeal.nD Cert.KernelIdeal.τ).loc Cert.KernelIdeal.main_arg24)
/-- Argument 25 of the program on core `c`, as launched. -/
abbrev a25 : (⟨Cert.KernelIdeal.S128, .f32⟩ : BufTy).Contents (Elt Ideal) :=
  m ((c.tc : Thread Cert.KernelIdeal.nD Cert.KernelIdeal.τ).loc Cert.KernelIdeal.main_arg25)

/-- The node features after the two layer norms, [50000, 128]. -/
abbrev sHsub := Cert.ReferenceIdeal.Stages.val_main_v72 (F := Ideal) (a0 m c) (a3 m c) (a4 m c) (a5 m c) (a6 m c) (a7 m c) (a8 m c) (a9 m c) (a10 m c) (a11 m c) (a12 m c) (a13 m c) (a14 m c)
/-- The query projection of `sHsub`, [50000, 128]. -/
abbrev sQ := Cert.ReferenceIdeal.Stages.val_main_v74 (F := Ideal) (a0 m c) (a3 m c) (a4 m c) (a5 m c) (a6 m c) (a7 m c) (a8 m c) (a9 m c) (a10 m c) (a11 m c) (a12 m c) (a13 m c) (a14 m c) (a15 m c)
/-- The key projection of `sHsub`, [50000, 128]. -/
abbrev sK := Cert.ReferenceIdeal.Stages.val_main_v77 (F := Ideal) (a0 m c) (a3 m c) (a4 m c) (a5 m c) (a6 m c) (a7 m c) (a8 m c) (a9 m c) (a10 m c) (a11 m c) (a12 m c) (a13 m c) (a14 m c) (a16 m c)
/-- The value projection of `sHsub`, [50000, 128]. -/
abbrev sV := Cert.ReferenceIdeal.Stages.val_main_v80 (F := Ideal) (a0 m c) (a3 m c) (a4 m c) (a5 m c) (a6 m c) (a7 m c) (a8 m c) (a9 m c) (a10 m c) (a11 m c) (a12 m c) (a13 m c) (a14 m c) (a17 m c)
/-- Keys gathered at each edge's source node, [500000, 8, 16]. -/
abbrev sKsrc := Cert.ReferenceIdeal.Stages.val_main_v88 (F := Ideal) (a0 m c) (a1 m c) (a3 m c) (a4 m c) (a5 m c) (a6 m c) (a7 m c) (a8 m c) (a9 m c) (a10 m c) (a11 m c) (a12 m c) (a13 m c) (a14 m c) (a16 m c)
/-- Queries gathered at each edge's destination node, [500000, 8, 16]. -/
abbrev sQdst := Cert.ReferenceIdeal.Stages.val_main_v95 (F := Ideal) (a0 m c) (a2 m c) (a3 m c) (a4 m c) (a5 m c) (a6 m c) (a7 m c) (a8 m c) (a9 m c) (a10 m c) (a11 m c) (a12 m c) (a13 m c) (a14 m c) (a15 m c)
/-- Values gathered at each edge's source node, [500000, 8, 16]. -/
abbrev sVsrc := Cert.ReferenceIdeal.Stages.val_main_v108 (F := Ideal) (a0 m c) (a1 m c) (a3 m c) (a4 m c) (a5 m c) (a6 m c) (a7 m c) (a8 m c) (a9 m c) (a10 m c) (a11 m c) (a12 m c) (a13 m c) (a14 m c) (a17 m c)
/-- The exponential of the clipped, scaled key-query product per edge and head, [500000, 8]. -/
abbrev sScore := Cert.ReferenceIdeal.Stages.val_main_v101 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c)
/-- The gathered values weighted by the edge score, [500000, 8, 16]. -/
abbrev sWv := Cert.ReferenceIdeal.Stages.val_main_v111 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c)
/-- Node features plus the normalised attention sum: the first batch norm's input, [50000, 128]. -/
abbrev sHin := Cert.ReferenceIdeal.Stages.val_main_v122 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c)
/-- The column means of `sHin`, [128]. -/
abbrev sMean := Cert.ReferenceIdeal.Stages.val_main_v125 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c)
/-- The reciprocal square root of the column variance of `sHin` plus epsilon, [128]. -/
abbrev sRs := Cert.ReferenceIdeal.Stages.val_main_v138 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c)
/-- The first batch norm of `sHin`, [50000, 128]. -/
abbrev sBn1 := Cert.ReferenceIdeal.Stages.val_main_v147 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a22 m c) (a23 m c)
/-- The feed-forward block's output plus its input: the second batch norm's input, [50000, 128]. -/
abbrev sPre := Cert.ReferenceIdeal.Stages.val_main_v159 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c)
/-- The program's result: the second batch norm, [50000, 128]. -/
abbrev sOut := Cert.ReferenceIdeal.Stages.val_main_v184 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c)

end Cert.Bridge

end
-- ==== Proof.Interfaces.lean ====
/-
  The statements that join the pieces of the comparison. The kernel program runs three grid
  regions between four stretches of host operations; at each boundary the buffers a later piece
  reads are stated equal to the reference program's stage of the same meaning:
    stretch 0  transposes the weight matrices (and narrows them, the identity on extended reals);
    region 0   per block of 2000 nodes: two layer norms around two dense layers, then Q, K, V;
    stretch 1  gathers K and V at each edge's source node and Q at its destination;
    region 1   per block of 400 edges: the head-wise product, scaled, clipped, exponentiated;
    stretch 2  sums scores and weighted values per destination node, divides, adds the node
               features, and takes the column mean and variance for the first batch norm;
    region 2   per block of 2000 nodes: the batch norm as a precomputed scale and shift, the
               feed-forward layers and the residual;
    stretch 3  the second batch norm.
-/
import proofs.«426868_j52097953300855_3_alg».proof.Proof.Args
import proofs.«426868_j52097953300855_3_alg».proof.Proof.Gen.KernelIdeal.Frame

set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat Cfg Window)

variable (m : Mem) (ρ : Dev Cert.KernelIdeal.nD → PrngReg) (c : Dev Cert.KernelIdeal.nD)

/-- What region 0 finds in the arrays of its sixteen input windows. -/
structure Entry0 : Prop where
  h    : V1 (F := Ideal) m ρ c main_arg0 = a0 m c
  winv : V1 (F := Ideal) m ρ c main_v3 = ((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v1 (F := Ideal) (a3 m c))
  binv : V1 (F := Ideal) m ρ c main_v1 = Cert.ReferenceIdeal.Stages.val_main_v3 (F := Ideal) (a4 m c)
  wout : V1 (F := Ideal) m ρ c main_v5 = ((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v7 (F := Ideal) (a5 m c))
  bout : V1 (F := Ideal) m ρ c main_arg6 = a6 m c
  wte1 : V1 (F := Ideal) m ρ c main_v7 = ((truncf (F := Ideal) .bf16 · bitsLt_bf16_f32) : (⟨S128x512, .f32⟩ : BufTy).Contents (Elt Ideal) → (⟨S128x512, .bf16⟩ : BufTy).Contents (Elt Ideal)) (Cert.ReferenceIdeal.Stages.val_main_v37 (F := Ideal) (a7 m c))
  bte1 : V1 (F := Ideal) m ρ c main_arg8 = a8 m c
  wte2 : V1 (F := Ideal) m ρ c main_v9 = ((truncf (F := Ideal) .bf16 · bitsLt_bf16_f32) : (⟨S512x128, .f32⟩ : BufTy).Contents (Elt Ideal) → (⟨S512x128, .bf16⟩ : BufTy).Contents (Elt Ideal)) (Cert.ReferenceIdeal.Stages.val_main_v43 (F := Ideal) (a9 m c))
  bte2 : V1 (F := Ideal) m ρ c main_arg10 = a10 m c
  ln1g : V1 (F := Ideal) m ρ c main_arg11 = a11 m c
  ln1b : V1 (F := Ideal) m ρ c main_arg12 = a12 m c
  ln2g : V1 (F := Ideal) m ρ c main_arg13 = a13 m c
  ln2b : V1 (F := Ideal) m ρ c main_arg14 = a14 m c
  wq   : V1 (F := Ideal) m ρ c main_v11 = ((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v73 (F := Ideal) (a15 m c))
  wk   : V1 (F := Ideal) m ρ c main_v13 = ((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v76 (F := Ideal) (a16 m c))
  wv   : V1 (F := Ideal) m ρ c main_v15 = ((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v79 (F := Ideal) (a17 m c))

/-- What region 0 leaves in its four output arrays: the normalised node features and their three projections. -/
structure Out0 : Prop where
  hsub : (dat0 (F := Ideal) (V1 m ρ) c).arrAt 16 cfg0.N = sHsub m c
  q    : (dat0 (F := Ideal) (V1 m ρ) c).arrAt 17 cfg0.N = sQ m c
  k    : (dat0 (F := Ideal) (V1 m ρ) c).arrAt 18 cfg0.N = sK m c
  v    : (dat0 (F := Ideal) (V1 m ρ) c).arrAt 19 cfg0.N = sV m c

/-- What region 1 finds in its three input arrays: the gathered keys, queries and values. -/
structure Entry1 : Prop where
  ks : V3 (F := Ideal) m ρ c main_v30 = sKsrc m c
  qd : V3 (F := Ideal) m ρ c main_v37 = sQdst m c
  vs : V3 (F := Ideal) m ρ c main_v44 = sVsrc m c

/-- What region 1 leaves in its two output arrays: the edge scores and the weighted values. -/
structure Out1 : Prop where
  score : (dat1 (F := Ideal) (V3 m ρ) c).arrAt 3 cfg1.N = sScore m c
  wv    : (dat1 (F := Ideal) (V3 m ρ) c).arrAt 4 cfg1.N = sWv m c

/-- What region 2 finds in its seven input arrays: the batch norm's input, its scale
    `g · r` and shift `b - mean · (g · r)`, and the feed-forward weights. -/
structure Entry2 : Prop where
  hin   : V5 (F := Ideal) m ρ c main_v56 = sHin m c
  scale : V5 (F := Ideal) m ρ c main_v70 = (mulf (F := Ideal) (φ := .f32) : (⟨S128, .f32⟩ : BufTy).Contents (Elt Ideal) → (⟨S128, .f32⟩ : BufTy).Contents (Elt Ideal) → (⟨S128, .f32⟩ : BufTy).Contents (Elt Ideal)) (a22 m c) (sRs m c)
  shift : V5 (F := Ideal) m ρ c main_v72 = (subf (F := Ideal) (φ := .f32) : (⟨S128, .f32⟩ : BufTy).Contents (Elt Ideal) → (⟨S128, .f32⟩ : BufTy).Contents (Elt Ideal) → (⟨S128, .f32⟩ : BufTy).Contents (Elt Ideal)) (a23 m c) ((mulf (F := Ideal) (φ := .f32) : (⟨S128, .f32⟩ : BufTy).Contents (Elt Ideal) → (⟨S128, .f32⟩ : BufTy).Contents (Elt Ideal) → (⟨S128, .f32⟩ : BufTy).Contents (Elt Ideal)) (sMean m c) ((mulf (F := Ideal) (φ := .f32) : (⟨S128, .f32⟩ : BufTy).Contents (Elt Ideal) → (⟨S128, .f32⟩ : BufTy).Contents (Elt Ideal) → (⟨S128, .f32⟩ : BufTy).Contents (Elt Ideal)) (a22 m c) (sRs m c)))
  w1    : V5 (F := Ideal) m ρ c main_v17 = ((truncf (F := Ideal) .bf16 · bitsLt_bf16_f32) : (⟨S128x256, .f32⟩ : BufTy).Contents (Elt Ideal) → (⟨S128x256, .bf16⟩ : BufTy).Contents (Elt Ideal)) (Cert.ReferenceIdeal.Stages.val_main_v148 (F := Ideal) (a18 m c))
  b1    : V5 (F := Ideal) m ρ c main_arg19 = a19 m c
  w2    : V5 (F := Ideal) m ρ c main_v19 = ((truncf (F := Ideal) .bf16 · bitsLt_bf16_f32) : (⟨S256x128, .f32⟩ : BufTy).Contents (Elt Ideal) → (⟨S256x128, .bf16⟩ : BufTy).Contents (Elt Ideal)) (Cert.ReferenceIdeal.Stages.val_main_v154 (F := Ideal) (a20 m c))
  b2    : V5 (F := Ideal) m ρ c main_arg21 = a21 m c

/-- Region 2's output array is the second batch norm's input. -/
abbrev Out2 : Prop := (dat2 (F := Ideal) (V5 m ρ) c).arrAt 7 cfg2.N = sPre m c

/-- Every entry of a vector of 128 lanes is a real number. -/
abbrev RealVec (x : (⟨Cert.KernelIdeal.S128, .f32⟩ : BufTy).Contents (Elt Ideal)) : Prop := ∀ j, ∃ r : ℝ, x j = (r : EReal)

end Cert.Bridge

end
-- ==== Proof.Consts.lean ====
/-
  The float constants whose VALUES this certificate uses, as the extended reals their words denote.
  (The other constants the two programs spell — 128, 5, -5 — appear as the same word on both sides
  and are never evaluated.) One module states them all, so that no other module opens the reading
  of a word.
-/
import Idealize.ShloMosaic.PureOps.Ideal

noncomputable section

namespace Cert.Bridge.Consts

open Idealize.ShloMosaic

/-- The kernel's edge-score factor `0.25` is the real `1/4`. -/
theorem ofBits_quarter : Ideal.ofBits .f32 0x3E800000#32 = ((1 / 4 : ℝ) : EReal) := by
  simp [Ideal.ofBits, Ideal.ieee, -EReal.coe_mul]; norm_num

/-- The reference's edge-score divisor `4.0` is the real `4`. -/
theorem ofBits_four : Ideal.ofBits .f32 0x40800000#32 = ((4 : ℝ) : EReal) := by
  simp [Ideal.ofBits, Ideal.ieee, -EReal.coe_mul]; norm_num

/-- The number of nodes `50000.0`, the batch statistics' divisor, is the real `50000`. -/
theorem ofBits_nodes : Ideal.ofBits .f32 0x47435000#32 = ((50000 : ℝ) : EReal) := by
  simp [Ideal.ofBits, Ideal.ieee, -EReal.coe_mul]; norm_num

/-- The variance offset (the float nearest `1e-5`) is a positive real. -/
theorem ofBits_eps : Ideal.ofBits .f32 0x3727C5AC#32 = ((10995116 / 2 ^ 40 : ℝ) : EReal) := by
  simp [Ideal.ofBits, Ideal.ieee, -EReal.coe_mul]; norm_num

theorem eps_pos : (0 : ℝ) < 10995116 / 2 ^ 40 := by norm_num

/-- The word of `+inf`, which the precondition compares magnitudes with, is `⊤`. -/
theorem ofBits_inf : Ideal.ofBits .f32 0x7F800000#32 = ⊤ := by
  simp [Ideal.ofBits, Ideal.ieee]

end Cert.Bridge.Consts

end
-- ==== Proof.PreReal.lean ====
/-
  From the precondition (every float input finite) to what the batch-norm law uses: the first
  batch norm's gain and bias are vectors of real numbers.
-/
import proofs.«426868_j52097953300855_3_alg».proof.Defs
import proofs.«426868_j52097953300855_3_alg».proof.Proof.Interfaces
import proofs.«426868_j52097953300855_3_alg».proof.Proof.Gen.Pre_finite_inputs
import Idealize.ShloMosaic.Lib.ReduceAll
import Idealize.ShloMosaic.Lib.ValueIdx
import proofs.«426868_j52097953300855_3_alg».proof.Proof.Consts

noncomputable section

namespace Cert.Bridge

open Idealize.ShloMosaic Idealize.SL.Sem

private instance subsingleton_rank0_idx : Subsingleton Cert.Pre_finite_inputs.S_.Idx := ⟨fun a b => funext fun d => d.elim0⟩

/-- An extended real whose absolute value is below `⊤` is a real number. -/
private theorem real_of_abs_lt_top (x : EReal) (h : max x (-x) < ⊤) : ∃ r : ℝ, x = (r : EReal) := by
  induction x using EReal.rec with
  | bot => simp at h
  | coe r => exact ⟨r, rfl⟩
  | top => simp at h

open Cert.Pre_finite_inputs in
/-- If the comparison `|x| < +inf` is 1 at a lane, that lane of `x` is a real number. -/
private theorem lane_real [Facts] (x : FVec Ideal S128 .f32) (i : S128.Idx)
    (h : cmpf .olt (Host.absf x) (broadcastInDim S128 ![] Facts.bcast_S_S128 (constant S_ .f32 0x7F800000#32)) i = 1#1) :
    ∃ r : ℝ, x i = (r : EReal) := by
  apply real_of_abs_lt_top
  have h' : BitVec.ofBool (decide (max (x i) (-(x i)) < Ideal.ofBits .f32 0x7F800000#32)) = 1#1 := h
  rw [Cert.Bridge.Consts.ofBits_inf] at h'
  have hb : decide (max (x i) (-(x i)) < (⊤ : EReal)) = true := by
    cases hd : decide (max (x i) (-(x i)) < (⊤ : EReal))
    · rw [hd] at h'; exact absurd h' (by decide)
    · rfl
  exact of_decide_eq_true hb

open Cert.Pre_finite_inputs in
/-- The last part of the conjunction: if it is 1, the comparison `v101` (that of argument 22) is 1
    at every lane, and every lane of argument 23 is real. -/
private theorem part6_decode [Facts] (x23 x24 x25 : FVec Ideal S128 .f32) (v98 : IVec S_ 1) (v101 : IVec S128 1)
    (h : fn_part6 (F := Ideal) x23 x24 x25 v98 v101 (constantI S_ 1 1#1) ValueIdx.ix0 = 1#1) :
    (∀ i, v101 i = 1#1) ∧ ∀ i, ∃ r : ℝ, x23 i = (r : EReal) := by
  dsimp only [fn_part6] at h
  obtain ⟨h4, _⟩ := IntOp.andi_eq_one.1 h
  obtain ⟨h3, _⟩ := IntOp.andi_eq_one.1 h4
  obtain ⟨h2, h23⟩ := IntOp.andi_eq_one.1 h3
  obtain ⟨_, h22⟩ := IntOp.andi_eq_one.1 h2
  refine ⟨fun i => Host.reduce_andi_all _ _ _ _ _ h22 i, fun i => lane_real x23 i ?_⟩
  exact Host.reduce_andi_all _ _ _ _ _ h23 i

theorem bn1_params_real [hPre : Cert.Pre_finite_inputs.Facts] (m : Mem) (hpre : Cert.Pre_KernelIdeal m) (c : Dev Cert.KernelIdeal.nD) :
    RealVec (a22 m c) ∧ RealVec (a23 m c) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  obtain ⟨h22, h23⟩ := part6_decode _ _ _ _ _ h
  exact ⟨fun i => lane_real _ i (h22 i), h23⟩

end Cert.Bridge

end
-- ==== Proof.Host0.lean ====
/-
  Stretch 0: the weight matrices transposed, the arguments carried to region 0's entry.
-/
import proofs.«426868_j52097953300855_3_alg».proof.Proof.Interfaces
import Idealize.ShloMosaic.Lib.StableHlo.Run
set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat Cfg Window)

variable (m : Mem) (ρ : Dev Cert.KernelIdeal.nD → PrngReg) (c : Dev Cert.KernelIdeal.nD)

/-- The buffers the twenty operations of the stretch write. -/
private abbrev written0 : List (Ref sig .tc) :=
  [main_v0, main_v1, main_v2, main_v3, main_v4, main_v5, main_v6, main_v7, main_v8, main_v9, main_v10, main_v11,
   main_v12, main_v13, main_v14, main_v15, main_v16, main_v17, main_v18, main_v19]

/-- Each operation of the stretch writes one of those. -/
private theorem hostOps0_writes :
    (hostOps0 (F := Ideal)).Forall fun op => op.writes ⊆ (written0.map (Proc.devRef (τ := τ) .tc)).toFinset := by
  simp only [hostOps0, List.Forall, StableHlo.unary_writes, Finset.singleton_subset_iff, List.mem_toFinset, List.mem_map]
  repeat' apply And.intro
  all_goals exact ⟨_, by decide, rfl⟩

/-- A buffer the stretch does not write holds at region 0's entry what the launch gave it. -/
private theorem V1_unwritten (r : Ref sig .tc) (h : r ∉ written0) :
    V1 (F := Ideal) m ρ c r = m ((c.tc : Thread nD τ).loc r) :=
  (StableHlo.after_of_writes_sub (hostOps0 (F := Ideal)) (W0 m ρ c) hostOps0_writes h).trans rfl

/-- The arguments are carried unchanged; each weight matrix is read back as the transpose (of the slice, for the
    input projection) the reference takes of the same argument, narrowed. -/
theorem host0_value : Entry0 m ρ c where
  h := V1_unwritten m ρ c main_arg0 (by decide)
  winv := by
    show StableHlo.after hostOps0 (W0 m ρ c) (Proc.devRef .tc main_v3) = _
    after_results
    rfl
  binv := by
    show StableHlo.after hostOps0 (W0 m ρ c) (Proc.devRef .tc main_v1) = _
    after_results
    rfl
  wout := by
    show StableHlo.after hostOps0 (W0 m ρ c) (Proc.devRef .tc main_v5) = _
    after_results
    rfl
  bout := V1_unwritten m ρ c main_arg6 (by decide)
  wte1 := by
    show StableHlo.after hostOps0 (W0 m ρ c) (Proc.devRef .tc main_v7) = _
    after_results
    rfl
  bte1 := V1_unwritten m ρ c main_arg8 (by decide)
  wte2 := by
    show StableHlo.after hostOps0 (W0 m ρ c) (Proc.devRef .tc main_v9) = _
    after_results
    rfl
  bte2 := V1_unwritten m ρ c main_arg10 (by decide)
  ln1g := V1_unwritten m ρ c main_arg11 (by decide)
  ln1b := V1_unwritten m ρ c main_arg12 (by decide)
  ln2g := V1_unwritten m ρ c main_arg13 (by decide)
  ln2b := V1_unwritten m ρ c main_arg14 (by decide)
  wq := by
    show StableHlo.after hostOps0 (W0 m ρ c) (Proc.devRef .tc main_v11) = _
    after_results
    rfl
  wk := by
    show StableHlo.after hostOps0 (W0 m ρ c) (Proc.devRef .tc main_v13) = _
    after_results
    rfl
  wv := by
    show StableHlo.after hostOps0 (W0 m ρ c) (Proc.devRef .tc main_v15) = _
    after_results
    rfl

end Cert.Bridge

end
-- ==== Proof.Region0RowsB.lean ====
/-
  Region 0, one row at a time, second half. From a row of the first layer norm's scaled output
  (before its bias) the body adds the bias, applies the two-layer feed-forward block with a relu,
  adds the residual and normalises again (mean and variance over the 128 lanes, reciprocal square
  root); the gain and bias of the second norm come after. Row by row this is the reference's
  stretch from its stage 33 to its stage 66.
-/
import proofs.«426868_j52097953300855_3_alg».proof.Proof.Interfaces
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat Cfg Window)

variable (m : Mem) (ρ : Dev Cert.KernelIdeal.nD → PrngReg) (c : Dev Cert.KernelIdeal.nD)

open Idealize.ShloMosaic.ValueIdx

/-! ## Layout and contraction steps of the body read at one row -/

section Blocks
variable {α : Type}

/-- A vector cast to a one-column matrix reads, in row `p`, its entry `p`. -/
private theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix broadcast over `b` columns reads, at `(p, q)`, its entry in row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector cast to a one-row matrix and broadcast over `a` rows reads, at `(p, q)`, its entry `q`. -/
private theorem rowBroadcast_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

/-- The reciprocal square root of a vector at an index is that of the entry. -/
private theorem rsqrt_apply {s : Shape} {φ : FTy} (x : FVec Ideal s φ) (i : s.Idx) : rsqrt x i = Ideal.rsqrt (x i) := rfl

end Blocks

private theorem lhs_mm1_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
private theorem lhs_mm1_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
private theorem rhs_mm1_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
private theorem rhs_mm1_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- The first feed-forward product into a zero accumulator reads, at `(p, j)`, the sum over the 128 lanes of row `p` times column `j`. -/
private theorem mm1_apply (lhs : FVec Ideal S2000x128 .bf16) (rhs : FVec Ideal S128x512 .bf16) (p : Fin 2000) (j : Fin 512) :
    matmul (F := Ideal) dot_S2000x128_S128x512_S2000x512_1_0_0_1_n_n none lhs rhs (constant S2000x512 .f32 0x00000000#32) (ix2 p j)
      = ∑ k : Fin 128, lhs (ix2 p k) * rhs (ix2 k j) := by
  refine (Ideal.matmul_constant_zero_apply dot_S2000x128_S128x512_S2000x512_1_0_0_1_n_n none lhs rhs (ix2 p j)).trans ?_
  rw [← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p j) ((contrEquiv1 dot_S2000x128_S128x512_S2000x512_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S2000x128_S128x512_S2000x512_1_0_0_1_n_n.rhsIdx (ix2 p j) ((contrEquiv1 dot_S2000x128_S128x512_S2000x512_1_0_0_1_n_n 128 rfl rfl).symm k) = ix2 k j := funext fun a => Fin.ext (by
    match a with
    | ⟨0, _⟩ => exact (rhs_mm1_0 _ _).trans hk
    | ⟨1, _⟩ => exact rhs_mm1_1 _ _)
  rw [el, er]

private theorem lhs_mm2_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
private theorem lhs_mm2_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
private theorem rhs_mm2_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
private theorem rhs_mm2_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The second feed-forward product into a zero accumulator reads, at `(p, q)`, the sum over the 512 hidden lanes of row `p` times column `q`. -/
private theorem mm2_apply (lhs : FVec Ideal S2000x512 .bf16) (rhs : FVec Ideal S512x128 .bf16) (p : Fin 2000) (j : Fin 128) :
    matmul (F := Ideal) dot_S2000x512_S512x128_S2000x128_1_0_0_1_n_n none lhs rhs (constant S2000x128 .f32 0x00000000#32) (ix2 p j)
      = ∑ k : Fin 512, lhs (ix2 p k) * rhs (ix2 k j) := by
  refine (Ideal.matmul_constant_zero_apply dot_S2000x512_S512x128_S2000x128_1_0_0_1_n_n none lhs rhs (ix2 p j)).trans ?_
  rw [← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p j) ((contrEquiv1 dot_S2000x512_S512x128_S2000x128_1_0_0_1_n_n 512 rfl rfl).symm k) = ix2 p k := funext fun a => Fin.ext (by
    match a with
    | ⟨0, _⟩ => exact lhs_mm2_0 _ _
    | ⟨1, _⟩ => exact (lhs_mm2_1 _ _).trans hk)
  have er : dot_S2000x512_S512x128_S2000x128_1_0_0_1_n_n.rhsIdx (ix2 p j) ((contrEquiv1 dot_S2000x512_S512x128_S2000x128_1_0_0_1_n_n 512 rfl rfl).symm k) = ix2 k j := funext fun a => Fin.ext (by
    match a with
    | ⟨0, _⟩ => exact (rhs_mm2_0 _ _).trans hk
    | ⟨1, _⟩ => exact rhs_mm2_1 _ _)
  rw [el, er]

/-- The body's sum over the lanes of a block reads, at row `p`, the sum of that row. -/
private theorem laneSum_apply (y : FVec Ideal S2000x128 .f32) (p : Fin 2000) :
    multiReduction (F := Ideal) .add [1] S2000 y 0x00000000#32 reduces_S2000x128_S2000 (.inl rfl) rfl (ix1 p)
      = ∑ k : Fin 128, y (ix2 p k) := by
  refine (Ideal.multiReduction_add_single y _ reduces_S2000x128_S2000 _ _ (ix1 p)).trans ?_
  exact Finset.sum_congr rfl fun k _ => congrArg y (funext fun a => Fin.ext (by
    match a with
    | ⟨0, _⟩ => rfl
    | ⟨1, _⟩ => rfl))

/-! ## The reference's index maps at indices given by coordinates -/
private theorem idx35 (n : Fin 50000) (k : Fin 128) : Cert.ReferenceIdeal.Stages.idx_main_v35 (ix2 n k) = ix2 (0 : Fin 1) k := funext fun a => match a with | ⟨0, _⟩ => rfl | ⟨1, _⟩ => rfl
private theorem idx34 (u : Fin 1) (k : Fin 128) : Cert.ReferenceIdeal.Stages.idx_main_v34 (ix2 u k) = ix1 k := funext fun a => match a with | ⟨0, _⟩ => rfl
private theorem lidx38 (n : Fin 50000) (j : Fin 512) (k : Fin 128) : Cert.ReferenceIdeal.Stages.lidx_main_v38 (ix2 n j) k = ix2 n k := funext fun a => match a with | ⟨0, _⟩ => rfl | ⟨1, _⟩ => rfl
private theorem ridx38 (n : Fin 50000) (j : Fin 512) (k : Fin 128) : Cert.ReferenceIdeal.Stages.ridx_main_v38 (ix2 n j) k = ix2 k j := funext fun a => match a with | ⟨0, _⟩ => rfl | ⟨1, _⟩ => rfl
private theorem idx40 (n : Fin 50000) (j : Fin 512) : Cert.ReferenceIdeal.Stages.idx_main_v40 (ix2 n j) = ix2 (0 : Fin 1) j := funext fun a => match a with | ⟨0, _⟩ => rfl | ⟨1, _⟩ => rfl
private theorem idx39 (u : Fin 1) (j : Fin 512) : Cert.ReferenceIdeal.Stages.idx_main_v39 (ix2 u j) = ix1 j := funext fun a => match a with | ⟨0, _⟩ => rfl
private theorem lidx44 (n : Fin 50000) (q : Fin 128) (j : Fin 512) : Cert.ReferenceIdeal.Stages.lidx_main_v44 (ix2 n q) j = ix2 n j := funext fun a => match a with | ⟨0, _⟩ => rfl | ⟨1, _⟩ => rfl
private theorem ridx44 (n : Fin 50000) (q : Fin 128) (j : Fin 512) : Cert.ReferenceIdeal.Stages.ridx_main_v44 (ix2 n q) j = ix2 j q := funext fun a => match a with | ⟨0, _⟩ => rfl | ⟨1, _⟩ => rfl
private theorem idx46 (n : Fin 50000) (q : Fin 128) : Cert.ReferenceIdeal.Stages.idx_main_v46 (ix2 n q) = ix2 (0 : Fin 1) q := funext fun a => match a with | ⟨0, _⟩ => rfl | ⟨1, _⟩ => rfl
private theorem idx45 (u : Fin 1) (q : Fin 128) : Cert.ReferenceIdeal.Stages.idx_main_v45 (ix2 u q) = ix1 q := funext fun a => match a with | ⟨0, _⟩ => rfl
private theorem idx53 (n : Fin 50000) (q : Fin 128) : Cert.ReferenceIdeal.Stages.idx_main_v53 (ix2 n q) = ix2 n (0 : Fin 1) := funext fun a => match a with | ⟨0, _⟩ => rfl | ⟨1, _⟩ => rfl
private theorem idx50 (n : Fin 50000) (u : Fin 1) : Cert.ReferenceIdeal.Stages.idx_main_v50 (ix2 n u) = ix1 n := funext fun a => match a with | ⟨0, _⟩ => rfl
private theorem idx49 (n : Fin 50000) (k : Fin 128) : Cert.ReferenceIdeal.Stages.idx_main_v49 (ix1 n) k = ix2 n k := funext fun a => match a with | ⟨0, _⟩ => rfl | ⟨1, _⟩ => rfl
private theorem idx60 (n : Fin 50000) (q : Fin 128) : Cert.ReferenceIdeal.Stages.idx_main_v60 (ix2 n q) = ix2 n (0 : Fin 1) := funext fun a => match a with | ⟨0, _⟩ => rfl | ⟨1, _⟩ => rfl
private theorem idx57 (n : Fin 50000) (u : Fin 1) : Cert.ReferenceIdeal.Stages.idx_main_v57 (ix2 n u) = ix1 n := funext fun a => match a with | ⟨0, _⟩ => rfl
private theorem idx56 (n : Fin 50000) (k : Fin 128) : Cert.ReferenceIdeal.Stages.idx_main_v56 (ix1 n) k = ix2 n k := funext fun a => match a with | ⟨0, _⟩ => rfl | ⟨1, _⟩ => rfl
private theorem idx65 (n : Fin 50000) (q : Fin 128) : Cert.ReferenceIdeal.Stages.idx_main_v65 (ix2 n q) = ix2 n (0 : Fin 1) := funext fun a => match a with | ⟨0, _⟩ => rfl | ⟨1, _⟩ => rfl

/-- If row `p` of `v41` is node `n`'s row of the reference's stage 33 (the first layer norm times its
    gain), then row `p` of the body's second normalisation is node `n`'s row of the reference's stage 66. -/
theorem pay6_at (v41 : FVec Ideal S2000x128 .f32) (n : Fin 50000) (p : Fin 2000) (q : Fin 128)
    (hrow : ∀ k : Fin 128, v41 (ix2 p k) = Cert.ReferenceIdeal.Stages.val_main_v33 (F := Ideal) (a0 m c) (a3 m c) (a4 m c) (a5 m c) (a6 m c) (a11 m c) (ix2 n k)) :
    k0_pay6 (F := Ideal) (a12 m c) v41
      (((truncf (F := Ideal) .bf16 · bitsLt_bf16_f32) : (⟨S128x512, .f32⟩ : BufTy).Contents (Elt Ideal) → (⟨S128x512, .bf16⟩ : BufTy).Contents (Elt Ideal)) (Cert.ReferenceIdeal.Stages.val_main_v37 (F := Ideal) (a7 m c))) (a8 m c)
      (((truncf (F := Ideal) .bf16 · bitsLt_bf16_f32) : (⟨S512x128, .f32⟩ : BufTy).Contents (Elt Ideal) → (⟨S512x128, .bf16⟩ : BufTy).Contents (Elt Ideal)) (Cert.ReferenceIdeal.Stages.val_main_v43 (F := Ideal) (a9 m c))) (a10 m c) (ix2 p q)
    = Cert.ReferenceIdeal.Stages.val_main_v66 (F := Ideal) (a0 m c) (a3 m c) (a4 m c) (a5 m c) (a6 m c) (a7 m c) (a8 m c) (a9 m c) (a10 m c) (a11 m c) (a12 m c) (ix2 n q) := by
  unfold k0_pay6
  simp only [
    mulf_apply, subf_apply, addf_apply, divf_apply, maximumf_apply, truncf_apply, broadcast_apply, rsqrt_apply, rowBroadcast_apply,
    broadcastTo_a1_ab_apply, shapeCast_a_a1_apply, mm1_apply, mm2_apply, shapeCast_self, Cert.ReferenceIdeal.Stages.val_main_v66_apply,
    Cert.ReferenceIdeal.Stages.val_main_v65_apply, Cert.ReferenceIdeal.Stages.val_main_v64_apply, Cert.ReferenceIdeal.Stages.val_main_v63_apply,
    Cert.ReferenceIdeal.Stages.val_main_v62_apply, Cert.ReferenceIdeal.Stages.val_main_v61_apply, Cert.ReferenceIdeal.Stages.val_main_v60_apply,
    Cert.ReferenceIdeal.Stages.val_main_v59_apply, Cert.ReferenceIdeal.Stages.val_main_v58_apply, Cert.ReferenceIdeal.Stages.val_main_v57_apply,
    Cert.ReferenceIdeal.Stages.val_main_v56_apply, Cert.ReferenceIdeal.Stages.val_main_v55_apply, Cert.ReferenceIdeal.Stages.val_main_v54_apply,
    Cert.ReferenceIdeal.Stages.val_main_v53_apply, Cert.ReferenceIdeal.Stages.val_main_v52_apply, Cert.ReferenceIdeal.Stages.val_main_v51_apply,
    Cert.ReferenceIdeal.Stages.val_main_v50_apply, Cert.ReferenceIdeal.Stages.val_main_v49_apply, Cert.ReferenceIdeal.Stages.val_main_v48_apply,
    Cert.ReferenceIdeal.Stages.val_main_v47_apply, Cert.ReferenceIdeal.Stages.val_main_v46_apply, Cert.ReferenceIdeal.Stages.val_main_v45_apply,
    Cert.ReferenceIdeal.Stages.val_main_v44_apply, Cert.ReferenceIdeal.Stages.val_main_v42_apply, Cert.ReferenceIdeal.Stages.val_main_v41_apply,
    Cert.ReferenceIdeal.Stages.val_main_v40_apply, Cert.ReferenceIdeal.Stages.val_main_v39_apply, Cert.ReferenceIdeal.Stages.val_main_v38_apply,
    Cert.ReferenceIdeal.Stages.val_main_v36_apply, Cert.ReferenceIdeal.Stages.val_main_v35_apply, Cert.ReferenceIdeal.Stages.val_main_v34_apply,
    Cert.ReferenceIdeal.Stages.val_main_cst_4_apply, Cert.ReferenceIdeal.Stages.val_main_cst_5_apply, Cert.ReferenceIdeal.Stages.val_main_cst_6_apply,
    Cert.ReferenceIdeal.Stages.val_main_cst_7_apply, Cert.ReferenceIdeal.Stages.val_main_cst_8_apply,
    Cert.ReferenceIdeal.Stages.val_main_call0_v0_apply, Cert.ReferenceIdeal.Stages.val_main_call0_cst_apply, idx35, idx34, lidx38, ridx38, idx40,
    idx39, lidx44, ridx44, idx46, idx45, idx53, idx50, idx49, idx60, idx57, idx56, idx65, Ideal.addf_def, Ideal.subf_def, Ideal.mulf_def,
    Ideal.maximumf_def, Ideal.hostDivf_def, Ideal.hostUnary_rsqrt_def, Ideal.ofBits_def, hrow]
  rw [laneSum_apply, laneSum_apply]
  simp only [
    mulf_apply, subf_apply, addf_apply, divf_apply, maximumf_apply, truncf_apply, broadcast_apply, rsqrt_apply, rowBroadcast_apply,
    broadcastTo_a1_ab_apply, shapeCast_a_a1_apply, mm1_apply, mm2_apply, shapeCast_self, Cert.ReferenceIdeal.Stages.val_main_v66_apply,
    Cert.ReferenceIdeal.Stages.val_main_v65_apply, Cert.ReferenceIdeal.Stages.val_main_v64_apply, Cert.ReferenceIdeal.Stages.val_main_v63_apply,
    Cert.ReferenceIdeal.Stages.val_main_v62_apply, Cert.ReferenceIdeal.Stages.val_main_v61_apply, Cert.ReferenceIdeal.Stages.val_main_v60_apply,
    Cert.ReferenceIdeal.Stages.val_main_v59_apply, Cert.ReferenceIdeal.Stages.val_main_v58_apply, Cert.ReferenceIdeal.Stages.val_main_v57_apply,
    Cert.ReferenceIdeal.Stages.val_main_v56_apply, Cert.ReferenceIdeal.Stages.val_main_v55_apply, Cert.ReferenceIdeal.Stages.val_main_v54_apply,
    Cert.ReferenceIdeal.Stages.val_main_v53_apply, Cert.ReferenceIdeal.Stages.val_main_v52_apply, Cert.ReferenceIdeal.Stages.val_main_v51_apply,
    Cert.ReferenceIdeal.Stages.val_main_v50_apply, Cert.ReferenceIdeal.Stages.val_main_v49_apply, Cert.ReferenceIdeal.Stages.val_main_v48_apply,
    Cert.ReferenceIdeal.Stages.val_main_v47_apply, Cert.ReferenceIdeal.Stages.val_main_v46_apply, Cert.ReferenceIdeal.Stages.val_main_v45_apply,
    Cert.ReferenceIdeal.Stages.val_main_v44_apply, Cert.ReferenceIdeal.Stages.val_main_v42_apply, Cert.ReferenceIdeal.Stages.val_main_v41_apply,
    Cert.ReferenceIdeal.Stages.val_main_v40_apply, Cert.ReferenceIdeal.Stages.val_main_v39_apply, Cert.ReferenceIdeal.Stages.val_main_v38_apply,
    Cert.ReferenceIdeal.Stages.val_main_v36_apply, Cert.ReferenceIdeal.Stages.val_main_v35_apply, Cert.ReferenceIdeal.Stages.val_main_v34_apply,
    Cert.ReferenceIdeal.Stages.val_main_cst_4_apply, Cert.ReferenceIdeal.Stages.val_main_cst_5_apply, Cert.ReferenceIdeal.Stages.val_main_cst_6_apply,
    Cert.ReferenceIdeal.Stages.val_main_cst_7_apply, Cert.ReferenceIdeal.Stages.val_main_cst_8_apply,
    Cert.ReferenceIdeal.Stages.val_main_call0_v0_apply, Cert.ReferenceIdeal.Stages.val_main_call0_cst_apply, idx35, idx34, lidx38, ridx38, idx40,
    idx39, lidx44, ridx44, idx46, idx45, idx53, idx50, idx49, idx60, idx57, idx56, idx65, Ideal.addf_def, Ideal.subf_def, Ideal.mulf_def,
    Ideal.maximumf_def, Ideal.hostDivf_def, Ideal.hostUnary_rsqrt_def, Ideal.ofBits_def, hrow]
  rw [laneSum_apply]
  simp only [
    mulf_apply, subf_apply, addf_apply, divf_apply, maximumf_apply, truncf_apply, broadcast_apply, rsqrt_apply, rowBroadcast_apply,
    broadcastTo_a1_ab_apply, shapeCast_a_a1_apply, mm1_apply, mm2_apply, shapeCast_self, Cert.ReferenceIdeal.Stages.val_main_v66_apply,
    Cert.ReferenceIdeal.Stages.val_main_v65_apply, Cert.ReferenceIdeal.Stages.val_main_v64_apply, Cert.ReferenceIdeal.Stages.val_main_v63_apply,
    Cert.ReferenceIdeal.Stages.val_main_v62_apply, Cert.ReferenceIdeal.Stages.val_main_v61_apply, Cert.ReferenceIdeal.Stages.val_main_v60_apply,
    Cert.ReferenceIdeal.Stages.val_main_v59_apply, Cert.ReferenceIdeal.Stages.val_main_v58_apply, Cert.ReferenceIdeal.Stages.val_main_v57_apply,
    Cert.ReferenceIdeal.Stages.val_main_v56_apply, Cert.ReferenceIdeal.Stages.val_main_v55_apply, Cert.ReferenceIdeal.Stages.val_main_v54_apply,
    Cert.ReferenceIdeal.Stages.val_main_v53_apply, Cert.ReferenceIdeal.Stages.val_main_v52_apply, Cert.ReferenceIdeal.Stages.val_main_v51_apply,
    Cert.ReferenceIdeal.Stages.val_main_v50_apply, Cert.ReferenceIdeal.Stages.val_main_v49_apply, Cert.ReferenceIdeal.Stages.val_main_v48_apply,
    Cert.ReferenceIdeal.Stages.val_main_v47_apply, Cert.ReferenceIdeal.Stages.val_main_v46_apply, Cert.ReferenceIdeal.Stages.val_main_v45_apply,
    Cert.ReferenceIdeal.Stages.val_main_v44_apply, Cert.ReferenceIdeal.Stages.val_main_v42_apply, Cert.ReferenceIdeal.Stages.val_main_v41_apply,
    Cert.ReferenceIdeal.Stages.val_main_v40_apply, Cert.ReferenceIdeal.Stages.val_main_v39_apply, Cert.ReferenceIdeal.Stages.val_main_v38_apply,
    Cert.ReferenceIdeal.Stages.val_main_v36_apply, Cert.ReferenceIdeal.Stages.val_main_v35_apply, Cert.ReferenceIdeal.Stages.val_main_v34_apply,
    Cert.ReferenceIdeal.Stages.val_main_cst_4_apply, Cert.ReferenceIdeal.Stages.val_main_cst_5_apply, Cert.ReferenceIdeal.Stages.val_main_cst_6_apply,
    Cert.ReferenceIdeal.Stages.val_main_cst_7_apply, Cert.ReferenceIdeal.Stages.val_main_cst_8_apply,
    Cert.ReferenceIdeal.Stages.val_main_call0_v0_apply, Cert.ReferenceIdeal.Stages.val_main_call0_cst_apply, idx35, idx34, lidx38, ridx38, idx40,
    idx39, lidx44, ridx44, idx46, idx45, idx53, idx50, idx49, idx60, idx57, idx56, idx65, Ideal.addf_def, Ideal.subf_def, Ideal.mulf_def,
    Ideal.maximumf_def, Ideal.hostDivf_def, Ideal.hostUnary_rsqrt_def, Ideal.ofBits_def, hrow, Ideal.ofBits_zero_f32, zero_add]

end Cert.Bridge

end
-- ==== Proof.Region0Rows.lean ====
/-
  Region 0, one row at a time. The block of 2000 nodes a grid point works on goes through a dense
  layer on the V slice of the input projection, the output projection, a residual and a layer norm,
  a two-layer feed-forward block with a relu, a second residual and layer norm. Every step acts on
  each row separately, so row `p` of the block's result depends on row `p` of the block alone, and
  equals the reference's node stage at the node that row holds.
-/
import proofs.«426868_j52097953300855_3_alg».proof.Proof.Interfaces
import proofs.«426868_j52097953300855_3_alg».proof.Proof.Region0RowsB
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat Cfg Window)

variable (m : Mem) (ρ : Dev Cert.KernelIdeal.nD → PrngReg) (c : Dev Cert.KernelIdeal.nD)

open Idealize.ShloMosaic.ValueIdx

open scoped BigOperators

namespace R0Rows

section Layout
variable {α : Type}

/-- A vector of `n` lanes cast to one row and spread over `m` rows reads, at row `p` and lane `q`, the vector at `q`. -/
theorem rowSpread_at {m n : ℕ} (v : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (p : Fin m) (q : Fin n) :
    broadcastTo ⟨2, ![m, n]⟩ (shapeCast ⟨2, ![1, n]⟩ v h1) h2 (ix2 p q) = v (ix1 q) := by
  rw [broadcastTo_1b_ab_apply, shapeCast_a_1a_apply]

/-- A vector of `m` entries cast to one column reads, at row `p`, the vector at `p`. -/
theorem colCast_at {m : ℕ} (v : (⟨1, ![m]⟩ : Shape).Idx → α) (h : (⟨1, ![m]⟩ : Shape).ShapeCasts ⟨2, ![m, 1]⟩)
    (p : Fin m) (u : Fin 1) : shapeCast ⟨2, ![m, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- One column spread over `n` lanes reads, at row `p` and any lane, the column at `p`. -/
theorem colSpread_at {m n : ℕ} (hm : m ≠ 1) (v : (⟨2, ![m, 1]⟩ : Shape).Idx → α)
    (h : (⟨2, ![m, 1]⟩ : Shape).Broadcasts ⟨2, ![m, n]⟩) (p : Fin m) (q : Fin n) :
    broadcastTo ⟨2, ![m, n]⟩ v h (ix2 p q) = v (ix2 p (0 : Fin 1)) := by
  refine broadcastTo_apply v h (ix2 p q) (ix2 p (0 : Fin 1)) fun ax => ?_
  match ax with
  | ⟨0, _⟩ =>
    show p.val = if m = 1 then 0 else p.val
    rw [if_neg hm]
  | ⟨1, _⟩ => rfl

/-- The host's form of the one-row cast: a vector broadcast along axis 1 to one row reads, at lane `t`, the vector at `t`. -/
theorem hostRowCast_at {n : ℕ} (v : (⟨1, ![n]⟩ : Shape).Idx → α)
    (h1 : (⟨1, ![n]⟩ : Shape).BroadcastsInDim ⟨2, ![1, n]⟩ ![1]) (u : Fin 1) (t : Fin n) :
    broadcastInDim ⟨2, ![1, n]⟩ ![1] h1 v (ix2 u t) = v (ix1 t) := by
  refine broadcastInDim_apply ![1] h1 v _ (ix1 t) fun a => ?_
  match a with
  | ⟨0, _⟩ =>
    show t.val = if n = 1 then 0 else t.val
    split
    · have := t.isLt; omega
    · rfl

/-- The host's form of `colCast_at`: a vector of `m` entries broadcast along axis 0 to one column. -/
theorem hostColCast_at {m : ℕ} (hm : m ≠ 1) (v : (⟨1, ![m]⟩ : Shape).Idx → α)
    (h : (⟨1, ![m]⟩ : Shape).BroadcastsInDim ⟨2, ![m, 1]⟩ ![0]) (r : Fin m) (u : Fin 1) :
    broadcastInDim ⟨2, ![m, 1]⟩ ![0] h v (ix2 r u) = v (ix1 r) := by
  refine broadcastInDim_apply ![0] h v _ (ix1 r) fun a => ?_
  match a with
  | ⟨0, _⟩ =>
    show r.val = if m = 1 then 0 else r.val
    rw [if_neg hm]

/-- The host's form of `colSpread_at`. -/
theorem hostColSpread_at {m n : ℕ} (hm : m ≠ 1) (v : (⟨2, ![m, 1]⟩ : Shape).Idx → α)
    (h : (⟨2, ![m, 1]⟩ : Shape).BroadcastsInDim ⟨2, ![m, n]⟩ ![0, 1]) (r : Fin m) (t : Fin n) :
    broadcastInDim ⟨2, ![m, n]⟩ ![0, 1] h v (ix2 r t) = v (ix2 r (0 : Fin 1)) := by
  refine broadcastInDim_apply ![0, 1] h v _ (ix2 r (0 : Fin 1)) fun a => ?_
  match a with
  | ⟨0, _⟩ =>
    show r.val = if m = 1 then 0 else r.val
    rw [if_neg hm]
  | ⟨1, _⟩ => rfl

end Layout

section AtIdeal

/-- The reciprocal square root of a vector, at an index. -/
theorem rsqrt_at {s : Shape} {φ : FTy} (v : FVec Ideal s φ) (i : s.Idx) : rsqrt v i = Ideal.rsqrt (v i) := rfl

/-- A scalar constant of the kernel is the extended real its word denotes. -/
theorem scalarOfBits {φ : FTy} (b : BitVec φ.bits) : Scalar.ofBits (F := Ideal) φ b = Ideal.ofBits φ b := rfl

/-- The sum over the lanes of a block reads, at row `p`, the sum of that row. -/
theorem rowSum_at {m n : ℕ} (src : FVec Ideal ⟨2, ![m, n]⟩ .f32) (h : (⟨2, ![m, n]⟩ : Shape).Reduces [1] ⟨1, ![m]⟩)
    (hφ : FKind.Formats .f32) (hacc : (0x00000000#32 : BitVec 32) = 0x00000000#32) (p : Fin m) :
    multiReduction .add ([1] : List (Fin 2)) ⟨1, ![m]⟩ src 0x00000000#32 h hφ hacc (ix1 p) = ∑ k : Fin n, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- The host's sum over the lanes reads, at row `r`, the initial value plus the sum of that row. -/
theorem hostRowSum_at {m n : ℕ} {u : Shape} (y : FVec Ideal ⟨2, ![m, n]⟩ .f32) (init : u.Idx → Ideal .f32)
    (h' : (⟨2, ![m, n]⟩ : Shape).ReducesTo [1] ⟨1, ![m]⟩) (h : (⟨2, ![m, n]⟩ : Shape).Reduces [1] ⟨1, ![m]⟩)
    (hu : 0 < u.numel) (r : Fin m) :
    Host.reduceAdd y init h' hu (ix1 r) = init (Shape.Idx.first hu) + ∑ k : Fin n, y (ix2 r k) := by
  show Ideal.hostReduceAdd h' y (init (Shape.Idx.first hu)) (ix1 r) = _
  rw [Ideal.hostReduceAdd_single h' h]
  refine congrArg (_ + ·) (Finset.sum_congr rfl fun k _ => congrArg y ?_)
  funext a
  match a with
  | ⟨0, _⟩ => rfl
  | ⟨1, _⟩ => rfl

/-- A block times a matrix, accumulated into the zero block, reads at `(p, q)` the product of row `p` with column `q`. -/
theorem matmul_at {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ c : Fin K, A (ix2 p c) * B (ix2 c q) := by
  subst hd
  rw [matmul_zero_eq_dotGeneral]
  exact StackMember.dotGeneral_plain_apply prec A B p q

/-- The host's product likewise. -/
theorem dotGeneral_at {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (p : Fin M) (q : Fin N) :
    Host.dotGeneral d prec A B (ix2 p q) = ∑ c : Fin K, A (ix2 p c) * B (ix2 c q) := by
  subst hd
  exact StackMember.dotGeneral_plain_apply prec A B p q

end AtIdeal

/-! The three products of the block's body and of the reference, at their literal sizes. -/

theorem mmA_at (A : FVec Ideal S2000x128 .bf16) (B : FVec Ideal S128x128 .bf16) (p : Fin 2000) (q : Fin 128) :
    matmul dot_S2000x128_S128x128_S2000x128_1_0_0_1_n_n none A B (constant S2000x128 .f32 0x00000000#32) (ix2 p q)
      = ∑ c : Fin 128, A (ix2 p c) * B (ix2 c q) :=
  matmul_at _ rfl none A B p q

theorem mmB_at (A : FVec Ideal S2000x128 .bf16) (B : FVec Ideal S128x512 .bf16) (p : Fin 2000) (q : Fin 512) :
    matmul dot_S2000x128_S128x512_S2000x512_1_0_0_1_n_n none A B (constant S2000x512 .f32 0x00000000#32) (ix2 p q)
      = ∑ c : Fin 128, A (ix2 p c) * B (ix2 c q) :=
  matmul_at _ rfl none A B p q

theorem mmC_at (A : FVec Ideal S2000x512 .bf16) (B : FVec Ideal S512x128 .bf16) (p : Fin 2000) (q : Fin 128) :
    matmul dot_S2000x512_S512x128_S2000x128_1_0_0_1_n_n none A B (constant S2000x128 .f32 0x00000000#32) (ix2 p q)
      = ∑ c : Fin 512, A (ix2 p c) * B (ix2 c q) :=
  matmul_at _ rfl none A B p q

/-! ## One row of the block, as mathematics -/

/-- A dense layer on one row: the row times the matrix, plus the bias. -/
def dense {a b : ℕ} (h : Fin a → EReal) (W : Fin a → Fin b → EReal) (β : Fin b → EReal) (j : Fin b) : EReal :=
  (∑ k : Fin a, h k * W k j) + β j

/-- The mean of a row of 128 lanes (the divisor is the word of 128.0, never evaluated). -/
def mean (y : Fin 128 → EReal) : EReal := Ideal.div (∑ k : Fin 128, y k) (Ideal.ofBits .f32 0x43000000#32)

/-- The variance of a row of 128 lanes about its mean. -/
def var (y : Fin 128 → EReal) : EReal :=
  Ideal.div (∑ k : Fin 128, (y k - mean y) * (y k - mean y)) (Ideal.ofBits .f32 0x43000000#32)

/-- A row centred at its mean and scaled by the reciprocal root of its variance plus ε. -/
def normed (y : Fin 128 → EReal) (j : Fin 128) : EReal :=
  (y j - mean y) * Ideal.rsqrt (var y + Ideal.ofBits .f32 0x3727C5AC#32)

/-- The layer norm of a row with gain `g` and shift `β`. -/
def layerNorm (y g β : Fin 128 → EReal) (j : Fin 128) : EReal := normed y j * g j + β j

/-- The positive part of each lane. -/
def relu {n : ℕ} (t : Fin n → EReal) (j : Fin n) : EReal := max (t j) 0

/-! ## The block's body at a row -/

/-- The gain of the second layer norm, spread over the rows of the block, at row `p`. -/
theorem pay7_row (v64 : Vec Ideal S128 .f32) (p : Fin 2000) (q : Fin 128) :
    k0_pay7 (F := Ideal) v64 (ix2 p q) = v64 (ix1 q) := by
  unfold k0_pay7
  simp only [rowSpread_at]

/-- The last step of the block: the normalised value times the gain plus the shift, at row `p`. -/
theorem pay1_row (v65 : Vec Ideal S128 .f32) (v83 v85 : FVec Ideal S2000x128 .f32) (p : Fin 2000) (q : Fin 128) :
    k0_pay1 (F := Ideal) v65 v83 v85 (ix2 p q) = v83 (ix2 p q) * v85 (ix2 p q) + v65 (ix1 q) := by
  unfold k0_pay1
  simp only [addf_apply, mulf_apply, rowSpread_at]

/-- Row `p` of the first half of the block's body: the V slice's dense layer, the output projection, the residual,
    and the row centred and scaled, times the gain of the first layer norm. -/
theorem pay5_row (v0 : Vec Ideal S2000x128 .f32) (v1 : Vec Ideal S128x128 .bf16) (v5 : Vec Ideal S128 .f32)
    (v10 : Vec Ideal S128x128 .bf16) (v14 v19 : Vec Ideal S128 .f32) (p : Fin 2000) (q : Fin 128) :
    k0_pay5 (F := Ideal) v0 v1 v5 v10 v14 v19 (ix2 p q)
      = normed (fun k => v0 (ix2 p k) + dense (dense (fun i => v0 (ix2 p i)) (fun i j => v1 (ix2 i j)) (fun j => v5 (ix1 j)))
          (fun i j => v10 (ix2 i j)) (fun j => v14 (ix1 j)) k) q * v19 (ix1 q) := by
  unfold k0_pay5
  simp only [addf_apply, mulf_apply, subf_apply, divf_apply, rsqrt_at, broadcast_apply, truncf_apply, shapeCast_self,
    rowSpread_at, colCast_at, colSpread_at (show (2000 : ℕ) ≠ 1 by decide), rowSum_at, mmA_at, scalarOfBits]
  rfl

/-! ## The reference's stages at a node -/

section HostAtIdeal

/-- The host's quotient of two vectors, at an index. -/
theorem hostDivf_at {s : Shape} {φ : FTy} (x y : FVec Ideal s φ) (i : s.Idx) : Host.divf x y i = Ideal.div (x i) (y i) := rfl

/-- The host's reciprocal square root of a vector, at an index. -/
theorem hostRsqrt_at {s : Shape} {φ : FTy} (x : FVec Ideal s φ) (i : s.Idx) : Host.rsqrt x i = Ideal.rsqrt (x i) := rfl

end HostAtIdeal

/-- The reference's product of the node features with a 128 × 128 matrix, at node `n` and lane `q`. -/
theorem dgA_at (A : FVec Ideal Cert.ReferenceIdeal.S50000x128 .f32) (B : FVec Ideal Cert.ReferenceIdeal.S128x128 .f32)
    (n : Fin 50000) (q : Fin 128) :
    Host.dotGeneral Cert.ReferenceIdeal.dot_S50000x128_S128x128_S50000x128_1_0_0_1_n_n none A B (ix2 n q)
      = ∑ c : Fin 128, A (ix2 n c) * B (ix2 c q) :=
  dotGeneral_at _ rfl none A B n q

open Cert.ReferenceIdeal.Stages in
/-- Node `n` of the reference's stage 33: the same expression of node `n`'s features. -/
theorem ref33_at (x0 : (⟨Cert.ReferenceIdeal.S50000x128, .f32⟩ : BufTy).Contents (Elt Ideal))
    (x3 : (⟨Cert.ReferenceIdeal.S384x128, .f32⟩ : BufTy).Contents (Elt Ideal))
    (x4 : (⟨Cert.ReferenceIdeal.S384, .f32⟩ : BufTy).Contents (Elt Ideal))
    (x5 : (⟨Cert.ReferenceIdeal.S128x128, .f32⟩ : BufTy).Contents (Elt Ideal))
    (x6 x11 : (⟨Cert.ReferenceIdeal.S128, .f32⟩ : BufTy).Contents (Elt Ideal)) (n : Fin 50000) (q : Fin 128) :
    val_main_v33 (F := Ideal) x0 x3 x4 x5 x6 x11 (ix2 n q)
      = normed (fun k => x0 (ix2 n k) + dense (dense (fun i => x0 (ix2 n i)) (fun i j => val_main_v1 (F := Ideal) x3 (ix2 i j))
          (fun j => val_main_v3 (F := Ideal) x4 (ix1 j))) (fun i j => val_main_v7 (F := Ideal) x5 (ix2 i j)) (fun j => x6 (ix1 j)) k) q
        * x11 (ix1 q) := by
  simp only [val_main_v33, val_main_v32, val_main_v31, val_main_v30, val_main_v29, val_main_v28, val_main_v27, val_main_v26,
    val_main_cst_3, val_main_v25, val_main_v24, val_main_v23, val_main_v22, val_main_cst_2, val_main_v21, val_main_v20,
    val_main_cst_1, val_main_v19, val_main_v18, val_main_v17, val_main_v16, val_main_v15, val_main_cst_0, val_main_v14,
    val_main_v13, val_main_cst, val_main_v12, val_main_v11, val_main_v10, val_main_v9, val_main_v8, val_main_v6,
    val_main_v5, val_main_v4, val_main_v2,
    addf_apply, mulf_apply, subf_apply, hostDivf_at, hostRsqrt_at, broadcast_apply, constant_apply,
    broadcastInDim_constant, scalarOfBits,
    broadcastInDim_oneRow_apply (m := 50000) (n := 128), hostRowCast_at (n := 128),
    hostColCast_at (m := 50000) (by decide), hostColSpread_at (m := 50000) (n := 128) (by decide),
    hostRowSum_at (m := 50000) (n := 128) (h := by decide), dgA_at, Ideal.ofBits_zero_f32, zero_add]
  rfl

/-! ## Whole-block rectangles -/

/-- The offsets of a whole rank-2 rectangle are zero. -/
theorem off2_zero : (![0, 0] : Fin 2 → ℕ) = fun _ => 0 := funext fun a => by fin_cases a <;> rfl

/-- The offset of a whole rank-1 rectangle is zero. -/
theorem off1_zero : (![0] : Fin 1 → ℕ) = fun _ => 0 := funext fun a => by fin_cases a; rfl

end R0Rows

/-- The normalised node features of one block, as the kernel's body computes them from the blocks of
    its first thirteen windows (the value its first store writes, and the left operand of its three
    projections). -/
abbrev hsubBlk (x0 : Vec Ideal S2000x128 .f32) (x1 : Vec Ideal S128x128 .bf16) (x2 : Vec Ideal S128 .f32) (x3 : Vec Ideal S128x128 .bf16) (x4 : Vec Ideal S128 .f32) (x5 : Vec Ideal S128x512 .bf16) (x6 : Vec Ideal S512 .f32) (x7 : Vec Ideal S512x128 .bf16) (x8 : Vec Ideal S128 .f32) (x9 : Vec Ideal S128 .f32) (x10 : Vec Ideal S128 .f32) (x11 : Vec Ideal S128 .f32) (x12 : Vec Ideal S128 .f32) : FVec Ideal S2000x128 .f32 :=
  k0_pay1 (F := Ideal) (View.ld x12 r0_2) (k0_pay6 (View.ld x10 r0_2) (k0_pay5 (View.ld x0 r0_0) (View.ld x1 r0_1) (View.ld x2 r0_2) (View.ld x3 r0_1) (View.ld x4 r0_2) (View.ld x9 r0_2)) (View.ld x5 r0_3) (View.ld x6 r0_4) (View.ld x7 r0_5) (View.ld x8 r0_2)) (k0_pay7 (View.ld x11 r0_2))

/-- Row `p` of a block whose row `p` is node `n`'s features, with the weights the first host stretch
    prepares, is the reference's normalised features of node `n`. -/
theorem hsubBlk_at (x0 : Vec Ideal S2000x128 .f32) (n : Fin 50000) (p : Fin 2000) (q : Fin 128)
    (hrow : ∀ k : Fin 128, x0 (ix2 p k) = a0 m c (ix2 n k)) :
    hsubBlk x0
      (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v1 (F := Ideal) (a3 m c))) (Cert.ReferenceIdeal.Stages.val_main_v3 (F := Ideal) (a4 m c))
      (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v7 (F := Ideal) (a5 m c))) (a6 m c)
      (((truncf (F := Ideal) .bf16 · bitsLt_bf16_f32) : (⟨S128x512, .f32⟩ : BufTy).Contents (Elt Ideal) → (⟨S128x512, .bf16⟩ : BufTy).Contents (Elt Ideal)) (Cert.ReferenceIdeal.Stages.val_main_v37 (F := Ideal) (a7 m c))) (a8 m c)
      (((truncf (F := Ideal) .bf16 · bitsLt_bf16_f32) : (⟨S512x128, .f32⟩ : BufTy).Contents (Elt Ideal) → (⟨S512x128, .bf16⟩ : BufTy).Contents (Elt Ideal)) (Cert.ReferenceIdeal.Stages.val_main_v43 (F := Ideal) (a9 m c))) (a10 m c)
      (a11 m c) (a12 m c) (a13 m c) (a14 m c) (ix2 p q)
    = sHsub m c (ix2 n q) := by
  -- the whole-block loads read their blocks; the last step is the gain and shift of the second layer norm
  simp only [hsubBlk, View.ld_unit_zero (S := S2000x128) R0Rows.off2_zero, View.ld_unit_zero (S := S128x128) R0Rows.off2_zero,
    View.ld_unit_zero (S := S128) R0Rows.off1_zero, View.ld_unit_zero (S := S128x512) R0Rows.off2_zero,
    View.ld_unit_zero (S := S512) R0Rows.off1_zero, View.ld_unit_zero (S := S512x128) R0Rows.off2_zero,
    R0Rows.pay1_row, R0Rows.pay7_row]
  -- the middle of the body, from the first layer norm's scaled row to the second normalisation
  rw [pay6_at m c _ n p q ?h5]
  case h5 =>
    intro k
    rw [R0Rows.pay5_row, R0Rows.ref33_at]
    simp only [hrow]
    rfl
  -- the reference's last six stages at node `n`
  simp only [sHsub, Cert.ReferenceIdeal.Stages.val_main_v72, Cert.ReferenceIdeal.Stages.val_main_v71,
    Cert.ReferenceIdeal.Stages.val_main_v70, Cert.ReferenceIdeal.Stages.val_main_v69, Cert.ReferenceIdeal.Stages.val_main_v68,
    Cert.ReferenceIdeal.Stages.val_main_v67, addf_apply, mulf_apply,
    broadcastInDim_oneRow_apply (m := 50000) (n := 128), R0Rows.hostRowCast_at (n := 128)]

end Cert.Bridge

end
-- ==== Proof.Region0.lean ====
/-
  Region 0 against the reference's node stage.

  Each of the 25 grid points works on a block of 2000 nodes: block `t` of every output array is rows
  `2000 t … 2000 t + 1999`. The first output is the block's normalised features, row by row the reference's
  normalised features of the node the row holds; the other three are that block times a transposed projection
  weight, which at row `p` and lane `q` is the sum over the 128 lanes `k` of the features at `(p, k)` times the
  weight at `(k, q)`: the reference's `dot_general` at the node. The 25 blocks cover the 50000 rows.
-/
import proofs.«426868_j52097953300855_3_alg».proof.Proof.Interfaces
import proofs.«426868_j52097953300855_3_alg».proof.Proof.Region0Rows
import Idealize.ShloMosaic.Lib.Pipeline.Value
import Idealize.ShloMosaic.Lib.ValueIdx
import Idealize.ShloMosaic.PureOps.Ideal.Laws
set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat Cfg Window)

variable (m : Mem) (ρ : Dev Cert.KernelIdeal.nD → PrngReg) (c : Dev Cert.KernelIdeal.nD)

namespace Region0

open Idealize.ShloMosaic.ValueIdx

/-! ## The index maps, and each input window's block as rows of its array -/

/-- The zero offsets of a whole-block access. -/
theorem hz2 : (![0, 0] : Fin 2 → Nat) = fun _ => 0 := funext fun a => by fin_cases a <;> rfl

/-- The index maps of the node-block windows: block `t` on the row axis, block 0 on the lane axis. -/
theorem idx_rows0 : ∀ t : Fin cfg0.N,
    win0_0.index t (0 : Fin 2) = t.val ∧ win0_0.index t (1 : Fin 2) = 0
    ∧ win0_16.index t (0 : Fin 2) = t.val ∧ win0_16.index t (1 : Fin 2) = 0
    ∧ win0_17.index t (0 : Fin 2) = t.val ∧ win0_17.index t (1 : Fin 2) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

/-- The index maps of the fifteen whole-array windows are zero at every grid point. -/
theorem idx_whole0 : ∀ t : Fin cfg0.N,
    win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 1) = 0
    ∧ win0_10.index t (0 : Fin 1) = 0
    ∧ win0_11.index t (0 : Fin 1) = 0
    ∧ win0_12.index t (0 : Fin 1) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0 :=
  (by decide +kernel : ∀ t : Fin grid0.N, _)

section Blocks
variable (V : (c : Dev nD) → (b : Ref sig .tc) → Buf (Elt Ideal) ((c : Thread nD τ).loc b))

/-- Window 1's block at every point is its whole array. -/
theorem blk0_1_eq (c : Dev nD) (t : Fin cfg0.N) : (iblk0 V c 1 t : Vec Ideal S128x128 .bf16) = V c main_v3 := by
  funext y
  unfold iblk0
  rw [View.read_apply]
  show V c main_v3 _ = V c main_v3 y
  refine congrArg (V c main_v3) ?_
  funext a
  apply Fin.ext
  match a with
  | ⟨0, _⟩ => show win0_1.index t (0 : Fin 2) * 128 + 1 * (y 0).val = (y 0).val; rw [(idx_whole0 t).1]; omega
  | ⟨1, _⟩ => show win0_1.index t (1 : Fin 2) * 128 + 1 * (y 1).val = (y 1).val; rw [(idx_whole0 t).2.1]; omega

/-- Window 2's block at every point is its whole array. -/
theorem blk0_2_eq (c : Dev nD) (t : Fin cfg0.N) : (iblk0 V c 2 t : Vec Ideal S128 .f32) = V c main_v1 := by
  funext y
  unfold iblk0
  rw [View.read_apply]
  show V c main_v1 _ = V c main_v1 y
  refine congrArg (V c main_v1) ?_
  funext a
  apply Fin.ext
  match a with
  | ⟨0, _⟩ => show win0_2.index t (0 : Fin 1) * 128 + 1 * (y 0).val = (y 0).val; rw [(idx_whole0 t).2.2.1]; omega

/-- Window 3's block at every point is its whole array. -/
theorem blk0_3_eq (c : Dev nD) (t : Fin cfg0.N) : (iblk0 V c 3 t : Vec Ideal S128x128 .bf16) = V c main_v5 := by
  funext y
  unfold iblk0
  rw [View.read_apply]
  show V c main_v5 _ = V c main_v5 y
  refine congrArg (V c main_v5) ?_
  funext a
  apply Fin.ext
  match a with
  | ⟨0, _⟩ => show win0_3.index t (0 : Fin 2) * 128 + 1 * (y 0).val = (y 0).val; rw [(idx_whole0 t).2.2.2.1]; omega
  | ⟨1, _⟩ => show win0_3.index t (1 : Fin 2) * 128 + 1 * (y 1).val = (y 1).val; rw [(idx_whole0 t).2.2.2.2.1]; omega

/-- Window 4's block at every point is its whole array. -/
theorem blk0_4_eq (c : Dev nD) (t : Fin cfg0.N) : (iblk0 V c 4 t : Vec Ideal S128 .f32) = V c main_arg6 := by
  funext y
  unfold iblk0
  rw [View.read_apply]
  show V c main_arg6 _ = V c main_arg6 y
  refine congrArg (V c main_arg6) ?_
  funext a
  apply Fin.ext
  match a with
  | ⟨0, _⟩ => show win0_4.index t (0 : Fin 1) * 128 + 1 * (y 0).val = (y 0).val; rw [(idx_whole0 t).2.2.2.2.2.1]; omega

/-- Window 5's block at every point is its whole array. -/
theorem blk0_5_eq (c : Dev nD) (t : Fin cfg0.N) : (iblk0 V c 5 t : Vec Ideal S128x512 .bf16) = V c main_v7 := by
  funext y
  unfold iblk0
  rw [View.read_apply]
  show V c main_v7 _ = V c main_v7 y
  refine congrArg (V c main_v7) ?_
  funext a
  apply Fin.ext
  match a with
  | ⟨0, _⟩ => show win0_5.index t (0 : Fin 2) * 128 + 1 * (y 0).val = (y 0).val; rw [(idx_whole0 t).2.2.2.2.2.2.1]; omega
  | ⟨1, _⟩ => show win0_5.index t (1 : Fin 2) * 512 + 1 * (y 1).val = (y 1).val; rw [(idx_whole0 t).2.2.2.2.2.2.2.1]; omega

/-- Window 6's block at every point is its whole array. -/
theorem blk0_6_eq (c : Dev nD) (t : Fin cfg0.N) : (iblk0 V c 6 t : Vec Ideal S512 .f32) = V c main_arg8 := by
  funext y
  unfold iblk0
  rw [View.read_apply]
  show V c main_arg8 _ = V c main_arg8 y
  refine congrArg (V c main_arg8) ?_
  funext a
  apply Fin.ext
  match a with
  | ⟨0, _⟩ => show win0_6.index t (0 : Fin 1) * 512 + 1 * (y 0).val = (y 0).val; rw [(idx_whole0 t).2.2.2.2.2.2.2.2.1]; omega

/-- Window 7's block at every point is its whole array. -/
theorem blk0_7_eq (c : Dev nD) (t : Fin cfg0.N) : (iblk0 V c 7 t : Vec Ideal S512x128 .bf16) = V c main_v9 := by
  funext y
  unfold iblk0
  rw [View.read_apply]
  show V c main_v9 _ = V c main_v9 y
  refine congrArg (V c main_v9) ?_
  funext a
  apply Fin.ext
  match a with
  | ⟨0, _⟩ => show win0_7.index t (0 : Fin 2) * 512 + 1 * (y 0).val = (y 0).val; rw [(idx_whole0 t).2.2.2.2.2.2.2.2.2.1]; omega
  | ⟨1, _⟩ => show win0_7.index t (1 : Fin 2) * 128 + 1 * (y 1).val = (y 1).val; rw [(idx_whole0 t).2.2.2.2.2.2.2.2.2.2.1]; omega

/-- Window 8's block at every point is its whole array. -/
theorem blk0_8_eq (c : Dev nD) (t : Fin cfg0.N) : (iblk0 V c 8 t : Vec Ideal S128 .f32) = V c main_arg10 := by
  funext y
  unfold iblk0
  rw [View.read_apply]
  show V c main_arg10 _ = V c main_arg10 y
  refine congrArg (V c main_arg10) ?_
  funext a
  apply Fin.ext
  match a with
  | ⟨0, _⟩ => show win0_8.index t (0 : Fin 1) * 128 + 1 * (y 0).val = (y 0).val; rw [(idx_whole0 t).2.2.2.2.2.2.2.2.2.2.2.1]; omega

/-- Window 9's block at every point is its whole array. -/
theorem blk0_9_eq (c : Dev nD) (t : Fin cfg0.N) : (iblk0 V c 9 t : Vec Ideal S128 .f32) = V c main_arg11 := by
  funext y
  unfold iblk0
  rw [View.read_apply]
  show V c main_arg11 _ = V c main_arg11 y
  refine congrArg (V c main_arg11) ?_
  funext a
  apply Fin.ext
  match a with
  | ⟨0, _⟩ => show win0_9.index t (0 : Fin 1) * 128 + 1 * (y 0).val = (y 0).val; rw [(idx_whole0 t).2.2.2.2.2.2.2.2.2.2.2.2.1]; omega

/-- Window 10's block at every point is its whole array. -/
theorem blk0_10_eq (c : Dev nD) (t : Fin cfg0.N) : (iblk0 V c 10 t : Vec Ideal S128 .f32) = V c main_arg12 := by
  funext y
  unfold iblk0
  rw [View.read_apply]
  show V c main_arg12 _ = V c main_arg12 y
  refine congrArg (V c main_arg12) ?_
  funext a
  apply Fin.ext
  match a with
  | ⟨0, _⟩ => show win0_10.index t (0 : Fin 1) * 128 + 1 * (y 0).val = (y 0).val; rw [(idx_whole0 t).2.2.2.2.2.2.2.2.2.2.2.2.2.1]; omega

/-- Window 11's block at every point is its whole array. -/
theorem blk0_11_eq (c : Dev nD) (t : Fin cfg0.N) : (iblk0 V c 11 t : Vec Ideal S128 .f32) = V c main_arg13 := by
  funext y
  unfold iblk0
  rw [View.read_apply]
  show V c main_arg13 _ = V c main_arg13 y
  refine congrArg (V c main_arg13) ?_
  funext a
  apply Fin.ext
  match a with
  | ⟨0, _⟩ => show win0_11.index t (0 : Fin 1) * 128 + 1 * (y 0).val = (y 0).val; rw [(idx_whole0 t).2.2.2.2.2.2.2.2.2.2.2.2.2.2.1]; omega

/-- Window 12's block at every point is its whole array. -/
theorem blk0_12_eq (c : Dev nD) (t : Fin cfg0.N) : (iblk0 V c 12 t : Vec Ideal S128 .f32) = V c main_arg14 := by
  funext y
  unfold iblk0
  rw [View.read_apply]
  show V c main_arg14 _ = V c main_arg14 y
  refine congrArg (V c main_arg14) ?_
  funext a
  apply Fin.ext
  match a with
  | ⟨0, _⟩ => show win0_12.index t (0 : Fin 1) * 128 + 1 * (y 0).val = (y 0).val; rw [(idx_whole0 t).2.2.2.2.2.2.2.2.2.2.2.2.2.2.2.1]; omega

/-- Window 13's block at every point is its whole array. -/
theorem blk0_13_eq (c : Dev nD) (t : Fin cfg0.N) : (iblk0 V c 13 t : Vec Ideal S128x128 .bf16) = V c main_v11 := by
  funext y
  unfold iblk0
  rw [View.read_apply]
  show V c main_v11 _ = V c main_v11 y
  refine congrArg (V c main_v11) ?_
  funext a
  apply Fin.ext
  match a with
  | ⟨0, _⟩ => show win0_13.index t (0 : Fin 2) * 128 + 1 * (y 0).val = (y 0).val; rw [(idx_whole0 t).2.2.2.2.2.2.2.2.2.2.2.2.2.2.2.2.1]; omega
  | ⟨1, _⟩ => show win0_13.index t (1 : Fin 2) * 128 + 1 * (y 1).val = (y 1).val; rw [(idx_whole0 t).2.2.2.2.2.2.2.2.2.2.2.2.2.2.2.2.2.1]; omega

/-- Window 14's block at every point is its whole array. -/
theorem blk0_14_eq (c : Dev nD) (t : Fin cfg0.N) : (iblk0 V c 14 t : Vec Ideal S128x128 .bf16) = V c main_v13 := by
  funext y
  unfold iblk0
  rw [View.read_apply]
  show V c main_v13 _ = V c main_v13 y
  refine congrArg (V c main_v13) ?_
  funext a
  apply Fin.ext
  match a with
  | ⟨0, _⟩ => show win0_14.index t (0 : Fin 2) * 128 + 1 * (y 0).val = (y 0).val; rw [(idx_whole0 t).2.2.2.2.2.2.2.2.2.2.2.2.2.2.2.2.2.2.1]; omega
  | ⟨1, _⟩ => show win0_14.index t (1 : Fin 2) * 128 + 1 * (y 1).val = (y 1).val; rw [(idx_whole0 t).2.2.2.2.2.2.2.2.2.2.2.2.2.2.2.2.2.2.2.1]; omega

/-- Window 15's block at every point is its whole array. -/
theorem blk0_15_eq (c : Dev nD) (t : Fin cfg0.N) : (iblk0 V c 15 t : Vec Ideal S128x128 .bf16) = V c main_v15 := by
  funext y
  unfold iblk0
  rw [View.read_apply]
  show V c main_v15 _ = V c main_v15 y
  refine congrArg (V c main_v15) ?_
  funext a
  apply Fin.ext
  match a with
  | ⟨0, _⟩ => show win0_15.index t (0 : Fin 2) * 128 + 1 * (y 0).val = (y 0).val; rw [(idx_whole0 t).2.2.2.2.2.2.2.2.2.2.2.2.2.2.2.2.2.2.2.2.1]; omega
  | ⟨1, _⟩ => show win0_15.index t (1 : Fin 2) * 128 + 1 * (y 1).val = (y 1).val; rw [(idx_whole0 t).2.2.2.2.2.2.2.2.2.2.2.2.2.2.2.2.2.2.2.2.2]; omega

/-- Row `p` of window 0's block at point `t` is row `2000 t + p` of the node features. -/
theorem blk0_0_apply (c : Dev nD) (t : Fin cfg0.N) (p : Fin 2000) (k : Fin 128) (n : Fin 50000) (hn : n.val = 2000 * t.val + p.val) :
    (iblk0 V c 0 t : Vec Ideal S2000x128 .f32) (ix2 p k) = (V c main_arg0 : S50000x128.Idx → Elt Ideal .f32) (ix2 n k) := by
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * p.val = n.val; rw [(idx_rows0 t).1, hn]; omega
  | ⟨1, _⟩ => show win0_0.index t (1 : Fin 2) * 128 + 1 * k.val = k.val; rw [(idx_rows0 t).2.1]; omega

end Blocks

/-- Block `t` of window 16's array, at row `p`, is the array's row `2000 t + p`. -/
theorem read16_at (G : S50000x128.Idx → Elt Ideal .f32) (t : Fin cfg0.N) (p : Fin 2000) (q : Fin 128) (n : Fin 50000) (hn : n.val = 2000 * t.val + p.val) :
    ((cfg0.win 16).blk t).view.read (Elt Ideal) G (ix2 p q) = G (ix2 n q) := by
  rw [View.read_apply]
  show G _ = G _
  refine congrArg G ?_
  funext a
  apply Fin.ext
  match a with
  | ⟨0, _⟩ => show win0_16.index t (0 : Fin 2) * 2000 + 1 * p.val = n.val; rw [(idx_rows0 t).2.2.1, hn]; omega
  | ⟨1, _⟩ => show win0_16.index t (1 : Fin 2) * 128 + 1 * q.val = q.val; rw [(idx_rows0 t).2.2.2.1]; omega

/-- Block `t` of window 17's array, at row `p`, is the array's row `2000 t + p`. -/
theorem read17_at (G : S50000x128.Idx → Elt Ideal .f32) (t : Fin cfg0.N) (p : Fin 2000) (q : Fin 128) (n : Fin 50000) (hn : n.val = 2000 * t.val + p.val) :
    ((cfg0.win 17).blk t).view.read (Elt Ideal) G (ix2 p q) = G (ix2 n q) := by
  rw [View.read_apply]
  show G _ = G _
  refine congrArg G ?_
  funext a
  apply Fin.ext
  match a with
  | ⟨0, _⟩ => show win0_17.index t (0 : Fin 2) * 2000 + 1 * p.val = n.val; rw [(idx_rows0 t).2.2.2.2.1, hn]; omega
  | ⟨1, _⟩ => show win0_17.index t (1 : Fin 2) * 128 + 1 * q.val = q.val; rw [(idx_rows0 t).2.2.2.2.2.1]; omega

/-- Block `t` of window 18's array, at row `p`, is the array's row `2000 t + p`. -/
theorem read18_at (G : S50000x128.Idx → Elt Ideal .f32) (t : Fin cfg0.N) (p : Fin 2000) (q : Fin 128) (n : Fin 50000) (hn : n.val = 2000 * t.val + p.val) :
    ((cfg0.win 18).blk t).view.read (Elt Ideal) G (ix2 p q) = G (ix2 n q) := by
  rw [View.read_apply]
  show G _ = G _
  refine congrArg G ?_
  funext a
  apply Fin.ext
  match a with
  | ⟨0, _⟩ => show win0_18.index t (0 : Fin 2) * 2000 + 1 * p.val = n.val; rw [(idx_rows0 t).2.2.2.2.2.2.1, hn]; omega
  | ⟨1, _⟩ => show win0_18.index t (1 : Fin 2) * 128 + 1 * q.val = q.val; rw [(idx_rows0 t).2.2.2.2.2.2.2.1]; omega

/-- Block `t` of window 19's array, at row `p`, is the array's row `2000 t + p`. -/
theorem read19_at (G : S50000x128.Idx → Elt Ideal .f32) (t : Fin cfg0.N) (p : Fin 2000) (q : Fin 128) (n : Fin 50000) (hn : n.val = 2000 * t.val + p.val) :
    ((cfg0.win 19).blk t).view.read (Elt Ideal) G (ix2 p q) = G (ix2 n q) := by
  rw [View.read_apply]
  show G _ = G _
  refine congrArg G ?_
  funext a
  apply Fin.ext
  match a with
  | ⟨0, _⟩ => show win0_19.index t (0 : Fin 2) * 2000 + 1 * p.val = n.val; rw [(idx_rows0 t).2.2.2.2.2.2.2.2.1, hn]; omega
  | ⟨1, _⟩ => show win0_19.index t (1 : Fin 2) * 128 + 1 * q.val = q.val; rw [(idx_rows0 t).2.2.2.2.2.2.2.2.2]; omega

/-! ## The block product at an index -/

theorem lhs_proj_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_proj_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_proj_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_proj_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a block of rows with a weight matrix, accumulated into zero, at row `p` and lane `q`: the sum
    over the 128 lanes `k` of the row's entry at `k` times the weight at `(k, q)`. -/
theorem proj_at (H : FVec Ideal S2000x128 .bf16) (W : FVec Ideal S128x128 .bf16) (p : Fin 2000) (q : Fin 128) :
    matmul dot_S2000x128_S128x128_S2000x128_1_0_0_1_n_n none H W (constant (F := Ideal) S2000x128 .f32 0x00000000#32) (ix2 p q)
      = ∑ k : Fin 128, H (ix2 p k) * W (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-! ## Rows of a block -/

/-- Row `p` of the block's normalised features, when row `p` of its input is node `n`'s and its weights are the
    prepared ones, is the reference's normalised features of node `n`. -/
theorem hsub_row (x0 : Vec Ideal S2000x128 .f32) (x1 : Vec Ideal S128x128 .bf16) (x2 : Vec Ideal S128 .f32) (x3 : Vec Ideal S128x128 .bf16) (x4 : Vec Ideal S128 .f32) (x5 : Vec Ideal S128x512 .bf16) (x6 : Vec Ideal S512 .f32) (x7 : Vec Ideal S512x128 .bf16) (x8 : Vec Ideal S128 .f32) (x9 : Vec Ideal S128 .f32) (x10 : Vec Ideal S128 .f32) (x11 : Vec Ideal S128 .f32) (x12 : Vec Ideal S128 .f32)
    (n : Fin 50000) (p : Fin 2000) (q : Fin 128)
    (hrow : ∀ k : Fin 128, x0 (ix2 p k) = a0 m c (ix2 n k))
    (h1 : x1 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v1 (F := Ideal) (a3 m c))))
    (h2 : x2 = (Cert.ReferenceIdeal.Stages.val_main_v3 (F := Ideal) (a4 m c)))
    (h3 : x3 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v7 (F := Ideal) (a5 m c))))
    (h4 : x4 = (a6 m c))
    (h5 : x5 = (((truncf (F := Ideal) .bf16 · bitsLt_bf16_f32) : (⟨S128x512, .f32⟩ : BufTy).Contents (Elt Ideal) → (⟨S128x512, .bf16⟩ : BufTy).Contents (Elt Ideal)) (Cert.ReferenceIdeal.Stages.val_main_v37 (F := Ideal) (a7 m c))))
    (h6 : x6 = (a8 m c))
    (h7 : x7 = (((truncf (F := Ideal) .bf16 · bitsLt_bf16_f32) : (⟨S512x128, .f32⟩ : BufTy).Contents (Elt Ideal) → (⟨S512x128, .bf16⟩ : BufTy).Contents (Elt Ideal)) (Cert.ReferenceIdeal.Stages.val_main_v43 (F := Ideal) (a9 m c))))
    (h8 : x8 = (a10 m c))
    (h9 : x9 = (a11 m c))
    (h10 : x10 = (a12 m c))
    (h11 : x11 = (a13 m c))
    (h12 : x12 = (a14 m c)) :
    hsubBlk x0 x1 x2 x3 x4 x5 x6 x7 x8 x9 x10 x11 x12 (ix2 p q) = sHsub m c (ix2 n q) := by
  subst h1 h2 h3 h4 h5 h6 h7 h8 h9 h10 h11 h12
  exact hsubBlk_at m c x0 n p q hrow

/-! ## What each point writes back -/

/-- What point `t` writes back to window 16's array is block `t` of the reference's normalised features. -/
theorem flushed16_eq (e : Entry0 m ρ c) (t : Fin cfg0.N) :
    (dat0 (F := Ideal) (V1 m ρ) c).flushed 16 t = ((cfg0.win 16).blk t).view.read (Elt Ideal) (sHsub m c) := by
  show (cfg0.win 16).cut (grid0.coords t) ((dat0 (V1 m ρ) c).after 16 t) = _
  rw [after0_16]
  unfold out0_16
  rw [View.canon_unit_zero hz2]
  funext j
  obtain ⟨p, q, rfl⟩ : ∃ (p : Fin 2000) (q : Fin 128), j = ix2 p q := ⟨j 0, j 1, eq_ix2 j⟩
  have ht : t.val < 25 := lt_of_lt_of_eq t.isLt N_0
  refine (hsub_row m c (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t)
    ⟨2000 * t.val + p.val, by omega⟩ p q
    (fun k => (blk0_0_apply (V1 m ρ) c t p k _ rfl).trans (congrFun e.h _))
    ((blk0_1_eq (V1 m ρ) c t).trans e.winv)
    ((blk0_2_eq (V1 m ρ) c t).trans e.binv)
    ((blk0_3_eq (V1 m ρ) c t).trans e.wout)
    ((blk0_4_eq (V1 m ρ) c t).trans e.bout)
    ((blk0_5_eq (V1 m ρ) c t).trans e.wte1)
    ((blk0_6_eq (V1 m ρ) c t).trans e.bte1)
    ((blk0_7_eq (V1 m ρ) c t).trans e.wte2)
    ((blk0_8_eq (V1 m ρ) c t).trans e.bte2)
    ((blk0_9_eq (V1 m ρ) c t).trans e.ln1g)
    ((blk0_10_eq (V1 m ρ) c t).trans e.ln1b)
    ((blk0_11_eq (V1 m ρ) c t).trans e.ln2g)
    ((blk0_12_eq (V1 m ρ) c t).trans e.ln2b)).trans ?_
  exact (read16_at (sHsub m c) t p q _ rfl).symm

/-! ## The reference's projections at a node -/

/-- The reference's query projection at node `n`, lane `q`: the node's normalised features against column `q` of the transposed weight. -/
theorem sQ_at (n : Fin 50000) (q : Fin 128) :
    sQ m c (ix2 n q) = ∑ k : Fin 128, sHsub m c (ix2 n k) * Cert.ReferenceIdeal.Stages.val_main_v73 (F := Ideal) (a15 m c) (ix2 k q) := by
  refine (Cert.ReferenceIdeal.Stages.val_main_v74_apply (a0 m c) (a3 m c) (a4 m c) (a5 m c) (a6 m c) (a7 m c) (a8 m c) (a9 m c) (a10 m c) (a11 m c) (a12 m c) (a13 m c) (a14 m c) (a15 m c) (ix2 n q)).trans ?_
  refine Finset.sum_congr rfl fun k _ => ?_
  have el : Cert.ReferenceIdeal.Stages.lidx_main_v74 (ix2 n q) k = ix2 n k := funext fun a => Fin.ext (by
    match a with
    | ⟨0, _⟩ => rfl
    | ⟨1, _⟩ => rfl)
  have er : Cert.ReferenceIdeal.Stages.ridx_main_v74 (ix2 n q) k = ix2 k q := funext fun a => Fin.ext (by
    match a with
    | ⟨0, _⟩ => rfl
    | ⟨1, _⟩ => rfl)
  rw [el, er]

/-- The reference's key projection at node `n`, lane `q`: the node's normalised features against column `q` of the transposed weight. -/
theorem sK_at (n : Fin 50000) (q : Fin 128) :
    sK m c (ix2 n q) = ∑ k : Fin 128, sHsub m c (ix2 n k) * Cert.ReferenceIdeal.Stages.val_main_v76 (F := Ideal) (a16 m c) (ix2 k q) := by
  refine (Cert.ReferenceIdeal.Stages.val_main_v77_apply (a0 m c) (a3 m c) (a4 m c) (a5 m c) (a6 m c) (a7 m c) (a8 m c) (a9 m c) (a10 m c) (a11 m c) (a12 m c) (a13 m c) (a14 m c) (a16 m c) (ix2 n q)).trans ?_
  refine Finset.sum_congr rfl fun k _ => ?_
  have el : Cert.ReferenceIdeal.Stages.lidx_main_v77 (ix2 n q) k = ix2 n k := funext fun a => Fin.ext (by
    match a with
    | ⟨0, _⟩ => rfl
    | ⟨1, _⟩ => rfl)
  have er : Cert.ReferenceIdeal.Stages.ridx_main_v77 (ix2 n q) k = ix2 k q := funext fun a => Fin.ext (by
    match a with
    | ⟨0, _⟩ => rfl
    | ⟨1, _⟩ => rfl)
  rw [el, er]

/-- The reference's value projection at node `n`, lane `q`: the node's normalised features against column `q` of the transposed weight. -/
theorem sV_at (n : Fin 50000) (q : Fin 128) :
    sV m c (ix2 n q) = ∑ k : Fin 128, sHsub m c (ix2 n k) * Cert.ReferenceIdeal.Stages.val_main_v79 (F := Ideal) (a17 m c) (ix2 k q) := by
  refine (Cert.ReferenceIdeal.Stages.val_main_v80_apply (a0 m c) (a3 m c) (a4 m c) (a5 m c) (a6 m c) (a7 m c) (a8 m c) (a9 m c) (a10 m c) (a11 m c) (a12 m c) (a13 m c) (a14 m c) (a17 m c) (ix2 n q)).trans ?_
  refine Finset.sum_congr rfl fun k _ => ?_
  have el : Cert.ReferenceIdeal.Stages.lidx_main_v80 (ix2 n q) k = ix2 n k := funext fun a => Fin.ext (by
    match a with
    | ⟨0, _⟩ => rfl
    | ⟨1, _⟩ => rfl)
  have er : Cert.ReferenceIdeal.Stages.ridx_main_v80 (ix2 n q) k = ix2 k q := funext fun a => Fin.ext (by
    match a with
    | ⟨0, _⟩ => rfl
    | ⟨1, _⟩ => rfl)
  rw [el, er]

/-! ## The block's projections at a row -/

/-- A weight block loaded whole and cast to its own shape is the block. -/
theorem cast_ld_weight (W : Vec Ideal S128x128 .bf16) :
    (shapeCast S128x128 (View.ld W r0_1) shapeCasts_S128x128_S128x128 : FVec Ideal S128x128 .bf16) = W :=
  (shapeCast_self (s := S128x128) (View.ld W r0_1) shapeCasts_S128x128_S128x128).trans (View.ld_unit_zero (S := S128x128) hz2 _ W)

/-- Row `p` of the block's normalised features against a prepared weight: the sum the reference's projection of node `n` is. -/
theorem proj_row (x0 : Vec Ideal S2000x128 .f32) (x1 : Vec Ideal S128x128 .bf16) (x2 : Vec Ideal S128 .f32) (x3 : Vec Ideal S128x128 .bf16) (x4 : Vec Ideal S128 .f32) (x5 : Vec Ideal S128x512 .bf16) (x6 : Vec Ideal S512 .f32) (x7 : Vec Ideal S512x128 .bf16) (x8 : Vec Ideal S128 .f32) (x9 : Vec Ideal S128 .f32) (x10 : Vec Ideal S128 .f32) (x11 : Vec Ideal S128 .f32) (x12 : Vec Ideal S128 .f32) (W : Vec Ideal S128x128 .bf16)
    (n : Fin 50000) (p : Fin 2000) (q : Fin 128)
    (hrow : ∀ k : Fin 128, x0 (ix2 p k) = a0 m c (ix2 n k))
    (h1 : x1 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v1 (F := Ideal) (a3 m c))))
    (h2 : x2 = (Cert.ReferenceIdeal.Stages.val_main_v3 (F := Ideal) (a4 m c)))
    (h3 : x3 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v7 (F := Ideal) (a5 m c))))
    (h4 : x4 = (a6 m c))
    (h5 : x5 = (((truncf (F := Ideal) .bf16 · bitsLt_bf16_f32) : (⟨S128x512, .f32⟩ : BufTy).Contents (Elt Ideal) → (⟨S128x512, .bf16⟩ : BufTy).Contents (Elt Ideal)) (Cert.ReferenceIdeal.Stages.val_main_v37 (F := Ideal) (a7 m c))))
    (h6 : x6 = (a8 m c))
    (h7 : x7 = (((truncf (F := Ideal) .bf16 · bitsLt_bf16_f32) : (⟨S512x128, .f32⟩ : BufTy).Contents (Elt Ideal) → (⟨S512x128, .bf16⟩ : BufTy).Contents (Elt Ideal)) (Cert.ReferenceIdeal.Stages.val_main_v43 (F := Ideal) (a9 m c))))
    (h8 : x8 = (a10 m c))
    (h9 : x9 = (a11 m c))
    (h10 : x10 = (a12 m c))
    (h11 : x11 = (a13 m c))
    (h12 : x12 = (a14 m c))
    (w : (⟨S128x128, .f32⟩ : BufTy).Contents (Elt Ideal)) (hW : W = (((truncf (F := Ideal) .bf16 · bitsLt_bf16_f32) : (⟨S128x128, .f32⟩ : BufTy).Contents (Elt Ideal) → (⟨S128x128, .bf16⟩ : BufTy).Contents (Elt Ideal)) (w))) :
    matmul dot_S2000x128_S128x128_S2000x128_1_0_0_1_n_n none (truncf (F := Ideal) .bf16 (hsubBlk x0 x1 x2 x3 x4 x5 x6 x7 x8 x9 x10 x11 x12) bitsLt_bf16_f32) (shapeCast S128x128 (View.ld W r0_1) shapeCasts_S128x128_S128x128 : FVec Ideal S128x128 .bf16) (constant (F := Ideal) S2000x128 .f32 0x00000000#32) (ix2 p q)
      = ∑ k : Fin 128, sHsub m c (ix2 n k) * w (ix2 k q) := by
  rw [proj_at]
  refine Finset.sum_congr rfl fun k _ => ?_
  have hl : truncf (F := Ideal) .bf16 (hsubBlk x0 x1 x2 x3 x4 x5 x6 x7 x8 x9 x10 x11 x12) bitsLt_bf16_f32 (ix2 p k) = sHsub m c (ix2 n k) :=
    hsub_row m c x0 x1 x2 x3 x4 x5 x6 x7 x8 x9 x10 x11 x12 n p k hrow h1 h2 h3 h4 h5 h6 h7 h8 h9 h10 h11 h12
  have hr : (shapeCast S128x128 (View.ld W r0_1) shapeCasts_S128x128_S128x128 : FVec Ideal S128x128 .bf16) (ix2 k q) = w (ix2 k q) := by
    rw [cast_ld_weight, hW]
    rfl
  rw [hl, hr]

/-- Row `p` of the block's query projection is the reference's at node `n`. -/
theorem pay2_row (x0 : Vec Ideal S2000x128 .f32) (x1 : Vec Ideal S128x128 .bf16) (x2 : Vec Ideal S128 .f32) (x3 : Vec Ideal S128x128 .bf16) (x4 : Vec Ideal S128 .f32) (x5 : Vec Ideal S128x512 .bf16) (x6 : Vec Ideal S512 .f32) (x7 : Vec Ideal S512x128 .bf16) (x8 : Vec Ideal S128 .f32) (x9 : Vec Ideal S128 .f32) (x10 : Vec Ideal S128 .f32) (x11 : Vec Ideal S128 .f32) (x12 : Vec Ideal S128 .f32) (x13 : Vec Ideal S128x128 .bf16)
    (n : Fin 50000) (p : Fin 2000) (q : Fin 128)
    (hrow : ∀ k : Fin 128, x0 (ix2 p k) = a0 m c (ix2 n k))
    (h1 : x1 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v1 (F := Ideal) (a3 m c))))
    (h2 : x2 = (Cert.ReferenceIdeal.Stages.val_main_v3 (F := Ideal) (a4 m c)))
    (h3 : x3 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v7 (F := Ideal) (a5 m c))))
    (h4 : x4 = (a6 m c))
    (h5 : x5 = (((truncf (F := Ideal) .bf16 · bitsLt_bf16_f32) : (⟨S128x512, .f32⟩ : BufTy).Contents (Elt Ideal) → (⟨S128x512, .bf16⟩ : BufTy).Contents (Elt Ideal)) (Cert.ReferenceIdeal.Stages.val_main_v37 (F := Ideal) (a7 m c))))
    (h6 : x6 = (a8 m c))
    (h7 : x7 = (((truncf (F := Ideal) .bf16 · bitsLt_bf16_f32) : (⟨S512x128, .f32⟩ : BufTy).Contents (Elt Ideal) → (⟨S512x128, .bf16⟩ : BufTy).Contents (Elt Ideal)) (Cert.ReferenceIdeal.Stages.val_main_v43 (F := Ideal) (a9 m c))))
    (h8 : x8 = (a10 m c))
    (h9 : x9 = (a11 m c))
    (h10 : x10 = (a12 m c))
    (h11 : x11 = (a13 m c))
    (h12 : x12 = (a14 m c))
    (h13 : x13 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v73 (F := Ideal) (a15 m c)))) :
    k0_pay2 (F := Ideal) (View.ld x12 r0_2) (k0_pay6 (View.ld x10 r0_2) (k0_pay5 (View.ld x0 r0_0) (View.ld x1 r0_1) (View.ld x2 r0_2) (View.ld x3 r0_1) (View.ld x4 r0_2) (View.ld x9 r0_2)) (View.ld x5 r0_3) (View.ld x6 r0_4) (View.ld x7 r0_5) (View.ld x8 r0_2)) (k0_pay7 (View.ld x11 r0_2)) (View.ld x13 r0_1) (ix2 p q) = sQ m c (ix2 n q) := by
  rw [sQ_at]
  exact proj_row m c x0 x1 x2 x3 x4 x5 x6 x7 x8 x9 x10 x11 x12 x13 n p q hrow h1 h2 h3 h4 h5 h6 h7 h8 h9 h10 h11 h12 _ h13

/-- Row `p` of the block's key projection is the reference's at node `n`. -/
theorem pay3_row (x0 : Vec Ideal S2000x128 .f32) (x1 : Vec Ideal S128x128 .bf16) (x2 : Vec Ideal S128 .f32) (x3 : Vec Ideal S128x128 .bf16) (x4 : Vec Ideal S128 .f32) (x5 : Vec Ideal S128x512 .bf16) (x6 : Vec Ideal S512 .f32) (x7 : Vec Ideal S512x128 .bf16) (x8 : Vec Ideal S128 .f32) (x9 : Vec Ideal S128 .f32) (x10 : Vec Ideal S128 .f32) (x11 : Vec Ideal S128 .f32) (x12 : Vec Ideal S128 .f32) (x14 : Vec Ideal S128x128 .bf16)
    (n : Fin 50000) (p : Fin 2000) (q : Fin 128)
    (hrow : ∀ k : Fin 128, x0 (ix2 p k) = a0 m c (ix2 n k))
    (h1 : x1 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v1 (F := Ideal) (a3 m c))))
    (h2 : x2 = (Cert.ReferenceIdeal.Stages.val_main_v3 (F := Ideal) (a4 m c)))
    (h3 : x3 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v7 (F := Ideal) (a5 m c))))
    (h4 : x4 = (a6 m c))
    (h5 : x5 = (((truncf (F := Ideal) .bf16 · bitsLt_bf16_f32) : (⟨S128x512, .f32⟩ : BufTy).Contents (Elt Ideal) → (⟨S128x512, .bf16⟩ : BufTy).Contents (Elt Ideal)) (Cert.ReferenceIdeal.Stages.val_main_v37 (F := Ideal) (a7 m c))))
    (h6 : x6 = (a8 m c))
    (h7 : x7 = (((truncf (F := Ideal) .bf16 · bitsLt_bf16_f32) : (⟨S512x128, .f32⟩ : BufTy).Contents (Elt Ideal) → (⟨S512x128, .bf16⟩ : BufTy).Contents (Elt Ideal)) (Cert.ReferenceIdeal.Stages.val_main_v43 (F := Ideal) (a9 m c))))
    (h8 : x8 = (a10 m c))
    (h9 : x9 = (a11 m c))
    (h10 : x10 = (a12 m c))
    (h11 : x11 = (a13 m c))
    (h12 : x12 = (a14 m c))
    (h14 : x14 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v76 (F := Ideal) (a16 m c)))) :
    k0_pay3 (F := Ideal) (View.ld x12 r0_2) (k0_pay6 (View.ld x10 r0_2) (k0_pay5 (View.ld x0 r0_0) (View.ld x1 r0_1) (View.ld x2 r0_2) (View.ld x3 r0_1) (View.ld x4 r0_2) (View.ld x9 r0_2)) (View.ld x5 r0_3) (View.ld x6 r0_4) (View.ld x7 r0_5) (View.ld x8 r0_2)) (k0_pay7 (View.ld x11 r0_2)) (View.ld x14 r0_1) (ix2 p q) = sK m c (ix2 n q) := by
  rw [sK_at]
  exact proj_row m c x0 x1 x2 x3 x4 x5 x6 x7 x8 x9 x10 x11 x12 x14 n p q hrow h1 h2 h3 h4 h5 h6 h7 h8 h9 h10 h11 h12 _ h14

/-- Row `p` of the block's value projection is the reference's at node `n`. -/
theorem pay4_row (x0 : Vec Ideal S2000x128 .f32) (x1 : Vec Ideal S128x128 .bf16) (x2 : Vec Ideal S128 .f32) (x3 : Vec Ideal S128x128 .bf16) (x4 : Vec Ideal S128 .f32) (x5 : Vec Ideal S128x512 .bf16) (x6 : Vec Ideal S512 .f32) (x7 : Vec Ideal S512x128 .bf16) (x8 : Vec Ideal S128 .f32) (x9 : Vec Ideal S128 .f32) (x10 : Vec Ideal S128 .f32) (x11 : Vec Ideal S128 .f32) (x12 : Vec Ideal S128 .f32) (x15 : Vec Ideal S128x128 .bf16)
    (n : Fin 50000) (p : Fin 2000) (q : Fin 128)
    (hrow : ∀ k : Fin 128, x0 (ix2 p k) = a0 m c (ix2 n k))
    (h1 : x1 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v1 (F := Ideal) (a3 m c))))
    (h2 : x2 = (Cert.ReferenceIdeal.Stages.val_main_v3 (F := Ideal) (a4 m c)))
    (h3 : x3 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v7 (F := Ideal) (a5 m c))))
    (h4 : x4 = (a6 m c))
    (h5 : x5 = (((truncf (F := Ideal) .bf16 · bitsLt_bf16_f32) : (⟨S128x512, .f32⟩ : BufTy).Contents (Elt Ideal) → (⟨S128x512, .bf16⟩ : BufTy).Contents (Elt Ideal)) (Cert.ReferenceIdeal.Stages.val_main_v37 (F := Ideal) (a7 m c))))
    (h6 : x6 = (a8 m c))
    (h7 : x7 = (((truncf (F := Ideal) .bf16 · bitsLt_bf16_f32) : (⟨S512x128, .f32⟩ : BufTy).Contents (Elt Ideal) → (⟨S512x128, .bf16⟩ : BufTy).Contents (Elt Ideal)) (Cert.ReferenceIdeal.Stages.val_main_v43 (F := Ideal) (a9 m c))))
    (h8 : x8 = (a10 m c))
    (h9 : x9 = (a11 m c))
    (h10 : x10 = (a12 m c))
    (h11 : x11 = (a13 m c))
    (h12 : x12 = (a14 m c))
    (h15 : x15 = (((truncf (F := Ideal) .bf16 · bitsLt_bf16_f32) : (⟨S128x128, .f32⟩ : BufTy).Contents (Elt Ideal) → (⟨S128x128, .bf16⟩ : BufTy).Contents (Elt Ideal)) (Cert.ReferenceIdeal.Stages.val_main_v79 (F := Ideal) (a17 m c)))) :
    k0_pay4 (F := Ideal) (View.ld x12 r0_2) (k0_pay6 (View.ld x10 r0_2) (k0_pay5 (View.ld x0 r0_0) (View.ld x1 r0_1) (View.ld x2 r0_2) (View.ld x3 r0_1) (View.ld x4 r0_2) (View.ld x9 r0_2)) (View.ld x5 r0_3) (View.ld x6 r0_4) (View.ld x7 r0_5) (View.ld x8 r0_2)) (k0_pay7 (View.ld x11 r0_2)) (View.ld x15 r0_1) (ix2 p q) = sV m c (ix2 n q) := by
  rw [sV_at]
  exact proj_row m c x0 x1 x2 x3 x4 x5 x6 x7 x8 x9 x10 x11 x12 x15 n p q hrow h1 h2 h3 h4 h5 h6 h7 h8 h9 h10 h11 h12 _ h15

/-- What point `t` writes back to window 17's array is block `t` of the reference's query projection. -/
theorem flushed17_eq (e : Entry0 m ρ c) (t : Fin cfg0.N) :
    (dat0 (F := Ideal) (V1 m ρ) c).flushed 17 t = ((cfg0.win 17).blk t).view.read (Elt Ideal) (sQ m c) := by
  show (cfg0.win 17).cut (grid0.coords t) ((dat0 (V1 m ρ) c).after 17 t) = _
  rw [after0_17]
  unfold out0_17
  rw [View.canon_unit_zero hz2]
  funext j
  obtain ⟨p, q, rfl⟩ : ∃ (p : Fin 2000) (q : Fin 128), j = ix2 p q := ⟨j 0, j 1, eq_ix2 j⟩
  have ht : t.val < 25 := lt_of_lt_of_eq t.isLt N_0
  refine (pay2_row m c (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t)
    ⟨2000 * t.val + p.val, by omega⟩ p q
    (fun k => (blk0_0_apply (V1 m ρ) c t p k _ rfl).trans (congrFun e.h _))
    ((blk0_1_eq (V1 m ρ) c t).trans e.winv)
    ((blk0_2_eq (V1 m ρ) c t).trans e.binv)
    ((blk0_3_eq (V1 m ρ) c t).trans e.wout)
    ((blk0_4_eq (V1 m ρ) c t).trans e.bout)
    ((blk0_5_eq (V1 m ρ) c t).trans e.wte1)
    ((blk0_6_eq (V1 m ρ) c t).trans e.bte1)
    ((blk0_7_eq (V1 m ρ) c t).trans e.wte2)
    ((blk0_8_eq (V1 m ρ) c t).trans e.bte2)
    ((blk0_9_eq (V1 m ρ) c t).trans e.ln1g)
    ((blk0_10_eq (V1 m ρ) c t).trans e.ln1b)
    ((blk0_11_eq (V1 m ρ) c t).trans e.ln2g)
    ((blk0_12_eq (V1 m ρ) c t).trans e.ln2b)
    ((blk0_13_eq (V1 m ρ) c t).trans e.wq)).trans ?_
  exact (read17_at (sQ m c) t p q _ rfl).symm

/-- What point `t` writes back to window 18's array is block `t` of the reference's key projection. -/
theorem flushed18_eq (e : Entry0 m ρ c) (t : Fin cfg0.N) :
    (dat0 (F := Ideal) (V1 m ρ) c).flushed 18 t = ((cfg0.win 18).blk t).view.read (Elt Ideal) (sK m c) := by
  show (cfg0.win 18).cut (grid0.coords t) ((dat0 (V1 m ρ) c).after 18 t) = _
  rw [after0_18]
  unfold out0_18
  rw [View.canon_unit_zero hz2]
  funext j
  obtain ⟨p, q, rfl⟩ : ∃ (p : Fin 2000) (q : Fin 128), j = ix2 p q := ⟨j 0, j 1, eq_ix2 j⟩
  have ht : t.val < 25 := lt_of_lt_of_eq t.isLt N_0
  refine (pay3_row m c (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 14 t)
    ⟨2000 * t.val + p.val, by omega⟩ p q
    (fun k => (blk0_0_apply (V1 m ρ) c t p k _ rfl).trans (congrFun e.h _))
    ((blk0_1_eq (V1 m ρ) c t).trans e.winv)
    ((blk0_2_eq (V1 m ρ) c t).trans e.binv)
    ((blk0_3_eq (V1 m ρ) c t).trans e.wout)
    ((blk0_4_eq (V1 m ρ) c t).trans e.bout)
    ((blk0_5_eq (V1 m ρ) c t).trans e.wte1)
    ((blk0_6_eq (V1 m ρ) c t).trans e.bte1)
    ((blk0_7_eq (V1 m ρ) c t).trans e.wte2)
    ((blk0_8_eq (V1 m ρ) c t).trans e.bte2)
    ((blk0_9_eq (V1 m ρ) c t).trans e.ln1g)
    ((blk0_10_eq (V1 m ρ) c t).trans e.ln1b)
    ((blk0_11_eq (V1 m ρ) c t).trans e.ln2g)
    ((blk0_12_eq (V1 m ρ) c t).trans e.ln2b)
    ((blk0_14_eq (V1 m ρ) c t).trans e.wk)).trans ?_
  exact (read18_at (sK m c) t p q _ rfl).symm

/-- What point `t` writes back to window 19's array is block `t` of the reference's value projection. -/
theorem flushed19_eq (e : Entry0 m ρ c) (t : Fin cfg0.N) :
    (dat0 (F := Ideal) (V1 m ρ) c).flushed 19 t = ((cfg0.win 19).blk t).view.read (Elt Ideal) (sV m c) := by
  show (cfg0.win 19).cut (grid0.coords t) ((dat0 (V1 m ρ) c).after 19 t) = _
  rw [after0_19]
  unfold out0_19
  rw [View.canon_unit_zero hz2]
  funext j
  obtain ⟨p, q, rfl⟩ : ∃ (p : Fin 2000) (q : Fin 128), j = ix2 p q := ⟨j 0, j 1, eq_ix2 j⟩
  have ht : t.val < 25 := lt_of_lt_of_eq t.isLt N_0
  refine (pay4_row m c (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 15 t)
    ⟨2000 * t.val + p.val, by omega⟩ p q
    (fun k => (blk0_0_apply (V1 m ρ) c t p k _ rfl).trans (congrFun e.h _))
    ((blk0_1_eq (V1 m ρ) c t).trans e.winv)
    ((blk0_2_eq (V1 m ρ) c t).trans e.binv)
    ((blk0_3_eq (V1 m ρ) c t).trans e.wout)
    ((blk0_4_eq (V1 m ρ) c t).trans e.bout)
    ((blk0_5_eq (V1 m ρ) c t).trans e.wte1)
    ((blk0_6_eq (V1 m ρ) c t).trans e.bte1)
    ((blk0_7_eq (V1 m ρ) c t).trans e.wte2)
    ((blk0_8_eq (V1 m ρ) c t).trans e.bte2)
    ((blk0_9_eq (V1 m ρ) c t).trans e.ln1g)
    ((blk0_10_eq (V1 m ρ) c t).trans e.ln1b)
    ((blk0_11_eq (V1 m ρ) c t).trans e.ln2g)
    ((blk0_12_eq (V1 m ρ) c t).trans e.ln2b)
    ((blk0_15_eq (V1 m ρ) c t).trans e.wv)).trans ?_
  exact (read19_at (sV m c) t p q _ rfl).symm

/-! ## The blocks cover the arrays -/

/-- An index of window 16's array is in point `t`'s block iff each coordinate is in the block's range on its axis. -/
theorem mem_blk16 (t : Fin cfg0.N) (i : S50000x128.Idx) :
    i ∈ ((cfg0.win 16).blk t).view.set ↔ ∀ a : Fin 2, win0_16.index t a * S2000x128.size a ≤ (i a).val ∧ (i a).val < win0_16.index t a * S2000x128.size a + S2000x128.size a := by
  show i ∈ ((View.whole main_v20_0).slice (win0_16.rect t)).set ↔ _
  rw [View.set_slice_whole, Rect.mem_set_unit]
  exact Iff.rfl

/-- Row `r` of window 16's array lies in the block of point `r / 2000`. -/
theorem cover16 (i : S50000x128.Idx) :
    ∃ t : Fin cfg0.N, (cfg0.win 16).flush t = true ∧ i ∈ ((cfg0.win 16).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  refine ⟨t, flush0_16 t, ?_⟩
  rw [mem_blk16]
  intro a
  match a with
  | ⟨0, _⟩ => show win0_16.index t (0 : Fin 2) * 2000 ≤ (i 0).val ∧ (i 0).val < win0_16.index t (0 : Fin 2) * 2000 + 2000; rw [(idx_rows0 t).2.2.1, ht]; omega
  | ⟨1, _⟩ => show win0_16.index t (1 : Fin 2) * 128 ≤ (i 1).val ∧ (i 1).val < win0_16.index t (1 : Fin 2) * 128 + 128; rw [(idx_rows0 t).2.2.2.1]; omega

/-- An index of window 17's array is in point `t`'s block iff each coordinate is in the block's range on its axis. -/
theorem mem_blk17 (t : Fin cfg0.N) (i : S50000x128.Idx) :
    i ∈ ((cfg0.win 17).blk t).view.set ↔ ∀ a : Fin 2, win0_17.index t a * S2000x128.size a ≤ (i a).val ∧ (i a).val < win0_17.index t a * S2000x128.size a + S2000x128.size a := by
  show i ∈ ((View.whole main_v20_1).slice (win0_17.rect t)).set ↔ _
  rw [View.set_slice_whole, Rect.mem_set_unit]
  exact Iff.rfl

/-- Row `r` of window 17's array lies in the block of point `r / 2000`. -/
theorem cover17 (i : S50000x128.Idx) :
    ∃ t : Fin cfg0.N, (cfg0.win 17).flush t = true ∧ i ∈ ((cfg0.win 17).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  refine ⟨t, flush0_17 t, ?_⟩
  rw [mem_blk17]
  intro a
  match a with
  | ⟨0, _⟩ => show win0_17.index t (0 : Fin 2) * 2000 ≤ (i 0).val ∧ (i 0).val < win0_17.index t (0 : Fin 2) * 2000 + 2000; rw [(idx_rows0 t).2.2.2.2.1, ht]; omega
  | ⟨1, _⟩ => show win0_17.index t (1 : Fin 2) * 128 ≤ (i 1).val ∧ (i 1).val < win0_17.index t (1 : Fin 2) * 128 + 128; rw [(idx_rows0 t).2.2.2.2.2.1]; omega

/-- An index of window 18's array is in point `t`'s block iff each coordinate is in the block's range on its axis. -/
theorem mem_blk18 (t : Fin cfg0.N) (i : S50000x128.Idx) :
    i ∈ ((cfg0.win 18).blk t).view.set ↔ ∀ a : Fin 2, win0_18.index t a * S2000x128.size a ≤ (i a).val ∧ (i a).val < win0_18.index t a * S2000x128.size a + S2000x128.size a := by
  show i ∈ ((View.whole main_v20_2).slice (win0_18.rect t)).set ↔ _
  rw [View.set_slice_whole, Rect.mem_set_unit]
  exact Iff.rfl

/-- Row `r` of window 18's array lies in the block of point `r / 2000`. -/
theorem cover18 (i : S50000x128.Idx) :
    ∃ t : Fin cfg0.N, (cfg0.win 18).flush t = true ∧ i ∈ ((cfg0.win 18).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  refine ⟨t, flush0_18 t, ?_⟩
  rw [mem_blk18]
  intro a
  match a with
  | ⟨0, _⟩ => show win0_18.index t (0 : Fin 2) * 2000 ≤ (i 0).val ∧ (i 0).val < win0_18.index t (0 : Fin 2) * 2000 + 2000; rw [(idx_rows0 t).2.2.2.2.2.2.1, ht]; omega
  | ⟨1, _⟩ => show win0_18.index t (1 : Fin 2) * 128 ≤ (i 1).val ∧ (i 1).val < win0_18.index t (1 : Fin 2) * 128 + 128; rw [(idx_rows0 t).2.2.2.2.2.2.2.1]; omega

/-- An index of window 19's array is in point `t`'s block iff each coordinate is in the block's range on its axis. -/
theorem mem_blk19 (t : Fin cfg0.N) (i : S50000x128.Idx) :
    i ∈ ((cfg0.win 19).blk t).view.set ↔ ∀ a : Fin 2, win0_19.index t a * S2000x128.size a ≤ (i a).val ∧ (i a).val < win0_19.index t a * S2000x128.size a + S2000x128.size a := by
  show i ∈ ((View.whole main_v20_3).slice (win0_19.rect t)).set ↔ _
  rw [View.set_slice_whole, Rect.mem_set_unit]
  exact Iff.rfl

/-- Row `r` of window 19's array lies in the block of point `r / 2000`. -/
theorem cover19 (i : S50000x128.Idx) :
    ∃ t : Fin cfg0.N, (cfg0.win 19).flush t = true ∧ i ∈ ((cfg0.win 19).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  refine ⟨t, flush0_19 t, ?_⟩
  rw [mem_blk19]
  intro a
  match a with
  | ⟨0, _⟩ => show win0_19.index t (0 : Fin 2) * 2000 ≤ (i 0).val ∧ (i 0).val < win0_19.index t (0 : Fin 2) * 2000 + 2000; rw [(idx_rows0 t).2.2.2.2.2.2.2.2.1, ht]; omega
  | ⟨1, _⟩ => show win0_19.index t (1 : Fin 2) * 128 ≤ (i 1).val ∧ (i 1).val < win0_19.index t (1 : Fin 2) * 128 + 128; rw [(idx_rows0 t).2.2.2.2.2.2.2.2.2]; omega

end Region0

theorem region0_value (e : Entry0 m ρ c) : Out0 m ρ c := by
  refine ⟨?_, ?_, ?_, ?_⟩
  · exact (dat0 (F := Ideal) (V1 m ρ) c).arrAt_eq_of_cover 16 (sHsub m c) (fun t _ => Region0.flushed16_eq m ρ c e t) Region0.cover16
  · exact (dat0 (F := Ideal) (V1 m ρ) c).arrAt_eq_of_cover 17 (sQ m c) (fun t _ => Region0.flushed17_eq m ρ c e t) Region0.cover17
  · exact (dat0 (F := Ideal) (V1 m ρ) c).arrAt_eq_of_cover 18 (sK m c) (fun t _ => Region0.flushed18_eq m ρ c e t) Region0.cover18
  · exact (dat0 (F := Ideal) (V1 m ρ) c).arrAt_eq_of_cover 19 (sV m c) (fun t _ => Region0.flushed19_eq m ρ c e t) Region0.cover19

end Cert.Bridge

end
-- ==== Proof.Host1.lean ====
/-
  Stretch 1: the three gathers.
-/
import proofs.«426868_j52097953300855_3_alg».proof.Proof.Interfaces
import Idealize.ShloMosaic.Lib.StableHlo.Run
set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat Cfg Window)

variable (m : Mem) (ρ : Dev Cert.KernelIdeal.nD → PrngReg) (c : Dev Cert.KernelIdeal.nD)

/-- Argument 1 is as launched when stretch 1 begins: neither stretch 0 nor region 0 writes it. -/
private theorem W2_arg1 : W2 (F := Ideal) m ρ c (Proc.devRef .tc main_arg1) = a1 m c :=
  calc W2 (F := Ideal) m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = a1 m c := rfl

/-- Argument 2 is as launched when stretch 1 begins: neither stretch 0 nor region 0 writes it. -/
private theorem W2_arg2 : W2 (F := Ideal) m ρ c (Proc.devRef .tc main_arg2) = a2 m c :=
  calc W2 (F := Ideal) m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = a2 m c := rfl

/-- The keys gathered at each edge's source node. -/
private theorem host1_ks (o : Out0 m ρ c) : V3 (F := Ideal) m ρ c main_v30 = sKsrc m c := by
  have hA : W2 (F := Ideal) m ρ c (Proc.devRef .tc main_v20_2) = sK m c := (W2_arr m ρ c 18).trans o.k
  have hI := W2_arg1 m ρ c
  show StableHlo.after hostOps1 (W2 (F := Ideal) m ρ c) (Proc.devRef .tc main_v30) = _
  after_results_simp
  rw [hA, hI]
  change _ = Host.gather _ (shapeCast _ (sK m c) _) (Cert.ReferenceIdeal.Stages.val_main_v87 (F := Ideal) (a1 m c))
  generalize sK m c = y
  generalize a1 m c = x
  rfl

/-- The queries gathered at each edge's destination node. -/
private theorem host1_qd (o : Out0 m ρ c) : V3 (F := Ideal) m ρ c main_v37 = sQdst m c := by
  have hA : W2 (F := Ideal) m ρ c (Proc.devRef .tc main_v20_1) = sQ m c := (W2_arr m ρ c 17).trans o.q
  have hI := W2_arg2 m ρ c
  show StableHlo.after hostOps1 (W2 (F := Ideal) m ρ c) (Proc.devRef .tc main_v37) = _
  after_results_simp
  rw [hA, hI]
  change _ = Host.gather _ (shapeCast _ (sQ m c) _) (Cert.ReferenceIdeal.Stages.val_main_v94 (F := Ideal) (a2 m c))
  generalize sQ m c = y
  generalize a2 m c = x
  rfl

/-- The values gathered at each edge's source node. -/
private theorem host1_vs (o : Out0 m ρ c) : V3 (F := Ideal) m ρ c main_v44 = sVsrc m c := by
  have hA : W2 (F := Ideal) m ρ c (Proc.devRef .tc main_v20_3) = sV m c := (W2_arr m ρ c 19).trans o.v
  have hI := W2_arg1 m ρ c
  show StableHlo.after hostOps1 (W2 (F := Ideal) m ρ c) (Proc.devRef .tc main_v44) = _
  after_results_simp
  rw [hA, hI]
  change _ = Host.gather _ (shapeCast _ (sV m c) _) (Cert.ReferenceIdeal.Stages.val_main_v107 (F := Ideal) (a1 m c))
  generalize sV m c = y
  generalize a1 m c = x
  rfl

theorem host1_value (o : Out0 m ρ c) : Entry1 m ρ c := by
  exact ⟨host1_ks m ρ c o, host1_qd m ρ c o, host1_vs m ρ c o⟩

end Cert.Bridge

end
-- ==== Proof.Region1.lean ====
/-
  Region 1 against the reference's edge stage.

  Per edge e and head h the region computes  s(e,h) = exp(min(5, max(-5, (Σ_d K[e,h,d]·Q[e,h,d]) · ¼)))
  from the gathered keys K and queries Q, and  V[e,h,d] · s(e,h)  from the gathered values V.
  The reference computes  exp(min(5, max(-5, (0 + Σ_d K·Q) / 4)))  and the same product.  The one
  law between them is  x / 4 = x · ¼  on every extended real; the clip and the exponential are the
  same operations in the same order.  A block of the region is four hundred consecutive edges, block
  t starting at edge 400·t, all heads and lanes; the blocks tile the arrays, so each output array is
  one function of the input arrays, index by index.
-/
import proofs.«426868_j52097953300855_3_alg».proof.Proof.Interfaces
import proofs.«426868_j52097953300855_3_alg».proof.Proof.Consts
import Idealize.ShloMosaic.Lib.Pipeline.Value
import Idealize.ShloMosaic.Lib.ValueIdx
import Idealize.ShloMosaic.PureOps.Ideal.Laws
set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat Cfg Window)

variable (m : Mem) (ρ : Dev Cert.KernelIdeal.nD → PrngReg) (c : Dev Cert.KernelIdeal.nD)

namespace EdgeScore

open ValueIdx

/-! ## The body's two results at an index of a block -/

/-- The sum over the sixteen lanes of a head. -/
theorem headSum (src : FVec Ideal S400x8x16 .f32) (hφ : FKind.Formats .f32)
    (hacc : (0x00000000#32 : BitVec 32) = 0x00000000#32) (p : Fin 400) (q : Fin 8) :
    multiReduction (F := Ideal) (φ := .f32) .add [2] S400x8 src 0x00000000#32 reduces_S400x8x16_S400x8 hφ hacc (ix2 p q)
      = ∑ k : Fin 16, src (ix3 p q k) :=
  (Ideal.multiReduction_add_single src 0x00000000#32 reduces_S400x8x16_S400x8 hφ hacc (ix2 p q)).trans
    (Finset.sum_congr rfl fun k _ => congrArg src (funext fun a => Fin.ext (by
      match a with | ⟨0, _⟩ => rfl | ⟨1, _⟩ => rfl | ⟨2, _⟩ => rfl)))

/-- The score of edge p of a block at head q: the clipped, scaled head-wise product, exponentiated. -/
theorem pay1_apply (x0 x1 : Vec Ideal S400x8x16 .f32) (p : Fin 400) (q : Fin 8) :
    k1_pay1 (F := Ideal) x0 x1 (ix2 p q)
      = Ideal.exp (min (Ideal.ofBits .f32 0x40A00000#32) (max (Ideal.ofBits .f32 0xC0A00000#32)
          ((∑ k : Fin 16, x0 (ix3 p q k) * x1 (ix3 p q k)) * Ideal.ofBits .f32 0x3E800000#32))) := by
  unfold k1_pay1
  simp only [shapeCast_self]
  refine congrArg (fun s : EReal => Ideal.exp (min (Ideal.ofBits .f32 0x40A00000#32) (max (Ideal.ofBits .f32 0xC0A00000#32) (s * Ideal.ofBits .f32 0x3E800000#32)))) ?_
  exact headSum (mulf x0 x1) _ _ p q

/-- A column [400, 8] read as [400, 8, 1]. -/
theorem col_apply (y : FVec Ideal S400x8 .f32) (h : S400x8.ShapeCasts S400x8x1) (p : Fin 400) (q : Fin 8) (u : Fin 1) :
    shapeCast S400x8x1 y h (ix3 p q u) = y (ix2 p q) :=
  shapeCast_apply y h (ix3 p q u) (ix2 p q) (by
    rw [Shape.rowMajor_val_two, Shape.rowMajor_val_three]
    show p.val * 8 + q.val = (p.val * 8 + q.val) * 1 + u.val
    omega)

/-- [400, 8, 1] spread over the sixteen lanes. -/
theorem spread_apply (y : FVec Ideal S400x8x1 .f32) (h : S400x8x1.Broadcasts S400x8x16) (p : Fin 400) (q : Fin 8) (d : Fin 16) :
    broadcastTo S400x8x16 y h (ix3 p q d) = y (ix3 p q (0 : Fin 1)) :=
  broadcastTo_apply y h (ix3 p q d) (ix3 p q (0 : Fin 1)) (fun a => by
    match a with
    | ⟨0, _⟩ => rfl
    | ⟨1, _⟩ => rfl
    | ⟨2, _⟩ => rfl)

/-- The weighted value of edge p of a block at head q, lane d: the value times the edge's score at that head. -/
theorem pay2_apply (x0 x1 x2 : Vec Ideal S400x8x16 .f32) (p : Fin 400) (q : Fin 8) (d : Fin 16) :
    k1_pay2 (F := Ideal) x0 x1 x2 (ix3 p q d) = x2 (ix3 p q d) * k1_pay1 (F := Ideal) x0 x1 (ix2 p q) := by
  unfold k1_pay2
  simp only [shapeCast_self]
  show x2 (ix3 p q d) * broadcastTo S400x8x16 (shapeCast S400x8x1 (k1_pay1 (F := Ideal) x0 x1) shapeCasts_S400x8_S400x8x1) broadcasts_S400x8x1_S400x8x16 (ix3 p q d) = _
  rw [spread_apply, col_apply]

/-! ## The two results as functions of whole arrays -/

/-- The score of edge e at head h, from the gathered keys and queries. -/
def scoreAt (ks qd : (⟨S500000x8x16, .f32⟩ : BufTy).Contents (Elt Ideal)) (e : Fin 500000) (h : Fin 8) : EReal :=
  Ideal.exp (min (Ideal.ofBits .f32 0x40A00000#32) (max (Ideal.ofBits .f32 0xC0A00000#32)
    ((∑ k : Fin 16, ks (ix3 e h k) * qd (ix3 e h k)) * Ideal.ofBits .f32 0x3E800000#32)))

/-- The scores as an array [500000, 8]. -/
def scoreOf (ks qd : (⟨S500000x8x16, .f32⟩ : BufTy).Contents (Elt Ideal)) : (⟨S500000x8, .f32⟩ : BufTy).Contents (Elt Ideal) :=
  fun i => scoreAt ks qd (i 0) (i 1)

/-- The weighted values as an array [500000, 8, 16]. -/
def wvOf (ks qd vs : (⟨S500000x8x16, .f32⟩ : BufTy).Contents (Elt Ideal)) : (⟨S500000x8x16, .f32⟩ : BufTy).Contents (Elt Ideal) :=
  fun i => vs i * scoreAt ks qd (i 0) (i 1)

/-! ## The reference's stages are these functions -/

/-- Dividing by four is multiplying by a quarter, on every extended real. -/
theorem quarter_law (x : EReal) :
    Ideal.div x (Ideal.ofBits .f32 0x40800000#32) = x * Ideal.ofBits .f32 0x3E800000#32 := by
  rw [Consts.ofBits_four, Consts.ofBits_quarter]
  exact Ideal.div_coe (by norm_num : (4 : ℝ) ≠ 0) x

open Cert.ReferenceIdeal.Stages in
/-- The reference's score stage is the score function of its gathered keys and queries. -/
theorem ref_score : sScore m c = scoreOf (sKsrc m c) (sQdst m c) := by
  funext i
  obtain ⟨e, h, rfl⟩ : ∃ (e : Fin 500000) (h : Fin 8), i = ix2 e h := ⟨i 0, i 1, eq_ix2 i⟩
  have hidx : ∀ k : Fin 16, idx_main_v97 (ix2 e h) k = ix3 e h k := fun k =>
    funext fun a => Fin.ext (by match a with | ⟨0, _⟩ => rfl | ⟨1, _⟩ => rfl | ⟨2, _⟩ => rfl)
  unfold sScore
  rw [val_main_v101_apply, val_main_v100_apply, val_main_call1_v2_apply, val_main_v99_apply, val_main_v97_apply, val_main_v98_apply, val_main_call1_v4_apply, val_main_call1_v1_apply]
  simp only [val_main_v96_apply, val_main_call1_v3_apply, val_main_call1_v0_apply, val_main_cst_12_apply, val_main_cst_13_apply, val_main_cst_14_apply, val_main_cst_15_apply, hidx,
    Ideal.hostUnary_exp_def, Ideal.minimumf_def, Ideal.maximumf_def, Ideal.hostDivf_def, Ideal.mulf_def, Ideal.ofBits_def, Ideal.ofBits_zero_f32, zero_add, quarter_law]
  rfl

open Cert.ReferenceIdeal.Stages in
/-- The reference's weighted-value stage is the gathered value times the score of its edge and head. -/
theorem ref_wv : sWv m c = wvOf (sKsrc m c) (sQdst m c) (sVsrc m c) := by
  funext i
  obtain ⟨e, h, d, rfl⟩ : ∃ (e : Fin 500000) (h : Fin 8) (d : Fin 16), i = ix3 e h d := ⟨i 0, i 1, i 2, eq_ix3 i⟩
  have hidx : idx_main_v109 (idx_main_v110 (ix3 e h d)) = ix2 e h :=
    funext fun a => Fin.ext (by match a with | ⟨0, _⟩ => rfl | ⟨1, _⟩ => rfl)
  unfold sWv
  rw [val_main_v111_apply, val_main_v110_apply, val_main_v109_apply, hidx]
  have hs := congrFun (ref_score m c) (ix2 e h)
  unfold sScore at hs
  rw [hs]
  rfl

/-! ## From blocks to the arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps of the five windows over the grid: block t of every window starts at edge 400 t
    and takes all heads and lanes. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 2) = t.val ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

section
-- the arrays as the region finds them, kept a variable: nothing below opens them
variable (V : (c : Dev nD) → (b : Ref sig .tc) → Buf (Elt Ideal) ((c : Thread nD τ).loc b))

/-- What point t writes back to the score array is block t of the score function of the input arrays. -/
theorem flushed3_eq (t : Fin cfg1.N) :
    (dat1 V c).flushed 3 t = ((cfg1.win 3).blk t).view.read (Elt Ideal) (scoreOf (V c main_v30) (V c main_v37)) := by
  show (cfg1.win 3).cut (grid1.coords t) ((dat1 V c).after 3 t) = _
  rw [after1_3]
  unfold out1_3
  rw [View.canon_unit_zero hz2]
  simp only [View.ld_unit_zero (S := S400x8x16) hz3]
  obtain ⟨e00, e01, e02, e10, e11, e12, e20, e21, e22, e30, e31, e40, e41, e42⟩ := idx_facts1 t
  funext j
  show k1_pay1 (F := Ideal) (iblk1 V c 0 t) (iblk1 V c 1 t) j = scoreOf (V c main_v30) (V c main_v37) (((cfg1.win 3).blk t).view.emb j)
  refine (congrArg (k1_pay1 (F := Ideal) (iblk1 V c 0 t) (iblk1 V c 1 t)) (eq_ix2 j)).trans ((pay1_apply _ _ (j 0) (j 1)).trans ?_)
  unfold scoreOf scoreAt
  refine congrArg (fun s : EReal => Ideal.exp (min (Ideal.ofBits .f32 0x40A00000#32) (max (Ideal.ofBits .f32 0xC0A00000#32) (s * Ideal.ofBits .f32 0x3E800000#32)))) ?_
  refine Finset.sum_congr rfl fun k _ => ?_
  have h0 : ((cfg1.win 0).blk t).view.emb (ix3 (j 0) (j 1) k) = ix3 (((cfg1.win 3).blk t).view.emb j 0) (((cfg1.win 3).blk t).view.emb j 1) k := by
    funext a; apply Fin.ext
    match a with
    | ⟨0, _⟩ => show win1_0.index t (0 : Fin 3) * 400 + 1 * (j 0).val = win1_3.index t (0 : Fin 2) * 400 + 1 * (j 0).val; omega
    | ⟨1, _⟩ => show win1_0.index t (1 : Fin 3) * 8 + 1 * (j 1).val = win1_3.index t (1 : Fin 2) * 8 + 1 * (j 1).val; omega
    | ⟨2, _⟩ => show win1_0.index t (2 : Fin 3) * 16 + 1 * k.val = k.val; omega
  have h1 : ((cfg1.win 1).blk t).view.emb (ix3 (j 0) (j 1) k) = ix3 (((cfg1.win 3).blk t).view.emb j 0) (((cfg1.win 3).blk t).view.emb j 1) k := by
    funext a; apply Fin.ext
    match a with
    | ⟨0, _⟩ => show win1_1.index t (0 : Fin 3) * 400 + 1 * (j 0).val = win1_3.index t (0 : Fin 2) * 400 + 1 * (j 0).val; omega
    | ⟨1, _⟩ => show win1_1.index t (1 : Fin 3) * 8 + 1 * (j 1).val = win1_3.index t (1 : Fin 2) * 8 + 1 * (j 1).val; omega
    | ⟨2, _⟩ => show win1_1.index t (2 : Fin 3) * 16 + 1 * k.val = k.val; omega
  refine congrArg₂ (fun a b : EReal => a * b) ?_ ?_
  · exact congrArg (V c main_v30) h0
  · exact congrArg (V c main_v37) h1

/-- What point t writes back to the weighted-value array is block t of the weighted-value function of the
    input arrays. -/
theorem flushed4_eq (t : Fin cfg1.N) :
    (dat1 V c).flushed 4 t = ((cfg1.win 4).blk t).view.read (Elt Ideal) (wvOf (V c main_v30) (V c main_v37) (V c main_v44)) := by
  show (cfg1.win 4).cut (grid1.coords t) ((dat1 V c).after 4 t) = _
  rw [after1_4]
  unfold out1_4
  rw [View.canon_unit_zero hz3]
  simp only [View.ld_unit_zero (S := S400x8x16) hz3]
  obtain ⟨e00, e01, e02, e10, e11, e12, e20, e21, e22, e30, e31, e40, e41, e42⟩ := idx_facts1 t
  funext j
  show k1_pay2 (F := Ideal) (iblk1 V c 0 t) (iblk1 V c 1 t) (iblk1 V c 2 t) j
    = wvOf (V c main_v30) (V c main_v37) (V c main_v44) (((cfg1.win 4).blk t).view.emb j)
  refine (congrArg (k1_pay2 (F := Ideal) (iblk1 V c 0 t) (iblk1 V c 1 t) (iblk1 V c 2 t)) (eq_ix3 j)).trans
    ((pay2_apply _ _ _ (j 0) (j 1) (j 2)).trans ?_)
  unfold wvOf scoreAt
  have h2 : ((cfg1.win 2).blk t).view.emb (ix3 (j 0) (j 1) (j 2)) = ((cfg1.win 4).blk t).view.emb j := by
    funext a; apply Fin.ext
    match a with
    | ⟨0, _⟩ => show win1_2.index t (0 : Fin 3) * 400 + 1 * (j 0).val = win1_4.index t (0 : Fin 3) * 400 + 1 * (j 0).val; omega
    | ⟨1, _⟩ => show win1_2.index t (1 : Fin 3) * 8 + 1 * (j 1).val = win1_4.index t (1 : Fin 3) * 8 + 1 * (j 1).val; omega
    | ⟨2, _⟩ => show win1_2.index t (2 : Fin 3) * 16 + 1 * (j 2).val = win1_4.index t (2 : Fin 3) * 16 + 1 * (j 2).val; omega
  refine congrArg₂ (fun a b : EReal => a * b) (congrArg (V c main_v44) h2) ((pay1_apply _ _ (j 0) (j 1)).trans ?_)
  refine congrArg (fun s : EReal => Ideal.exp (min (Ideal.ofBits .f32 0x40A00000#32) (max (Ideal.ofBits .f32 0xC0A00000#32) (s * Ideal.ofBits .f32 0x3E800000#32)))) ?_
  refine Finset.sum_congr rfl fun k _ => ?_
  have h0 : ((cfg1.win 0).blk t).view.emb (ix3 (j 0) (j 1) k) = ix3 (((cfg1.win 4).blk t).view.emb j 0) (((cfg1.win 4).blk t).view.emb j 1) k := by
    funext a; apply Fin.ext
    match a with
    | ⟨0, _⟩ => show win1_0.index t (0 : Fin 3) * 400 + 1 * (j 0).val = win1_4.index t (0 : Fin 3) * 400 + 1 * (j 0).val; omega
    | ⟨1, _⟩ => show win1_0.index t (1 : Fin 3) * 8 + 1 * (j 1).val = win1_4.index t (1 : Fin 3) * 8 + 1 * (j 1).val; omega
    | ⟨2, _⟩ => show win1_0.index t (2 : Fin 3) * 16 + 1 * k.val = k.val; omega
  have h1 : ((cfg1.win 1).blk t).view.emb (ix3 (j 0) (j 1) k) = ix3 (((cfg1.win 4).blk t).view.emb j 0) (((cfg1.win 4).blk t).view.emb j 1) k := by
    funext a; apply Fin.ext
    match a with
    | ⟨0, _⟩ => show win1_1.index t (0 : Fin 3) * 400 + 1 * (j 0).val = win1_4.index t (0 : Fin 3) * 400 + 1 * (j 0).val; omega
    | ⟨1, _⟩ => show win1_1.index t (1 : Fin 3) * 8 + 1 * (j 1).val = win1_4.index t (1 : Fin 3) * 8 + 1 * (j 1).val; omega
    | ⟨2, _⟩ => show win1_1.index t (2 : Fin 3) * 16 + 1 * k.val = k.val; omega
  exact congrArg₂ (fun a b : EReal => a * b) (congrArg (V c main_v30) h0) (congrArg (V c main_v37) h1)

end

/-- An edge and head lie in block t of the score array iff each coordinate is in the block's range. -/
theorem mem_blk3 (t : Fin cfg1.N) (i : S500000x8.Idx) :
    i ∈ ((cfg1.win 3).blk t).view.set ↔ ∀ a : Fin 2, win1_3.index t a * S400x8.size a ≤ (i a).val ∧ (i a).val < win1_3.index t a * S400x8.size a + S400x8.size a := by
  show i ∈ ((View.whole main_v45_0).slice (win1_3.rect t)).set ↔ _
  rw [View.set_slice_whole, Rect.mem_set_unit]
  exact Iff.rfl

/-- The same for the weighted values. -/
theorem mem_blk4 (t : Fin cfg1.N) (i : S500000x8x16.Idx) :
    i ∈ ((cfg1.win 4).blk t).view.set ↔ ∀ a : Fin 3, win1_4.index t a * S400x8x16.size a ≤ (i a).val ∧ (i a).val < win1_4.index t a * S400x8x16.size a + S400x8x16.size a := by
  show i ∈ ((View.whole main_v45_1).slice (win1_4.rect t)).set ↔ _
  rw [View.set_slice_whole, Rect.mem_set_unit]
  exact Iff.rfl

/-- The block that holds edge r is block r / 400, one of the grid's 1250. -/
theorem point_lt (r : Nat) (hr : r < 500000) : r / 400 < cfg1.N := by
  rw [show cfg1.N = 1250 from N_1]; omega

/-- Every entry of the score array is in some block. -/
theorem cover3 (i : S500000x8.Idx) :
    ∃ t : Fin cfg1.N, (cfg1.win 3).flush t = true ∧ i ∈ ((cfg1.win 3).blk t).view.set := by
  have hi0 : (i 0).val < 500000 := (i 0).isLt
  have hi1 : (i 1).val < 8 := (i 1).isLt
  obtain ⟨e00, e01, e02, e10, e11, e12, e20, e21, e22, e30, e31, e40, e41, e42⟩ := idx_facts1 ⟨(i 0).val / 400, point_lt _ hi0⟩
  refine ⟨⟨(i 0).val / 400, point_lt _ hi0⟩, flush1_3 _, ?_⟩
  rw [mem_blk3]
  intro a
  match a with
  | ⟨0, _⟩ =>
    show win1_3.index ⟨(i 0).val / 400, point_lt _ hi0⟩ (0 : Fin 2) * 400 ≤ (i 0).val ∧ (i 0).val < win1_3.index ⟨(i 0).val / 400, point_lt _ hi0⟩ (0 : Fin 2) * 400 + 400
    rw [e30]; show (i 0).val / 400 * 400 ≤ (i 0).val ∧ (i 0).val < (i 0).val / 400 * 400 + 400; omega
  | ⟨1, _⟩ =>
    show win1_3.index ⟨(i 0).val / 400, point_lt _ hi0⟩ (1 : Fin 2) * 8 ≤ (i 1).val ∧ (i 1).val < win1_3.index ⟨(i 0).val / 400, point_lt _ hi0⟩ (1 : Fin 2) * 8 + 8
    rw [e31]; omega

/-- Every entry of the weighted-value array is in some block. -/
theorem cover4 (i : S500000x8x16.Idx) :
    ∃ t : Fin cfg1.N, (cfg1.win 4).flush t = true ∧ i ∈ ((cfg1.win 4).blk t).view.set := by
  have hi0 : (i 0).val < 500000 := (i 0).isLt
  have hi1 : (i 1).val < 8 := (i 1).isLt
  have hi2 : (i 2).val < 16 := (i 2).isLt
  obtain ⟨e00, e01, e02, e10, e11, e12, e20, e21, e22, e30, e31, e40, e41, e42⟩ := idx_facts1 ⟨(i 0).val / 400, point_lt _ hi0⟩
  refine ⟨⟨(i 0).val / 400, point_lt _ hi0⟩, flush1_4 _, ?_⟩
  rw [mem_blk4]
  intro a
  match a with
  | ⟨0, _⟩ =>
    show win1_4.index ⟨(i 0).val / 400, point_lt _ hi0⟩ (0 : Fin 3) * 400 ≤ (i 0).val ∧ (i 0).val < win1_4.index ⟨(i 0).val / 400, point_lt _ hi0⟩ (0 : Fin 3) * 400 + 400
    rw [e40]; show (i 0).val / 400 * 400 ≤ (i 0).val ∧ (i 0).val < (i 0).val / 400 * 400 + 400; omega
  | ⟨1, _⟩ =>
    show win1_4.index ⟨(i 0).val / 400, point_lt _ hi0⟩ (1 : Fin 3) * 8 ≤ (i 1).val ∧ (i 1).val < win1_4.index ⟨(i 0).val / 400, point_lt _ hi0⟩ (1 : Fin 3) * 8 + 8
    rw [e41]; omega
  | ⟨2, _⟩ =>
    show win1_4.index ⟨(i 0).val / 400, point_lt _ hi0⟩ (2 : Fin 3) * 16 ≤ (i 2).val ∧ (i 2).val < win1_4.index ⟨(i 0).val / 400, point_lt _ hi0⟩ (2 : Fin 3) * 16 + 16
    rw [e42]; omega

section
variable (V : (c : Dev nD) → (b : Ref sig .tc) → Buf (Elt Ideal) ((c : Thread nD τ).loc b))

/-- The score array after the region is the score function of the region's input arrays. -/
theorem final3 : (dat1 V c).arrAt 3 cfg1.N = scoreOf (V c main_v30) (V c main_v37) :=
  (dat1 V c).arrAt_eq_of_cover 3 (scoreOf (V c main_v30) (V c main_v37)) (fun t _ => flushed3_eq c V t) cover3

/-- The weighted-value array after the region, likewise. -/
theorem final4 : (dat1 V c).arrAt 4 cfg1.N = wvOf (V c main_v30) (V c main_v37) (V c main_v44) :=
  (dat1 V c).arrAt_eq_of_cover 4 (wvOf (V c main_v30) (V c main_v37) (V c main_v44)) (fun t _ => flushed4_eq c V t) cover4

end

end EdgeScore

open EdgeScore in
theorem region1_value (e : Entry1 m ρ c) : Out1 m ρ c :=
  ⟨(final3 c (V3 m ρ)).trans ((congrArg₂ scoreOf e.ks e.qd).trans (ref_score m c).symm),
   (final4 c (V3 m ρ)).trans ((congrArg₂ (fun k q => wvOf k q (V3 m ρ c main_v44)) e.ks e.qd).trans
     ((congrArg (wvOf (sKsrc m c) (sQdst m c)) e.vs).trans (ref_wv m c).symm))⟩

end Cert.Bridge

end
-- ==== Proof.Host2.lean ====
/-
  Stretch 2: the segment sums, the attention quotient, the batch statistics.

  Both programs apply the same operations to the edge scores, the weighted values, the normalised node
  features and the destination indices. They are named once here (`attnSum`, `colMean`, `colRs`); each
  side is shown to be these functions of its own operands, and the operands agree by the earlier pieces.
-/
import proofs.«426868_j52097953300855_3_alg».proof.Proof.Interfaces
import Idealize.ShloMosaic.Lib.StableHlo.Run
set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat Cfg Window)

variable (m : Mem) (ρ : Dev Cert.KernelIdeal.nD → PrngReg) (c : Dev Cert.KernelIdeal.nD)

/-- A buffer that no operation of a literal line writes keeps its contents. -/
local macro "unwritten" l:ident : tactic =>
  `(tactic| (refine StableHlo.after_of_forall_not_mem _ _ (List.forall_iff_forall_mem.mp ?_)
             simp only [$l:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

namespace Host2

/-! ## The shared operations -/

/-- Per destination node: the weighted values summed over the node's incoming edges, divided by the summed scores,
    laid out as a row of 128 lanes and added to the node's features. -/
def attnSum (wv : (⟨S500000x8x16, .f32⟩ : BufTy).Contents (Elt Ideal)) (sc : (⟨S500000x8, .f32⟩ : BufTy).Contents (Elt Ideal))
    (h : (⟨S50000x128, .f32⟩ : BufTy).Contents (Elt Ideal)) (dst : (⟨S500000, .i32⟩ : BufTy).Contents (Elt Ideal)) :
    (⟨S50000x128, .f32⟩ : BufTy).Contents (Elt Ideal) :=
  addf h (shapeCast _
    (Host.divf
      (Host.scatterAdd scatter_S50000x8x16_S500000x1_S500000x8x16_12_0_0_1
        (broadcastInDim S50000x8x16 ![] bcast_S_S50000x8x16 (constant (F := Ideal) S_ .f32 0x00000000#32))
        (broadcastInDim S500000x1 ![0] bcast_S500000_S500000x1_0 dst) wv)
      (broadcastInDim S50000x8x16 ![0, 1, 2] bcast_S50000x8x1_S50000x8x16_0_1_2
        (broadcastInDim S50000x8x1 ![0, 1] bcast_S50000x8_S50000x8x1_0_1
          (Host.scatterAdd scatter_S50000x8_S500000x1_S500000x8_1_0_0_1
            (broadcastInDim S50000x8 ![] bcast_S_S50000x8 (constant (F := Ideal) S_ .f32 0x00000000#32))
            (broadcastInDim S500000x1 ![0] bcast_S500000_S500000x1_0 dst) sc))))
    shapeCasts_S50000x8x16_S50000x128)

/-- The mean of each of the 128 columns over the 50000 rows. -/
def colMean (x : (⟨S50000x128, .f32⟩ : BufTy).Contents (Elt Ideal)) : (⟨S128, .f32⟩ : BufTy).Contents (Elt Ideal) :=
  Host.divf (Host.reduceAdd x (constant (F := Ideal) S_ .f32 0x00000000#32) reducesTo_S50000x128_S128_d0 h_S_)
    (broadcastInDim S128 ![] bcast_S_S128 (constant (F := Ideal) S_ .f32 0x47435000#32))

/-- The reciprocal square root of each column's variance plus epsilon. -/
def colRs (x : (⟨S50000x128, .f32⟩ : BufTy).Contents (Elt Ideal)) : (⟨S128, .f32⟩ : BufTy).Contents (Elt Ideal) :=
  Host.rsqrt (addf
    (Host.divf
      (Host.reduceAdd
        (mulf
          (subf x (broadcastInDim S50000x128 ![0, 1] bcast_S1x128_S50000x128_0_1 (broadcastInDim S1x128 ![1] bcast_S128_S1x128_1 (colMean x))))
          (subf x (broadcastInDim S50000x128 ![0, 1] bcast_S1x128_S50000x128_0_1 (broadcastInDim S1x128 ![1] bcast_S128_S1x128_1 (colMean x)))))
        (constant (F := Ideal) S_ .f32 0x00000000#32) reducesTo_S50000x128_S128_d0 h_S_)
      (broadcastInDim S128 ![] bcast_S_S128 (constant (F := Ideal) S_ .f32 0x47435000#32)))
    (broadcastInDim S128 ![] bcast_S_S128 (constant (F := Ideal) S_ .f32 0x3727C5AC#32)))

/-! ## The stretch's results, from any starting contents -/

section Kernel
variable (W : Valuation τ sig (Elt Ideal))

/-- The attention sum of the contents the stretch starts from. -/
abbrev hinW : (⟨S50000x128, .f32⟩ : BufTy).Contents (Elt Ideal) :=
  attnSum (W (Proc.devRef .tc main_v45_1)) (W (Proc.devRef .tc main_v45_0)) (W (Proc.devRef .tc main_v20_0)) (W (Proc.devRef .tc main_arg2))

theorem kernel_hin :
    StableHlo.after (hostOps2 (F := Ideal)) W (Proc.devRef .tc main_v56) = hinW W := by
  dsimp only [hostOps2]
  after_results_simp
  rfl

theorem kernel_mean :
    StableHlo.after (hostOps2 (F := Ideal)) W (Proc.devRef .tc main_v59) = colMean (hinW W) := by
  dsimp only [hostOps2]
  after_results_simp
  rfl

theorem kernel_rs :
    StableHlo.after (hostOps2 (F := Ideal)) W (Proc.devRef .tc main_v69) = colRs (hinW W) := by
  dsimp only [hostOps2]
  after_results_simp
  rfl

theorem kernel_scale :
    StableHlo.after (hostOps2 (F := Ideal)) W (Proc.devRef .tc main_v70)
      = (mulf (F := Ideal) (φ := .f32) : (⟨S128, .f32⟩ : BufTy).Contents (Elt Ideal) → (⟨S128, .f32⟩ : BufTy).Contents (Elt Ideal) → (⟨S128, .f32⟩ : BufTy).Contents (Elt Ideal))
          (W (Proc.devRef .tc main_arg22)) (colRs (hinW W)) := by
  dsimp only [hostOps2]
  after_results_simp
  rfl

theorem kernel_shift :
    StableHlo.after (hostOps2 (F := Ideal)) W (Proc.devRef .tc main_v72)
      = (subf (F := Ideal) (φ := .f32) : (⟨S128, .f32⟩ : BufTy).Contents (Elt Ideal) → (⟨S128, .f32⟩ : BufTy).Contents (Elt Ideal) → (⟨S128, .f32⟩ : BufTy).Contents (Elt Ideal))
          (W (Proc.devRef .tc main_arg23))
          ((mulf (F := Ideal) (φ := .f32) : (⟨S128, .f32⟩ : BufTy).Contents (Elt Ideal) → (⟨S128, .f32⟩ : BufTy).Contents (Elt Ideal) → (⟨S128, .f32⟩ : BufTy).Contents (Elt Ideal))
            (colMean (hinW W))
            ((mulf (F := Ideal) (φ := .f32) : (⟨S128, .f32⟩ : BufTy).Contents (Elt Ideal) → (⟨S128, .f32⟩ : BufTy).Contents (Elt Ideal) → (⟨S128, .f32⟩ : BufTy).Contents (Elt Ideal))
              (W (Proc.devRef .tc main_arg22)) (colRs (hinW W)))) := by
  dsimp only [hostOps2]
  after_results_simp
  rfl

end Kernel

/-! ## The reference's stages are the same functions -/

section Reference
open Cert.ReferenceIdeal.Stages in
theorem ref_hin : sHin m c = attnSum (sWv m c) (sScore m c) (sHsub m c) (a2 m c) := by
  unfold sHin
  unfold val_main_v122 val_main_v121 val_main_v120 val_main_v119 val_main_v118 val_main_v117 val_main_v116 val_main_v115
    val_main_v114 val_main_v113 val_main_v112 val_main_cst_18 val_main_cst_19
  rfl

open Cert.ReferenceIdeal.Stages in
theorem ref_mean : sMean m c = colMean (sHin m c) := by
  unfold sMean
  unfold val_main_v125 val_main_v124 val_main_v123 val_main_cst_20 val_main_cst_21
  rfl

open Cert.ReferenceIdeal.Stages in
theorem ref_rs : sRs m c = colRs (sHin m c) := by
  unfold sRs
  unfold val_main_v138 val_main_v137 val_main_v136 val_main_cst_24 val_main_v132 val_main_v131 val_main_cst_23 val_main_v130
    val_main_cst_22 val_main_v129 val_main_v128 val_main_v127 val_main_v126 val_main_v125 val_main_v124 val_main_v123
    val_main_cst_20 val_main_cst_21
  rfl
end Reference

/-! ## The contents the stretch starts from -/

section Start

theorem w4_score (o1 : Out1 m ρ c) : W4 (F := Ideal) m ρ c (Proc.devRef .tc main_v45_0) = sScore m c :=
  (W4_arr m ρ c 3).trans o1.score

theorem w4_wv (o1 : Out1 m ρ c) : W4 (F := Ideal) m ρ c (Proc.devRef .tc main_v45_1) = sWv m c :=
  (W4_arr m ρ c 4).trans o1.wv

theorem w4_hsub (o0 : Out0 m ρ c) : W4 (F := Ideal) m ρ c (Proc.devRef .tc main_v20_0) = sHsub m c :=
  calc W4 (F := Ideal) m ρ c (Proc.devRef .tc main_v20_0)
    _ = W3 m ρ c (Proc.devRef .tc main_v20_0) := W4_of_ne m ρ c main_v20_0 (by decide)
    _ = W2 m ρ c (Proc.devRef .tc main_v20_0) := by unwritten hostOps1
    _ = _ := W2_arr m ρ c 16
    _ = sHsub m c := o0.hsub

/-- Outside the arrays of regions 0 and 1 and the results of stretch 1, the contents are those after stretch 0. -/
theorem w4_eq_w1 (b : Ref sig .tc) (h1 : ∀ w, Pipeline.arrRef spec1 w ≠ b) (h0 : ∀ w, Pipeline.arrRef spec0 w ≠ b)
    (hb : W3 (F := Ideal) m ρ c (Proc.devRef .tc b) = W2 m ρ c (Proc.devRef .tc b)) :
    W4 (F := Ideal) m ρ c (Proc.devRef .tc b) = W1 m ρ c (Proc.devRef .tc b) :=
  ((W4_of_ne m ρ c b h1).trans hb).trans (W2_of_ne m ρ c b h0)

theorem w4_arg2 : W4 (F := Ideal) m ρ c (Proc.devRef .tc main_arg2) = a2 m c :=
  calc W4 (F := Ideal) m ρ c (Proc.devRef .tc main_arg2)
    _ = W1 m ρ c (Proc.devRef .tc main_arg2) := w4_eq_w1 m ρ c main_arg2 (by decide) (by decide) (by unwritten hostOps1)
    _ = W0 m ρ c (Proc.devRef .tc main_arg2) := by unwritten hostOps0
    _ = a2 m c := rfl

theorem w4_arg19 : W4 (F := Ideal) m ρ c (Proc.devRef .tc main_arg19) = a19 m c :=
  calc W4 (F := Ideal) m ρ c (Proc.devRef .tc main_arg19)
    _ = W1 m ρ c (Proc.devRef .tc main_arg19) := w4_eq_w1 m ρ c main_arg19 (by decide) (by decide) (by unwritten hostOps1)
    _ = W0 m ρ c (Proc.devRef .tc main_arg19) := by unwritten hostOps0
    _ = a19 m c := rfl

theorem w4_arg21 : W4 (F := Ideal) m ρ c (Proc.devRef .tc main_arg21) = a21 m c :=
  calc W4 (F := Ideal) m ρ c (Proc.devRef .tc main_arg21)
    _ = W1 m ρ c (Proc.devRef .tc main_arg21) := w4_eq_w1 m ρ c main_arg21 (by decide) (by decide) (by unwritten hostOps1)
    _ = W0 m ρ c (Proc.devRef .tc main_arg21) := by unwritten hostOps0
    _ = a21 m c := rfl

theorem w4_arg22 : W4 (F := Ideal) m ρ c (Proc.devRef .tc main_arg22) = a22 m c :=
  calc W4 (F := Ideal) m ρ c (Proc.devRef .tc main_arg22)
    _ = W1 m ρ c (Proc.devRef .tc main_arg22) := w4_eq_w1 m ρ c main_arg22 (by decide) (by decide) (by unwritten hostOps1)
    _ = W0 m ρ c (Proc.devRef .tc main_arg22) := by unwritten hostOps0
    _ = a22 m c := rfl

theorem w4_arg23 : W4 (F := Ideal) m ρ c (Proc.devRef .tc main_arg23) = a23 m c :=
  calc W4 (F := Ideal) m ρ c (Proc.devRef .tc main_arg23)
    _ = W1 m ρ c (Proc.devRef .tc main_arg23) := w4_eq_w1 m ρ c main_arg23 (by decide) (by decide) (by unwritten hostOps1)
    _ = W0 m ρ c (Proc.devRef .tc main_arg23) := by unwritten hostOps0
    _ = a23 m c := rfl

open Cert.ReferenceIdeal.Stages in
theorem w4_w1 : W4 (F := Ideal) m ρ c (Proc.devRef .tc main_v17)
    = ((truncf (F := Ideal) .bf16 · bitsLt_bf16_f32) : (⟨S128x256, .f32⟩ : BufTy).Contents (Elt Ideal) → (⟨S128x256, .bf16⟩ : BufTy).Contents (Elt Ideal)) (val_main_v148 (F := Ideal) (a18 m c)) :=
  calc W4 (F := Ideal) m ρ c (Proc.devRef .tc main_v17)
    _ = W1 m ρ c (Proc.devRef .tc main_v17) := w4_eq_w1 m ρ c main_v17 (by decide) (by decide) (by unwritten hostOps1)
    _ = _ := by
      show StableHlo.after (hostOps0 (F := Ideal)) (W0 m ρ c) (Proc.devRef .tc main_v17) = _
      dsimp only [hostOps0]
      after_results_simp
      rfl

open Cert.ReferenceIdeal.Stages in
theorem w4_w2 : W4 (F := Ideal) m ρ c (Proc.devRef .tc main_v19)
    = ((truncf (F := Ideal) .bf16 · bitsLt_bf16_f32) : (⟨S256x128, .f32⟩ : BufTy).Contents (Elt Ideal) → (⟨S256x128, .bf16⟩ : BufTy).Contents (Elt Ideal)) (val_main_v154 (F := Ideal) (a20 m c)) :=
  calc W4 (F := Ideal) m ρ c (Proc.devRef .tc main_v19)
    _ = W1 m ρ c (Proc.devRef .tc main_v19) := w4_eq_w1 m ρ c main_v19 (by decide) (by decide) (by unwritten hostOps1)
    _ = _ := by
      show StableHlo.after (hostOps0 (F := Ideal)) (W0 m ρ c) (Proc.devRef .tc main_v19) = _
      dsimp only [hostOps0]
      after_results_simp
      rfl

end Start

end Host2

open Host2

/-! ## The seven facts -/

theorem host2_value (o0 : Out0 m ρ c) (o1 : Out1 m ρ c) : Entry2 m ρ c := by
  have hH : hinW (W4 (F := Ideal) m ρ c) = sHin m c := by
    show attnSum _ _ _ _ = _
    rw [w4_wv m ρ c o1, w4_score m ρ c o1, w4_hsub m ρ c o0, w4_arg2 m ρ c]
    exact (ref_hin m c).symm
  refine ⟨?_, ?_, ?_, ?_, ?_, ?_, ?_⟩
  · show StableHlo.after (hostOps2 (F := Ideal)) (W4 m ρ c) (Proc.devRef .tc main_v56) = _
    rw [kernel_hin, hH]
  · show StableHlo.after (hostOps2 (F := Ideal)) (W4 m ρ c) (Proc.devRef .tc main_v70) = _
    rw [kernel_scale, hH, w4_arg22, ref_rs]
  · show StableHlo.after (hostOps2 (F := Ideal)) (W4 m ρ c) (Proc.devRef .tc main_v72) = _
    rw [kernel_shift, hH, w4_arg23, w4_arg22, ref_mean, ref_rs]
  · show StableHlo.after (hostOps2 (F := Ideal)) (W4 m ρ c) (Proc.devRef .tc main_v17) = _
    refine Eq.trans ?_ (w4_w1 m ρ c)
    unwritten hostOps2
  · show StableHlo.after (hostOps2 (F := Ideal)) (W4 m ρ c) (Proc.devRef .tc main_arg19) = _
    refine Eq.trans ?_ (w4_arg19 m ρ c)
    unwritten hostOps2
  · show StableHlo.after (hostOps2 (F := Ideal)) (W4 m ρ c) (Proc.devRef .tc main_v19) = _
    refine Eq.trans ?_ (w4_w2 m ρ c)
    unwritten hostOps2
  · show StableHlo.after (hostOps2 (F := Ideal)) (W4 m ρ c) (Proc.devRef .tc main_arg21) = _
    refine Eq.trans ?_ (w4_arg21 m ρ c)
    unwritten hostOps2

end Cert.Bridge

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.BatchNormLaw.lean ====
/-
  The one algebraic law between the two programs. A batch norm over a column `x` of extended
  reals, with mean `μ = (∑ x) / N`, variance `σ² = (∑ (x - μ)²) / N` and `r = rsqrt (σ² + ε)`, is
  computed by the reference as `(x - μ) · r · g + b` and by the kernel as `x · (g · r) + (b - μ · (g · r))`.
  For real `g`, `b` the two agree at EVERY column of extended reals: if all entries are real the
  identity is distributivity over the reals; if some entry is infinite the mean is infinite, every
  deviation is infinite, the variance is `⊤`, `r = 0`, and both sides are `b`.
-/
import Idealize.ShloMosaic.PureOps.Ideal
import proofs.«426868_j52097953300855_3_alg».proof.Proof.LibReal

noncomputable section

namespace Cert.Bridge

open Idealize.ShloMosaic

open Cert.LibReal in
/-- If a sum of two extended reals is real, both summands are. -/
private theorem isReal_of_add {p q : EReal} (h : IsReal (p + q)) : IsReal p ∧ IsReal q := by
  obtain ⟨r, hr⟩ := h
  induction p using EReal.rec with
  | bot => rw [EReal.bot_add] at hr; exact absurd hr (EReal.coe_ne_bot r).symm
  | top =>
    induction q using EReal.rec with
    | bot => rw [EReal.add_bot] at hr; exact absurd hr (EReal.coe_ne_bot r).symm
    | coe c => rw [EReal.top_add_coe] at hr; exact absurd hr (EReal.coe_ne_top r).symm
    | top => rw [EReal.top_add_top] at hr; exact absurd hr (EReal.coe_ne_top r).symm
  | coe a =>
    induction q using EReal.rec with
    | bot => rw [EReal.add_bot] at hr; exact absurd hr (EReal.coe_ne_bot r).symm
    | coe c => exact ⟨⟨a, rfl⟩, ⟨c, rfl⟩⟩
    | top => rw [EReal.coe_add_top] at hr; exact absurd hr (EReal.coe_ne_top r).symm

open Cert.LibReal in
/-- If a finite sum of extended reals is real, every entry is. -/
private theorem isReal_of_sum {ι : Type} (s : Finset ι) (f : ι → EReal) :
    IsReal (∑ i ∈ s, f i) → ∀ i ∈ s, IsReal (f i) := by
  classical
  refine Finset.induction_on s ?_ ?_
  · intro _ i hi; exact absurd hi (Finset.notMem_empty i)
  · intro a t ha ih h i hi
    rw [Finset.sum_insert ha] at h
    obtain ⟨h1, h2⟩ := isReal_of_add h
    rcases Finset.mem_insert.mp hi with rfl | hi'
    · exact h1
    · exact ih h2 i hi'

open Cert.LibReal in
/-- An extended real that is not real is an infinity. -/
private theorem top_or_bot_of_not_isReal {p : EReal} (h : ¬ IsReal p) : p = ⊤ ∨ p = ⊥ := by
  induction p using EReal.rec with
  | bot => exact Or.inr rfl
  | coe a => exact absurd ⟨a, rfl⟩ h
  | top => exact Or.inl rfl

/-- Against an infinite centre every deviation is infinite, so its square is `⊤`. -/
private theorem sq_dev_top {p μ : EReal} (h : μ = ⊤ ∨ μ = ⊥) : (p - μ) * (p - μ) = ⊤ := by
  rcases h with rfl | rfl
  · rw [EReal.sub_top]; exact EReal.bot_mul_bot
  · induction p using EReal.rec with
    | bot => rw [EReal.bot_sub]; exact EReal.bot_mul_bot
    | coe a => rw [EReal.coe_sub_bot]; exact EReal.top_mul_top
    | top => rw [EReal.top_sub_bot]; exact EReal.top_mul_top

open Cert.LibReal in
/-- The two forms of the affine step agree when all three of entry, mean and scale are real, and
    also when the scale is zero (both sides are then the bias). -/
private theorem affine_forms {X M R : EReal} (g b : ℝ)
    (h : (IsReal X ∧ IsReal M ∧ IsReal R) ∨ R = 0) :
    X * ((g : EReal) * R) + ((b : EReal) - M * ((g : EReal) * R)) = (X - M) * R * (g : EReal) + (b : EReal) := by
  rcases h with ⟨⟨xr, rfl⟩, ⟨mr, rfl⟩, ⟨rr, rfl⟩⟩ | rfl
  · simp only [← EReal.coe_mul, ← EReal.coe_sub, ← EReal.coe_add]
    congr 1
    ring
  · rw [mul_zero, mul_zero, mul_zero, mul_zero, zero_mul, sub_zero, zero_add]

theorem bn_affine_eq {ι : Type} [Fintype ι] [Nonempty ι] (x : ι → EReal) (g b N e : ℝ) (hN : 0 < N) (he : 0 < e) (n : ι) :
    x n * ((g : EReal) * Ideal.rsqrt (Ideal.div (0 + ∑ i, (x i - Ideal.div (0 + ∑ i, x i) (N : EReal)) * (x i - Ideal.div (0 + ∑ i, x i) (N : EReal))) (N : EReal) + (e : EReal)))
      + ((b : EReal) - Ideal.div (0 + ∑ i, x i) (N : EReal)
          * ((g : EReal) * Ideal.rsqrt (Ideal.div (0 + ∑ i, (x i - Ideal.div (0 + ∑ i, x i) (N : EReal)) * (x i - Ideal.div (0 + ∑ i, x i) (N : EReal))) (N : EReal) + (e : EReal))))
    = (x n - Ideal.div (0 + ∑ i, x i) (N : EReal))
        * Ideal.rsqrt (Ideal.div (0 + ∑ i, (x i - Ideal.div (0 + ∑ i, x i) (N : EReal)) * (x i - Ideal.div (0 + ∑ i, x i) (N : EReal))) (N : EReal) + (e : EReal))
        * (g : EReal) + (b : EReal) := by
  classical
  have hN' : N ≠ 0 := ne_of_gt hN
  have hc : (0 : ℝ) < 1 / N := one_div_pos.mpr hN
  apply affine_forms
  by_cases hall : ∀ i, Cert.LibReal.IsReal (x i)
  · left
    choose a ha using hall
    have hx : x = fun i => (a i : EReal) := funext ha
    subst hx
    simp only [zero_add, Ideal.div_coe hN', ← Cert.LibReal.coe_sum, ← EReal.coe_mul, ← EReal.coe_sub,
      ← EReal.coe_add]
    refine ⟨⟨_, rfl⟩, ⟨_, rfl⟩, ?_⟩
    rw [Ideal.rsqrt_coe]
    have hv : 0 ≤ (∑ i, (a i - (∑ i, a i) * (1 / N)) * (a i - (∑ i, a i) * (1 / N))) * (1 / N) :=
      mul_nonneg (Finset.sum_nonneg fun i _ => mul_self_nonneg _) (le_of_lt hc)
    rw [if_neg (not_lt.mpr (by linarith)), if_neg (ne_of_gt (by linarith))]
    exact ⟨_, rfl⟩
  · right
    obtain ⟨i₀, hi₀⟩ := not_forall.mp hall
    have hS : ¬ Cert.LibReal.IsReal (∑ i, x i) := fun h =>
      hi₀ (isReal_of_sum Finset.univ x h i₀ (Finset.mem_univ i₀))
    have hμ : Ideal.div (0 + ∑ i, x i) (N : EReal) = ⊤ ∨ Ideal.div (0 + ∑ i, x i) (N : EReal) = ⊥ := by
      rw [zero_add, Ideal.div_coe hN']
      rcases top_or_bot_of_not_isReal hS with h | h
      · left; rw [h]; exact EReal.top_mul_coe_of_pos hc
      · right; rw [h]; exact EReal.bot_mul_coe_of_pos hc
    have hsum : (∑ i, (x i - Ideal.div (0 + ∑ i, x i) (N : EReal)) * (x i - Ideal.div (0 + ∑ i, x i) (N : EReal))) = ⊤ := by
      rw [Finset.sum_congr rfl fun i _ => sq_dev_top (p := x i) hμ]
      apply top_le_iff.mp
      exact Finset.single_le_sum (f := fun _ : ι => (⊤ : EReal)) (fun i _ => le_top) (Finset.mem_univ n)
    rw [hsum, zero_add, Ideal.div_coe hN', EReal.top_mul_coe_of_pos hc, EReal.top_add_coe, Ideal.rsqrt_top]

end Cert.Bridge

end
-- ==== Proof.Region2.lean ====
/-
  Region 2 against the reference's batch norm, feed-forward block and residual.

  A block of 2000 nodes × 128 lanes of the batch norm's input `x` enters with the per-lane scale `g · r`
  and shift `b - μ · (g · r)`; the body forms `h = x · scale + shift`, the hidden layer
  `max (h · W1ᵀ + b1) 0`, and `h + (hidden · W2ᵀ + b2)`. The reference forms `h` as
  `(x - μ) · r · g + b` with `μ` the column mean and `r` the reciprocal root of the column variance
  plus a positive offset; for real `g`, `b` the two forms agree at every column of extended reals
  (`bn_affine_eq`). After that the two sides are the same sums read at the same indices: row `p` of
  block `t` is node `2000 · t + p`, the weight windows are whole arrays, and the 25 blocks tile the
  50000 rows of the output.
-/
import proofs.«426868_j52097953300855_3_alg».proof.Proof.Interfaces
import proofs.«426868_j52097953300855_3_alg».proof.Proof.BatchNormLaw
import proofs.«426868_j52097953300855_3_alg».proof.Proof.Consts
import Idealize.ShloMosaic.Lib.Pipeline.Value
import Idealize.ShloMosaic.Lib.ValueIdx
import Idealize.ShloMosaic.PureOps.Ideal.Laws
set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat Cfg Window)
open Idealize.ShloMosaic.ValueIdx

namespace Region2

/-! ## Layout: a vector laid along every row of a matrix -/

/-- A vector of `n` lanes cast to one row and broadcast down `mm` rows reads, at row `p` and lane `j`, its lane `j`. -/
theorem rowBcast_apply {α : Type} {mm n : Nat} (hn : n ≠ 1) (v : (⟨1, ![n]⟩ : Shape).Idx → α)
    (h1 : (⟨1, ![n]⟩ : Shape).ShapeCasts ⟨2, ![1, n]⟩) (h2 : (⟨2, ![1, n]⟩ : Shape).Broadcasts ⟨2, ![mm, n]⟩)
    (p : Fin mm) (j : Fin n) :
    broadcastTo ⟨2, ![mm, n]⟩ (shapeCast ⟨2, ![1, n]⟩ v h1) h2 (ix2 p j) = v (ix1 j) := by
  rw [broadcastTo_apply _ h2 (ix2 p j) (ix2 ⟨0, Nat.one_pos⟩ j) (fun a => by
    match a with
    | ⟨0, _⟩ => show 0 = if (1 : Nat) = 1 then 0 else _; rw [if_pos rfl]
    | ⟨1, _⟩ => show j.val = if n = 1 then 0 else j.val; rw [if_neg hn])]
  rw [shapeCast_addUnit_apply ![n] v h1]
  exact congrArg v (funext fun a => by match a with | ⟨0, _⟩ => rfl)

/-! ## The two block products of the body, read at an index -/

theorem lhs_mm1_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_mm1_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_mm1_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_mm1_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The first block product into a zero accumulator: row `p` of the left factor against column `k` of the right. -/
theorem mm1_apply (lhs : FVec Ideal S2000x128 .bf16) (rhs : FVec Ideal S128x256 .bf16) (p : Fin 2000) (k : Fin 256) :
    matmul dot_S2000x128_S128x256_S2000x256_1_0_0_1_n_n none lhs rhs (constant (F := Ideal) S2000x256 .f32 0x00000000#32) (ix2 p k)
      = ∑ l : Fin 128, lhs (ix2 p l) * rhs (ix2 l k) := by
  simp only [matmul]
  rw [Ideal.matmul_constant_zero_apply, ← Equiv.sum_comp (contrEquiv1 dot_S2000x128_S128x256_S2000x256_1_0_0_1_n_n 128 rfl rfl).symm]
  refine Finset.sum_congr rfl fun l _ => ?_
  have hk := contrEquiv1_symm_val dot_S2000x128_S128x256_S2000x256_1_0_0_1_n_n 128 rfl rfl l
  have el : dot_S2000x128_S128x256_S2000x256_1_0_0_1_n_n.lhsIdx (ix2 p k) ((contrEquiv1 dot_S2000x128_S128x256_S2000x256_1_0_0_1_n_n 128 rfl rfl).symm l) = ix2 p l := funext fun a => Fin.ext (by
    match a with
    | ⟨0, _⟩ => exact lhs_mm1_0 _ _
    | ⟨1, _⟩ => exact (lhs_mm1_1 _ _).trans hk)
  have er : dot_S2000x128_S128x256_S2000x256_1_0_0_1_n_n.rhsIdx (ix2 p k) ((contrEquiv1 dot_S2000x128_S128x256_S2000x256_1_0_0_1_n_n 128 rfl rfl).symm l) = ix2 l k := funext fun a => Fin.ext (by
    match a with
    | ⟨0, _⟩ => exact (rhs_mm1_0 _ _).trans hk
    | ⟨1, _⟩ => exact rhs_mm1_1 _ _)
  rw [el, er]

theorem lhs_mm2_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_mm2_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_mm2_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_mm2_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second block product into a zero accumulator. -/
theorem mm2_apply (lhs : FVec Ideal S2000x256 .bf16) (rhs : FVec Ideal S256x128 .bf16) (p : Fin 2000) (j : Fin 128) :
    matmul dot_S2000x256_S256x128_S2000x128_1_0_0_1_n_n none lhs rhs (constant (F := Ideal) S2000x128 .f32 0x00000000#32) (ix2 p j)
      = ∑ k : Fin 256, lhs (ix2 p k) * rhs (ix2 k j) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p j) ((contrEquiv1 dot_S2000x256_S256x128_S2000x128_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S2000x256_S256x128_S2000x128_1_0_0_1_n_n.rhsIdx (ix2 p j) ((contrEquiv1 dot_S2000x256_S256x128_S2000x128_1_0_0_1_n_n 256 rfl rfl).symm k) = ix2 k j := funext fun a => Fin.ext (by
    match a with
    | ⟨0, _⟩ => exact (rhs_mm2_0 _ _).trans hk
    | ⟨1, _⟩ => exact rhs_mm2_1 _ _)
  rw [el, er]

/-! ## The body's arithmetic in three stages -/

/-- The batch norm as the body computes it on a block: `x · scale + shift`, lane by lane. -/
def affV (x0 : FVec Ideal S2000x128 .f32) (sc sh : FVec Ideal S128 .f32) : FVec Ideal S2000x128 .f32 :=
  addf (mulf (shapeCast S2000x128 x0 Facts₀.shapeCasts_S2000x128_S2000x128)
      (broadcastTo S2000x128 (shapeCast S1x128 (shapeCast S128 sc Facts₀.shapeCasts_S128_S128) Facts₀.shapeCasts_S128_S1x128) Facts₀.broadcasts_S1x128_S2000x128))
    (broadcastTo S2000x128 (shapeCast S1x128 (shapeCast S128 sh Facts₀.shapeCasts_S128_S128) Facts₀.shapeCasts_S128_S1x128) Facts₀.broadcasts_S1x128_S2000x128)

/-- The hidden layer on a block: `max (h · W1ᵀ + b1) 0`. -/
def hidV (h : FVec Ideal S2000x128 .f32) (w1 : FVec Ideal S128x256 .bf16) (b1 : FVec Ideal S256 .f32) : FVec Ideal S2000x256 .f32 :=
  maximumf (addf (matmul dot_S2000x128_S128x256_S2000x256_1_0_0_1_n_n none (truncf .bf16 h Facts₀.bitsLt_bf16_f32)
        (shapeCast S128x256 w1 Facts₀.shapeCasts_S128x256_S128x256) (constant (F := Ideal) S2000x256 .f32 0x00000000#32))
      (broadcastTo S2000x256 (shapeCast S1x256 b1 Facts₀.shapeCasts_S256_S1x256) Facts₀.broadcasts_S1x256_S2000x256))
    (broadcast S2000x256 (Scalar.ofBits (F := Ideal) .f32 0x00000000#32))

/-- The block's result: `h + (hidden · W2ᵀ + b2)`. -/
def outV (h : FVec Ideal S2000x128 .f32) (hid : FVec Ideal S2000x256 .f32) (w2 : FVec Ideal S256x128 .bf16) (b2 : FVec Ideal S128 .f32) : FVec Ideal S2000x128 .f32 :=
  addf h (addf (matmul dot_S2000x256_S256x128_S2000x128_1_0_0_1_n_n none (truncf .bf16 hid Facts₀.bitsLt_bf16_f32)
        (shapeCast S256x128 w2 Facts₀.shapeCasts_S256x128_S256x128) (constant (F := Ideal) S2000x128 .f32 0x00000000#32))
      (broadcastTo S2000x128 (shapeCast S1x128 b2 Facts₀.shapeCasts_S128_S1x128) Facts₀.broadcasts_S1x128_S2000x128))

/-- The body's payload is the three stages composed. -/
theorem pay_eq (x0 : FVec Ideal S2000x128 .f32) (sc sh : FVec Ideal S128 .f32) (w1 : FVec Ideal S128x256 .bf16) (b1 : FVec Ideal S256 .f32)
    (w2 : FVec Ideal S256x128 .bf16) (b2 : FVec Ideal S128 .f32) :
    k2_pay1 (F := Ideal) x0 sc sh w1 b1 w2 b2 = outV (affV x0 sc sh) (hidV (affV x0 sc sh) w1 b1) w2 b2 := rfl

theorem affV_apply (x0 : FVec Ideal S2000x128 .f32) (sc sh : FVec Ideal S128 .f32) (p : Fin 2000) (j : Fin 128) :
    affV x0 sc sh (ix2 p j) = x0 (ix2 p j) * sc (ix1 j) + sh (ix1 j) := by
  unfold affV
  rw [addf_apply, mulf_apply, shapeCast_self, shapeCast_self, shapeCast_self,
    rowBcast_apply (by decide) sc, rowBcast_apply (by decide) sh]

theorem hidV_apply (h : FVec Ideal S2000x128 .f32) (w1 : FVec Ideal S128x256 .bf16) (b1 : FVec Ideal S256 .f32) (p : Fin 2000) (k : Fin 256) :
    hidV h w1 b1 (ix2 p k) = max ((∑ l : Fin 128, h (ix2 p l) * w1 (ix2 l k)) + b1 (ix1 k)) 0 := by
  unfold hidV
  rw [maximumf_apply, addf_apply, mm1_apply, shapeCast_self, rowBcast_apply (by decide) b1, broadcast_apply]
  show max _ (Ideal.ofBits .f32 0x00000000#32) = _
  rw [Ideal.ofBits_zero_f32]
  rfl

theorem outV_apply (h : FVec Ideal S2000x128 .f32) (hid : FVec Ideal S2000x256 .f32) (w2 : FVec Ideal S256x128 .bf16) (b2 : FVec Ideal S128 .f32) (p : Fin 2000) (j : Fin 128) :
    outV h hid w2 b2 (ix2 p j) = h (ix2 p j) + ((∑ k : Fin 256, hid (ix2 p k) * w2 (ix2 k j)) + b2 (ix1 j)) := by
  unfold outV
  rw [addf_apply, addf_apply, mm2_apply, shapeCast_self, rowBcast_apply (by decide) b2]
  rfl

/-! ## The reference's feed-forward block and residual, read at a node and a lane -/

open Cert.ReferenceIdeal.Stages in
/-- The reference's second batch-norm input at node `n`, lane `j`, from its first batch norm's row `n`. -/
theorem ref_ffn_apply (m : Mem) (c : Dev Cert.KernelIdeal.nD) (n : Fin 50000) (j : Fin 128) :
    sPre m c (ix2 n j) = sBn1 m c (ix2 n j)
      + ((∑ k : Fin 256, max ((∑ l : Fin 128, sBn1 m c (ix2 n l) * val_main_v148 (F := Ideal) (a18 m c) (ix2 l k)) + a19 m c (ix1 k)) 0
            * val_main_v154 (F := Ideal) (a20 m c) (ix2 k j)) + a21 m c (ix1 j)) := by
  have e155l : ∀ k : Fin 256, lidx_main_v155 (ix2 n j) k = ix2 n k := fun k =>
    funext fun a => Fin.ext (by match a with | ⟨0, _⟩ => rfl | ⟨1, _⟩ => rfl)
  have e155r : ∀ k : Fin 256, ridx_main_v155 (ix2 n j) k = ix2 k j := fun k =>
    funext fun a => Fin.ext (by match a with | ⟨0, _⟩ => rfl | ⟨1, _⟩ => rfl)
  have e157 : idx_main_v156 (idx_main_v157 (ix2 n j)) = ix1 j :=
    funext fun a => Fin.ext (by match a with | ⟨0, _⟩ => rfl)
  have e149l : ∀ (k : Fin 256) (l : Fin 128), lidx_main_v149 (ix2 n k) l = ix2 n l := fun k l =>
    funext fun a => Fin.ext (by match a with | ⟨0, _⟩ => rfl | ⟨1, _⟩ => rfl)
  have e149r : ∀ (k : Fin 256) (l : Fin 128), ridx_main_v149 (ix2 n k) l = ix2 l k := fun k l =>
    funext fun a => Fin.ext (by match a with | ⟨0, _⟩ => rfl | ⟨1, _⟩ => rfl)
  have e151 : ∀ k : Fin 256, idx_main_v150 (idx_main_v151 (ix2 n k)) = ix1 k := fun k =>
    funext fun a => Fin.ext (by match a with | ⟨0, _⟩ => rfl)
  unfold sPre sBn1
  rw [val_main_v159_apply, val_main_v158_apply, val_main_v155_apply, val_main_v157_apply, val_main_v156_apply, e157]
  simp only [e155l, e155r]
  simp only [val_main_v153_apply, val_main_v152_apply, val_main_v149_apply, val_main_v151_apply, val_main_v150_apply,
    val_main_call2_v0_apply, val_main_call2_cst_apply]
  simp only [e149l, e149r, e151]
  simp only [Ideal.maximumf_def, Ideal.addf_def, Ideal.ofBits_def, Ideal.ofBits_zero_f32]

/-! ## The batch norm: the kernel's scale-and-shift form is the reference's centred form -/

open Cert.ReferenceIdeal.Stages in
/-- The reference's column mean at lane `j`. -/
theorem mean_apply (m : Mem) (c : Dev Cert.KernelIdeal.nD) (j : Fin 128) :
    sMean m c (ix1 j) = Ideal.div (0 + ∑ k : Fin 50000, sHin m c (ix2 k j)) ((50000 : ℝ) : EReal) := by
  have e123 : ∀ k : Fin 50000, idx_main_v123 (ix1 j) k = ix2 k j := fun k =>
    funext fun a => Fin.ext (by match a with | ⟨0, _⟩ => rfl | ⟨1, _⟩ => rfl)
  unfold sMean sHin
  rw [val_main_v125_apply, val_main_v123_apply, val_main_v124_apply, val_main_cst_20_apply, val_main_cst_21_apply]
  simp only [e123, Ideal.hostDivf_def, Ideal.ofBits_def, Ideal.ofBits_zero_f32, Consts.ofBits_nodes]

open Cert.ReferenceIdeal.Stages in
/-- The reference's reciprocal standard deviation at lane `j`. -/
theorem rs_apply (m : Mem) (c : Dev Cert.KernelIdeal.nD) (j : Fin 128) :
    sRs m c (ix1 j) = Ideal.rsqrt (Ideal.div (0 + ∑ k : Fin 50000, (sHin m c (ix2 k j) - sMean m c (ix1 j)) * (sHin m c (ix2 k j) - sMean m c (ix1 j))) ((50000 : ℝ) : EReal)
        + ((10995116 / 2 ^ 40 : ℝ) : EReal)) := by
  have e130 : ∀ k : Fin 50000, idx_main_v130 (ix1 j) k = ix2 k j := fun k =>
    funext fun a => Fin.ext (by match a with | ⟨0, _⟩ => rfl | ⟨1, _⟩ => rfl)
  have e126 : ∀ k : Fin 50000, idx_main_v126 (idx_main_v127 (ix2 k j)) = ix1 j := fun k =>
    funext fun a => Fin.ext (by match a with | ⟨0, _⟩ => rfl)
  unfold sRs sHin sMean
  rw [val_main_v138_apply, val_main_v137_apply, val_main_v132_apply, val_main_v130_apply, val_main_v131_apply, val_main_v136_apply,
    val_main_cst_22_apply, val_main_cst_23_apply, val_main_cst_24_apply]
  simp only [e130]
  simp only [val_main_v129_apply, val_main_v128_apply, val_main_v127_apply, val_main_v126_apply]
  simp only [e126, Ideal.hostDivf_def, Ideal.hostUnary_rsqrt_def, Ideal.addf_def, Ideal.subf_def, Ideal.mulf_def, Ideal.ofBits_def,
    Ideal.ofBits_zero_f32, Consts.ofBits_nodes, Consts.ofBits_eps]

open Cert.ReferenceIdeal.Stages in
/-- The reference's first batch norm at node `n`, lane `j`: centred, scaled by the reciprocal deviation and the gain, shifted. -/
theorem bn_ref_apply (m : Mem) (c : Dev Cert.KernelIdeal.nD) (n : Fin 50000) (j : Fin 128) :
    sBn1 m c (ix2 n j) = (sHin m c (ix2 n j) - sMean m c (ix1 j)) * sRs m c (ix1 j) * a22 m c (ix1 j) + a23 m c (ix1 j) := by
  have e133 : idx_main_v133 (idx_main_v134 (ix2 n j)) = ix1 j := funext fun a => Fin.ext (by match a with | ⟨0, _⟩ => rfl)
  have e139 : idx_main_v139 (idx_main_v140 (ix2 n j)) = ix1 j := funext fun a => Fin.ext (by match a with | ⟨0, _⟩ => rfl)
  have e142 : idx_main_v142 (idx_main_v143 (ix2 n j)) = ix1 j := funext fun a => Fin.ext (by match a with | ⟨0, _⟩ => rfl)
  have e145 : idx_main_v145 (idx_main_v146 (ix2 n j)) = ix1 j := funext fun a => Fin.ext (by match a with | ⟨0, _⟩ => rfl)
  unfold sBn1 sHin sMean sRs
  rw [val_main_v147_apply, val_main_v144_apply, val_main_v141_apply, val_main_v135_apply, val_main_v134_apply, val_main_v133_apply,
    val_main_v140_apply, val_main_v139_apply, val_main_v143_apply, val_main_v142_apply, val_main_v146_apply, val_main_v145_apply,
    e133, e139, e142, e145]
  rfl

/-- THE LAW at a node and a lane: the kernel's `x · (g·r) + (b - μ·(g·r))` is the reference's batch norm, for real gain and bias. -/
theorem bn_apply (m : Mem) (c : Dev Cert.KernelIdeal.nD) (hg : RealVec (a22 m c)) (hb : RealVec (a23 m c)) (n : Fin 50000) (j : Fin 128) :
    sHin m c (ix2 n j) * (a22 m c (ix1 j) * sRs m c (ix1 j)) + (a23 m c (ix1 j) - sMean m c (ix1 j) * (a22 m c (ix1 j) * sRs m c (ix1 j)))
      = sBn1 m c (ix2 n j) := by
  obtain ⟨g, hg'⟩ := hg (ix1 j)
  obtain ⟨b, hb'⟩ := hb (ix1 j)
  rw [bn_ref_apply, rs_apply, mean_apply, hg', hb']
  exact bn_affine_eq (fun k : Fin 50000 => sHin m c (ix2 k j)) g b 50000 (10995116 / 2 ^ 40) (by norm_num) Consts.eps_pos n

/-! ## One point of the grid: the body's result on block `t` is rows `2000·t …` of the reference's stage -/

/-- Row `p` of block `t` is node `2000·t + p`. -/
def rowIx (t : Nat) (ht : t < 25) (p : Fin 2000) : Fin 50000 := ⟨2000 * t + p.val, by have := p.isLt; omega⟩

open Cert.ReferenceIdeal.Stages in
theorem point_eq (m : Mem) (c : Dev Cert.KernelIdeal.nD) (hg : RealVec (a22 m c)) (hb : RealVec (a23 m c))
    (x0 : FVec Ideal S2000x128 .f32) (sc sh : FVec Ideal S128 .f32) (w1 : FVec Ideal S128x256 .bf16) (b1 : FVec Ideal S256 .f32)
    (w2 : FVec Ideal S256x128 .bf16) (b2 : FVec Ideal S128 .f32) (t : Nat) (ht : t < 25)
    (h0 : ∀ (p : Fin 2000) (j : Fin 128), x0 (ix2 p j) = sHin m c (ix2 (rowIx t ht p) j))
    (h1 : ∀ j : Fin 128, sc (ix1 j) = a22 m c (ix1 j) * sRs m c (ix1 j))
    (h2 : ∀ j : Fin 128, sh (ix1 j) = a23 m c (ix1 j) - sMean m c (ix1 j) * (a22 m c (ix1 j) * sRs m c (ix1 j)))
    (h3 : ∀ (l : Fin 128) (k : Fin 256), w1 (ix2 l k) = val_main_v148 (F := Ideal) (a18 m c) (ix2 l k))
    (h4 : ∀ k : Fin 256, b1 (ix1 k) = a19 m c (ix1 k))
    (h5 : ∀ (k : Fin 256) (j : Fin 128), w2 (ix2 k j) = val_main_v154 (F := Ideal) (a20 m c) (ix2 k j))
    (h6 : ∀ j : Fin 128, b2 (ix1 j) = a21 m c (ix1 j))
    (p : Fin 2000) (j : Fin 128) :
    k2_pay1 (F := Ideal) x0 sc sh w1 b1 w2 b2 (ix2 p j) = sPre m c (ix2 (rowIx t ht p) j) := by
  have hA : ∀ l : Fin 128, affV x0 sc sh (ix2 p l) = sBn1 m c (ix2 (rowIx t ht p) l) := fun l => by
    rw [affV_apply, h0, h1, h2]; exact bn_apply m c hg hb (rowIx t ht p) l
  rw [pay_eq, outV_apply, ref_ffn_apply, hA]
  simp only [hidV_apply, hA, h3, h4, h5, h6]

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: windows 0 and 7 move with the point along the rows, the others stay. -/
theorem idx_facts : ∀ t : Fin cfg2.N, win2_0.index t (0 : Fin 2) = t.val ∧ win2_0.index t (1 : Fin 2) = 0
    ∧ win2_7.index t (0 : Fin 2) = t.val ∧ win2_7.index t (1 : Fin 2) = 0
    ∧ win2_1.index t (0 : Fin 1) = 0 ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0 :=
  (by decide +kernel : ∀ t : Fin grid2.N, _)

theorem lt_N (t : Fin cfg2.N) : t.val < 25 := Nat.lt_of_lt_of_eq t.isLt (show cfg2.N = 25 from N_2)

variable (m : Mem) (ρ : Dev Cert.KernelIdeal.nD → PrngReg) (c : Dev Cert.KernelIdeal.nD)

/-! ### Each input window's block at a point, read off its array -/

theorem blk0_apply (e : Entry2 m ρ c) (t : Fin cfg2.N) (p : Fin 2000) (j : Fin 128) :
    (iblk2 (F := Ideal) (V5 m ρ) c 0 t : FVec Ideal S2000x128 .f32) (ix2 p j) = sHin m c (ix2 (rowIx t.val (lt_N t) p) j) := by
  obtain ⟨i00, i01, -⟩ := idx_facts t
  show V5 (F := Ideal) m ρ c main_v56 (((cfg2.win 0).blk t).view.emb (ix2 p j)) = _
  rw [e.hin]
  refine congrArg (sHin m c) (funext fun a => Fin.ext ?_)
  match a with
  | ⟨0, _⟩ => show win2_0.index t (0 : Fin 2) * 2000 + 1 * p.val = 2000 * t.val + p.val; rw [i00]; omega
  | ⟨1, _⟩ => show win2_0.index t (1 : Fin 2) * 128 + 1 * j.val = j.val; rw [i01]; omega

theorem blk1_apply (e : Entry2 m ρ c) (t : Fin cfg2.N) (j : Fin 128) :
    (iblk2 (F := Ideal) (V5 m ρ) c 1 t : FVec Ideal S128 .f32) (ix1 j) = a22 m c (ix1 j) * sRs m c (ix1 j) := by
  obtain ⟨-, -, -, -, i1, -⟩ := idx_facts t
  have he : ((cfg2.win 1).blk t).view.emb (ix1 j) = ix1 j := funext fun a => Fin.ext (by
    match a with | ⟨0, _⟩ => show win2_1.index t (0 : Fin 1) * 128 + 1 * j.val = j.val; rw [i1]; omega)
  show V5 (F := Ideal) m ρ c main_v70 (((cfg2.win 1).blk t).view.emb (ix1 j)) = _
  rw [e.scale, he]
  rfl

theorem blk2_apply (e : Entry2 m ρ c) (t : Fin cfg2.N) (j : Fin 128) :
    (iblk2 (F := Ideal) (V5 m ρ) c 2 t : FVec Ideal S128 .f32) (ix1 j)
      = a23 m c (ix1 j) - sMean m c (ix1 j) * (a22 m c (ix1 j) * sRs m c (ix1 j)) := by
  obtain ⟨-, -, -, -, -, i2, -⟩ := idx_facts t
  have he : ((cfg2.win 2).blk t).view.emb (ix1 j) = ix1 j := funext fun a => Fin.ext (by
    match a with | ⟨0, _⟩ => show win2_2.index t (0 : Fin 1) * 128 + 1 * j.val = j.val; rw [i2]; omega)
  show V5 (F := Ideal) m ρ c main_v72 (((cfg2.win 2).blk t).view.emb (ix1 j)) = _
  rw [e.shift, he]
  rfl

open Cert.ReferenceIdeal.Stages in
theorem blk3_apply (e : Entry2 m ρ c) (t : Fin cfg2.N) (l : Fin 128) (k : Fin 256) :
    (iblk2 (F := Ideal) (V5 m ρ) c 3 t : FVec Ideal S128x256 .bf16) (ix2 l k) = val_main_v148 (F := Ideal) (a18 m c) (ix2 l k) := by
  obtain ⟨-, -, -, -, -, -, i30, i31, -⟩ := idx_facts t
  have he : ((cfg2.win 3).blk t).view.emb (ix2 l k) = ix2 l k := funext fun a => Fin.ext (by
    match a with
    | ⟨0, _⟩ => show win2_3.index t (0 : Fin 2) * 128 + 1 * l.val = l.val; rw [i30]; omega
    | ⟨1, _⟩ => show win2_3.index t (1 : Fin 2) * 256 + 1 * k.val = k.val; rw [i31]; omega)
  show V5 (F := Ideal) m ρ c main_v17 (((cfg2.win 3).blk t).view.emb (ix2 l k)) = _
  rw [e.w1, he]
  rfl

theorem blk4_apply (e : Entry2 m ρ c) (t : Fin cfg2.N) (k : Fin 256) :
    (iblk2 (F := Ideal) (V5 m ρ) c 4 t : FVec Ideal S256 .f32) (ix1 k) = a19 m c (ix1 k) := by
  obtain ⟨-, -, -, -, -, -, -, -, i4, -⟩ := idx_facts t
  have he : ((cfg2.win 4).blk t).view.emb (ix1 k) = ix1 k := funext fun a => Fin.ext (by
    match a with | ⟨0, _⟩ => show win2_4.index t (0 : Fin 1) * 256 + 1 * k.val = k.val; rw [i4]; omega)
  show V5 (F := Ideal) m ρ c main_arg19 (((cfg2.win 4).blk t).view.emb (ix1 k)) = _
  rw [e.b1, he]

open Cert.ReferenceIdeal.Stages in
theorem blk5_apply (e : Entry2 m ρ c) (t : Fin cfg2.N) (k : Fin 256) (j : Fin 128) :
    (iblk2 (F := Ideal) (V5 m ρ) c 5 t : FVec Ideal S256x128 .bf16) (ix2 k j) = val_main_v154 (F := Ideal) (a20 m c) (ix2 k j) := by
  obtain ⟨-, -, -, -, -, -, -, -, -, i50, i51, -⟩ := idx_facts t
  have he : ((cfg2.win 5).blk t).view.emb (ix2 k j) = ix2 k j := funext fun a => Fin.ext (by
    match a with
    | ⟨0, _⟩ => show win2_5.index t (0 : Fin 2) * 256 + 1 * k.val = k.val; rw [i50]; omega
    | ⟨1, _⟩ => show win2_5.index t (1 : Fin 2) * 128 + 1 * j.val = j.val; rw [i51]; omega)
  show V5 (F := Ideal) m ρ c main_v19 (((cfg2.win 5).blk t).view.emb (ix2 k j)) = _
  rw [e.w2, he]
  rfl

theorem blk6_apply (e : Entry2 m ρ c) (t : Fin cfg2.N) (j : Fin 128) :
    (iblk2 (F := Ideal) (V5 m ρ) c 6 t : FVec Ideal S128 .f32) (ix1 j) = a21 m c (ix1 j) := by
  obtain ⟨-, -, -, -, -, -, -, -, -, -, -, i6⟩ := idx_facts t
  have he : ((cfg2.win 6).blk t).view.emb (ix1 j) = ix1 j := funext fun a => Fin.ext (by
    match a with | ⟨0, _⟩ => show win2_6.index t (0 : Fin 1) * 128 + 1 * j.val = j.val; rw [i6]; omega)
  show V5 (F := Ideal) m ρ c main_arg21 (((cfg2.win 6).blk t).view.emb (ix1 j)) = _
  rw [e.b2, he]

/-- Row `p`, lane `j` of the output's block at point `t` sits at node `2000·t + p`, lane `j` of its array. -/
theorem emb7 (t : Fin cfg2.N) (p : Fin 2000) (j : Fin 128) :
    ((cfg2.win 7).blk t).view.emb (ix2 p j) = ix2 (rowIx t.val (lt_N t) p) j := by
  obtain ⟨-, -, i70, i71, -⟩ := idx_facts t
  funext a; apply Fin.ext
  match a with
  | ⟨0, _⟩ => show win2_7.index t (0 : Fin 2) * 2000 + 1 * p.val = 2000 * t.val + p.val; rw [i70]; omega
  | ⟨1, _⟩ => show win2_7.index t (1 : Fin 2) * 128 + 1 * j.val = j.val; rw [i71]; omega

/-- WHAT POINT `t` WRITES BACK is block `t` of the reference's stage. -/
theorem flushed_eq (e : Entry2 m ρ c) (hg : RealVec (a22 m c)) (hb : RealVec (a23 m c)) (t : Fin cfg2.N) :
    (dat2 (F := Ideal) (V5 m ρ) c).flushed 7 t = ((cfg2.win 7).blk t).view.read (Elt Ideal) (sPre m c) := by
  show (cfg2.win 7).cut (grid2.coords t) ((dat2 (F := Ideal) (V5 m ρ) c).after 7 t) = _
  rw [after2_7]
  unfold out2_7
  rw [View.canon_unit_zero hz2]
  simp only [View.ld_unit_zero (S := S2000x128) hz2, View.ld_unit_zero (S := S128) hz1, View.ld_unit_zero (S := S128x256) hz2,
    View.ld_unit_zero (S := S256) hz1, View.ld_unit_zero (S := S256x128) hz2]
  funext y
  obtain ⟨p, j, rfl⟩ : ∃ (p : Fin 2000) (j : Fin 128), y = ix2 p j := ⟨y 0, y 1, eq_ix2 y⟩
  show k2_pay1 (F := Ideal) (iblk2 (V5 m ρ) c 0 t) (iblk2 (V5 m ρ) c 1 t) (iblk2 (V5 m ρ) c 2 t) (iblk2 (V5 m ρ) c 3 t)
      (iblk2 (V5 m ρ) c 4 t) (iblk2 (V5 m ρ) c 5 t) (iblk2 (V5 m ρ) c 6 t) (ix2 p j)
    = sPre m c (((cfg2.win 7).blk t).view.emb (ix2 p j))
  rw [emb7 t p j]
  exact point_eq m c hg hb (iblk2 (V5 m ρ) c 0 t) (iblk2 (V5 m ρ) c 1 t) (iblk2 (V5 m ρ) c 2 t) (iblk2 (V5 m ρ) c 3 t)
      (iblk2 (V5 m ρ) c 4 t) (iblk2 (V5 m ρ) c 5 t) (iblk2 (V5 m ρ) c 6 t) t.val (lt_N t)
      (blk0_apply m ρ c e t) (blk1_apply m ρ c e t) (blk2_apply m ρ c e t) (blk3_apply m ρ c e t)
      (blk4_apply m ρ c e t) (blk5_apply m ρ c e t) (blk6_apply m ρ c e t) p j

/-- An index of the array is in point `t`'s block iff each coordinate is in the block's range on its axis. -/
theorem mem_blk7 (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v73).slice (win2_7.rect t)).set ↔ _
  rw [View.set_slice_whole, Rect.mem_set_unit]
  exact Iff.rfl

/-- Row `r` of the array lies in the block of point `r / 2000`. -/
theorem cover (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, i70, i71, -⟩ := idx_facts t
  refine ⟨t, flush2_7 t, ?_⟩
  rw [mem_blk7]
  intro a
  match a with
  | ⟨0, _⟩ => show win2_7.index t (0 : Fin 2) * 2000 ≤ (i 0).val ∧ (i 0).val < win2_7.index t (0 : Fin 2) * 2000 + 2000; rw [i70]; omega
  | ⟨1, _⟩ => show win2_7.index t (1 : Fin 2) * 128 ≤ (i 1).val ∧ (i 1).val < win2_7.index t (1 : Fin 2) * 128 + 128; rw [i71]; omega

end Region2

variable (m : Mem) (ρ : Dev Cert.KernelIdeal.nD → PrngReg) (c : Dev Cert.KernelIdeal.nD)

theorem region2_value (e : Entry2 m ρ c) (hg : RealVec (a22 m c)) (hb : RealVec (a23 m c)) : Out2 m ρ c :=
  (dat2 (F := Ideal) (V5 m ρ) c).arrAt_eq_of_cover 7 (sPre m c) (fun t _ => Region2.flushed_eq m ρ c e hg hb t) Region2.cover

end Cert.Bridge

end
-- ==== Proof.Host3.lean ====
/-
  Stretch 3: the second batch norm.
-/
import proofs.«426868_j52097953300855_3_alg».proof.Proof.Interfaces
import Idealize.ShloMosaic.Lib.StableHlo.Run
set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat Cfg Window)

variable (m : Mem) (ρ : Dev Cert.KernelIdeal.nD → PrngReg) (c : Dev Cert.KernelIdeal.nD)

/-- The buffers the thirty operations of the stretch write. -/
private abbrev written3 : List (Ref sig .tc) :=
  [main_cst_11, main_v74, main_cst_12, main_v75, main_v76, main_v77, main_v78, main_v79, main_v80, main_cst_13, main_v81, main_cst_14,
   main_v82, main_v83, main_v84, main_v85, main_v86, main_cst_15, main_v87, main_v88, main_v89, main_v90, main_v91, main_v92, main_v93,
   main_v94, main_v95, main_v96, main_v97, main_v98]

/-- Each operation of the stretch writes one of those. -/
private theorem hostOps3_writes :
    (hostOps3 (F := Ideal)).Forall fun op => op.writes ⊆ (written3.map (Proc.devRef (τ := τ) .tc)).toFinset := by
  simp only [hostOps3, List.Forall, StableHlo.nullary_writes, StableHlo.unary_writes, StableHlo.binary_writes,
    Finset.singleton_subset_iff, List.mem_toFinset, List.mem_map]
  repeat' apply And.intro
  all_goals exact ⟨_, by decide, rfl⟩

/-- The gain of the second batch norm is still the launched argument when the stretch begins. -/
private theorem W6_gain : W6 (F := Ideal) m ρ c (Proc.devRef .tc main_arg24) = a24 m c :=
  (StableHlo.after_of_writes_sub (r := main_arg24) (hostOps3 (F := Ideal)) (W6 m ρ c) hostOps3_writes (by decide)).symm.trans
    (W7_main_arg24 m ρ c)

/-- The bias of the second batch norm is still the launched argument when the stretch begins. -/
private theorem W6_bias : W6 (F := Ideal) m ρ c (Proc.devRef .tc main_arg25) = a25 m c :=
  (StableHlo.after_of_writes_sub (r := main_arg25) (hostOps3 (F := Ideal)) (W6 m ρ c) hostOps3_writes (by decide)).symm.trans
    (W7_main_arg25 m ρ c)

/-- The stretch from any contents: when the batch norm's input holds the reference's stage 159 at some arrays and the
    gain and bias hold the last two of them, the stretch's last buffer holds the reference's result at the same arrays,
    the two programs applying the same column mean, variance, reciprocal root, scale and shift. -/
private theorem tail_of (V : Valuation τ sig (Elt Ideal)) (x0 : (⟨Cert.ReferenceIdeal.S50000x128, .f32⟩ : BufTy).Contents (Elt Ideal)) (x1 : (⟨Cert.ReferenceIdeal.S500000, .i32⟩ : BufTy).Contents (Elt Ideal)) (x2 : (⟨Cert.ReferenceIdeal.S500000, .i32⟩ : BufTy).Contents (Elt Ideal)) (x3 : (⟨Cert.ReferenceIdeal.S384x128, .f32⟩ : BufTy).Contents (Elt Ideal)) (x4 : (⟨Cert.ReferenceIdeal.S384, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S512x128, .f32⟩ : BufTy).Contents (Elt Ideal)) (x8 : (⟨Cert.ReferenceIdeal.S512, .f32⟩ : BufTy).Contents (Elt Ideal)) (x9 : (⟨Cert.ReferenceIdeal.S128x512, .f32⟩ : BufTy).Contents (Elt Ideal)) (x10 : (⟨Cert.ReferenceIdeal.S128, .f32⟩ : BufTy).Contents (Elt Ideal)) (x11 : (⟨Cert.ReferenceIdeal.S128, .f32⟩ : BufTy).Contents (Elt Ideal)) (x12 : (⟨Cert.ReferenceIdeal.S128, .f32⟩ : BufTy).Contents (Elt Ideal)) (x13 : (⟨Cert.ReferenceIdeal.S128, .f32⟩ : BufTy).Contents (Elt Ideal)) (x14 : (⟨Cert.ReferenceIdeal.S128, .f32⟩ : BufTy).Contents (Elt Ideal)) (x15 : (⟨Cert.ReferenceIdeal.S128x128, .f32⟩ : BufTy).Contents (Elt Ideal)) (x16 : (⟨Cert.ReferenceIdeal.S128x128, .f32⟩ : BufTy).Contents (Elt Ideal)) (x17 : (⟨Cert.ReferenceIdeal.S128x128, .f32⟩ : BufTy).Contents (Elt Ideal)) (x18 : (⟨Cert.ReferenceIdeal.S256x128, .f32⟩ : BufTy).Contents (Elt Ideal)) (x19 : (⟨Cert.ReferenceIdeal.S256, .f32⟩ : BufTy).Contents (Elt Ideal)) (x20 : (⟨Cert.ReferenceIdeal.S128x256, .f32⟩ : BufTy).Contents (Elt Ideal)) (x21 : (⟨Cert.ReferenceIdeal.S128, .f32⟩ : BufTy).Contents (Elt Ideal)) (x22 : (⟨Cert.ReferenceIdeal.S128, .f32⟩ : BufTy).Contents (Elt Ideal)) (x23 : (⟨Cert.ReferenceIdeal.S128, .f32⟩ : BufTy).Contents (Elt Ideal)) (x24 : (⟨Cert.ReferenceIdeal.S128, .f32⟩ : BufTy).Contents (Elt Ideal)) (x25 : (⟨Cert.ReferenceIdeal.S128, .f32⟩ : BufTy).Contents (Elt Ideal))
    (hy : V (Proc.devRef .tc main_v73) = Cert.ReferenceIdeal.Stages.val_main_v159 (F := Ideal) x0 x1 x2 x3 x4 x5 x6 x7 x8 x9 x10 x11 x12 x13 x14 x15 x16 x17 x18 x19 x20 x21 x22 x23)
    (hg : V (Proc.devRef .tc main_arg24) = x24) (hb : V (Proc.devRef .tc main_arg25) = x25) :
    StableHlo.after (hostOps3 (F := Ideal)) V (Proc.devRef .tc main_v98)
      = Cert.ReferenceIdeal.Stages.val_main_v184 (F := Ideal) x0 x1 x2 x3 x4 x5 x6 x7 x8 x9 x10 x11 x12 x13 x14 x15 x16 x17 x18 x19 x20 x21 x22 x23 x24 x25 := by
  after_results_simp
  rw [hy, hg, hb]
  unfold Cert.ReferenceIdeal.Stages.val_main_v184 Cert.ReferenceIdeal.Stages.val_main_v183 Cert.ReferenceIdeal.Stages.val_main_v182 Cert.ReferenceIdeal.Stages.val_main_v181 Cert.ReferenceIdeal.Stages.val_main_v180 Cert.ReferenceIdeal.Stages.val_main_v179 Cert.ReferenceIdeal.Stages.val_main_v178 Cert.ReferenceIdeal.Stages.val_main_v177 Cert.ReferenceIdeal.Stages.val_main_v176
    Cert.ReferenceIdeal.Stages.val_main_v175 Cert.ReferenceIdeal.Stages.val_main_v174 Cert.ReferenceIdeal.Stages.val_main_v173 Cert.ReferenceIdeal.Stages.val_main_v172 Cert.ReferenceIdeal.Stages.val_main_v171 Cert.ReferenceIdeal.Stages.val_main_v170 Cert.ReferenceIdeal.Stages.val_main_v169 Cert.ReferenceIdeal.Stages.val_main_v168 Cert.ReferenceIdeal.Stages.val_main_v167
    Cert.ReferenceIdeal.Stages.val_main_v166 Cert.ReferenceIdeal.Stages.val_main_v165 Cert.ReferenceIdeal.Stages.val_main_v164 Cert.ReferenceIdeal.Stages.val_main_v163 Cert.ReferenceIdeal.Stages.val_main_v162 Cert.ReferenceIdeal.Stages.val_main_v161 Cert.ReferenceIdeal.Stages.val_main_v160
    Cert.ReferenceIdeal.Stages.val_main_cst_25 Cert.ReferenceIdeal.Stages.val_main_cst_26 Cert.ReferenceIdeal.Stages.val_main_cst_27 Cert.ReferenceIdeal.Stages.val_main_cst_28 Cert.ReferenceIdeal.Stages.val_main_cst_29
  generalize Cert.ReferenceIdeal.Stages.val_main_v159 (F := Ideal) x0 x1 x2 x3 x4 x5 x6 x7 x8 x9 x10 x11 x12 x13 x14 x15 x16 x17 x18 x19 x20 x21 x22 x23 = y
  rfl

theorem host3_value (o : Out2 m ρ c) : W7 (F := Ideal) m ρ c (Proc.devRef .tc main_v98) = sOut m c :=
  tail_of (W6 m ρ c) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c)
    ((W6_arr m ρ c 7).trans o) (W6_gain m ρ c) (W6_bias m ρ c)

end Cert.Bridge

end
-- ==== Proof.lean ====
/-
  The certificate of the graph-transformer layer: a kernel program of three grid regions (the
  per-node encoder and Q/K/V projections; the per-edge score, exponential and weighting; the batch
  norm as a precomputed scale and shift with the feed-forward block) among gathers, segment sums
  and batch statistics on the host, against the plain reference.

  At the ideal instance both programs compute the same extended reals. Region by region and
  stretch by stretch the kernel's buffers equal the reference's stages of the same meaning
  (Interfaces): the dense layers and layer norms are the same sums row by row; the edge score's
  factor 1/4 is the reference's division by 4; the gathers, segment sums and the second batch norm
  are the same host operations on equal arrays; and the first batch norm, which the kernel applies as
  `x · (g · r) + (b - mean · (g · r))` and the reference as `(x - mean) · r · g + b`, agrees on every
  column of extended reals when `g` and `b` are real (BatchNormLaw), which the precondition gives
  (PreReal). The frames of the two kernel programs are the generated ones; the reference's is its
  run over stages with the result dropped.
-/
import proofs.«426868_j52097953300855_3_alg».proof.Proof.Gen.Kernel
import proofs.«426868_j52097953300855_3_alg».proof.Proof.Gen.Kernel.Frame
import proofs.«426868_j52097953300855_3_alg».proof.Proof.Gen.KernelIdeal
import proofs.«426868_j52097953300855_3_alg».proof.Proof.Gen.KernelIdeal.Frame
import proofs.«426868_j52097953300855_3_alg».proof.Proof.Gen.ReferenceIdeal
import proofs.«426868_j52097953300855_3_alg».proof.Proof.Gen.Pre_finite_inputs
import proofs.«426868_j52097953300855_3_alg».proof.Defs
import proofs.«426868_j52097953300855_3_alg».proof.Proof.KernelRun
import proofs.«426868_j52097953300855_3_alg».proof.Proof.RefRun
import proofs.«426868_j52097953300855_3_alg».proof.Proof.PreReal
import proofs.«426868_j52097953300855_3_alg».proof.Proof.Host0
import proofs.«426868_j52097953300855_3_alg».proof.Proof.Region0
import proofs.«426868_j52097953300855_3_alg».proof.Proof.Host1
import proofs.«426868_j52097953300855_3_alg».proof.Proof.Region1
import proofs.«426868_j52097953300855_3_alg».proof.Proof.Host2
import proofs.«426868_j52097953300855_3_alg».proof.Proof.Region2
import proofs.«426868_j52097953300855_3_alg».proof.Proof.Host3
import Idealize.ShloMosaic.Adequacy
import Idealize.ShloMosaic.Init

set_option maxRecDepth 16384

noncomputable section

namespace Cert.Proof

open Idealize.ShloMosaic Idealize.SL.Sem Cert.Bridge

/-- The kernel program's result buffer, at the last boundary's contents, is the reference's last
    stage of the argument arrays: the seven pieces chained, each reading what the one before left. -/
theorem kernel_value [hPre : Cert.Pre_finite_inputs.Facts] (m : Mem) (ρ : Dev Cert.KernelIdeal.nD → PrngReg)
    (hpre : Cert.Pre_KernelIdeal m) (c : Dev Cert.KernelIdeal.nD) :
    Cert.KernelIdeal.Gen.W7 (F := Ideal) m ρ c (Proc.devRef .tc Cert.KernelIdeal.main_v98) = sOut m c := by
  have e0 := host0_value m ρ c
  have o0 := region0_value m ρ c e0
  have e1 := host1_value m ρ c o0
  have o1 := region1_value m ρ c e1
  have e2 := host2_value m ρ c o0 o1
  obtain ⟨hg, hb⟩ := bn1_params_real m hpre c
  exact host3_value m ρ c (region2_value m ρ c e2 hg hb)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.StagedRun.run (F := Ideal) m ρ),
  trivial,
  by
    intro m ρ m' ρ' hpre hagree
    refine ⟨fun c => sOut m c, ?_, ?_⟩
    · exact (θ_run Cert.KernelIdeal.defs _ _).mono (fun _ h c => ⟨(h c).1.trans (kernel_value m ρ hpre c), (h c).2⟩)
        (Cert.KernelIdeal.RunV.run (F := Ideal) m ρ)
    · refine (θ_run Cert.ReferenceIdeal.defs _ _).mono (fun _ h c => ⟨(h c).1.trans ?_, (h c).2⟩)
        (Cert.ReferenceIdeal.StagedRun.run (F := Ideal) m' ρ')
      obtain ⟨h0, h1, h2, h3, h4, h5, h6, h7, h8, h9, h10, h11, h12, h13, h14, h15, h16, h17, h18, h19, h20, h21, h22, h23, h24, h25⟩ := hagree c
      rw [h0, h1, h2, h3, h4, h5, h6, h7, h8, h9, h10, h11, h12, h13, h14, h15, h16, h17, h18, h19, h20, h21, h22, h23, h24, h25]⟩

end Cert.Proof

end
